-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v43)) (v1 : (c : Dev Cert.KernelIdeal.nD) → Buf (Elt Ideal) ((c.tc : Thread Cert.KernelIdeal.nD Cert.KernelIdeal.τ).loc Cert.KernelIdeal.main_v44)) (v2 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_v44) = v1 c
          ∧ r.2.mem ((c.tc : Thread Cert.KernelIdeal.nD Cert.KernelIdeal.τ).loc Cert.KernelIdeal.main_v45) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v79) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x1024 : Shape := ⟨3, ![16, 64, 1024]⟩
abbrev S32x128 : Shape := ⟨2, ![32, 128]⟩
abbrev S1152x128 : Shape := ⟨2, ![1152, 128]⟩
abbrev S128 : Shape := ⟨1, ![128]⟩
abbrev S128x128 : Shape := ⟨2, ![128, 128]⟩
abbrev S1024x256 : Shape := ⟨2, ![1024, 256]⟩
abbrev S256 : Shape := ⟨1, ![256]⟩
abbrev S256x32 : Shape := ⟨2, ![256, 32]⟩
abbrev S32 : Shape := ⟨1, ![32]⟩
abbrev S_ : Shape := ⟨0, ![]⟩

class Facts : Prop where
  bcast_S_S16x64x1024 : S_.BroadcastsInDim S16x64x1024 (![] : Fin 0 → Fin S16x64x1024.rank)
  reducesTo_S16x64x1024_S_d0_1_2 : S16x64x1024.ReducesTo [0, 1, 2] S_
  h_S_ : 0 < S_.numel
  bcast_S_S32x128 : S_.BroadcastsInDim S32x128 (![] : Fin 0 → Fin S32x128.rank)
  reducesTo_S32x128_S_d0_1 : S32x128.ReducesTo [0, 1] S_
  bcast_S_S1152x128 : S_.BroadcastsInDim S1152x128 (![] : Fin 0 → Fin S1152x128.rank)
  reducesTo_S1152x128_S_d0_1 : S1152x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_

variable [Facts]

def fn_part4 {F : FTy → Type} [FloatOps F] (main_arg14 : FVec F S32 .f32) (main_v63 : IVec S_ 1) (main_v67 : IVec S_ 1) : IVec S_ 1 :=
  let main_v68 : IVec S_ 1 := andi main_v63 main_v67
  let main_v69 : FVec F S32 .f32 := Host.absf main_arg14
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  main_v73

def fn_part3 {F : FTy → Type} [FloatOps F] (main_arg11 : FVec F S1024x256 .f32) (main_arg12 : FVec F S256 .f32) (main_arg13 : FVec F S256x32 .f32) (main_arg14 : FVec F S32 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S1024x256 .f32 := Host.absf main_arg11
  let main_cst_20 : FVec F S_ .f32 := constant S_ .f32 0x7F800000#32
  let main_v55 : FVec F S1024x256 .f32 := broadcastInDim S1024x256 ![] bcast_S_S1024x256 main_cst_20
  let main_v56 : IVec S1024x256 1 := cmpf .olt main_v54 main_v55
  let main_c_21 : IVec S_ 1 := constantI S_ 1 1#1
  let main_v57 : IVec S_ 1 := (fun x v => Host.reduce IntOp.andi x v reducesTo_S1024x256_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x32 .f32 := Host.absf main_arg13
  let main_cst_24 : FVec F S_ .f32 := constant S_ .f32 0x7F800000#32
  let main_v65 : FVec F S256x32 .f32 := broadcastInDim S256x32 ![] bcast_S_S256x32 main_cst_24
  let main_v66 : IVec S256x32 1 := cmpf .olt main_v64 main_v65
  let main_c_25 : IVec S_ 1 := constantI S_ 1 1#1
  let main_v67 : IVec S_ 1 := (fun x v => Host.reduce IntOp.andi x v reducesTo_S256x32_S_d0_1 h_S_) main_v66 main_c_25
  fn_part4 (F := F) main_arg14 main_v63 main_v67

def fn_part2 {F : FTy → Type} [FloatOps F] (main_arg7 : FVec F S128x128 .f32) (main_arg8 : FVec F S128 .f32) (main_arg9 : FVec F S1152x128 .f32) (main_arg10 : FVec F S128 .f32) (main_arg11 : FVec F S1024x256 .f32) (main_arg12 : FVec F S256 .f32) (main_arg13 : FVec F S256x32 .f32) (main_arg14 : FVec F S32 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S1152x128 .f32 := Host.absf main_arg9
  let main_cst_16 : FVec F S_ .f32 := constant S_ .f32 0x7F800000#32
  let main_v45 : FVec F S1152x128 .f32 := broadcastInDim S1152x128 ![] bcast_S_S1152x128 main_cst_16
  let main_v46 : IVec S1152x128 1 := cmpf .olt main_v44 main_v45
  let main_c_17 : IVec S_ 1 := constantI S_ 1 1#1
  let main_v47 : IVec S_ 1 := (fun x v => Host.reduce IntOp.andi x v reducesTo_S1152x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_v48 main_v49 main_v50

def fn_part1 {F : FTy → Type} [FloatOps F] (main_arg4 : FVec F S128 .f32) (main_arg5 : FVec F S128 .f32) (main_arg6 : FVec F S128 .f32) (main_arg7 : FVec F S128x128 .f32) (main_arg8 : FVec F S128 .f32) (main_arg9 : FVec F S1152x128 .f32) (main_arg10 : FVec F S128 .f32) (main_arg11 : FVec F S1024x256 .f32) (main_arg12 : FVec F S256 .f32) (main_arg13 : FVec F S256x32 .f32) (main_arg14 : FVec F S32 .f32) (main_v13 : IVec S_ 1) (main_v16 : IVec S1152x128 1) : IVec S_ 1 :=
  let main_c_5 : IVec S_ 1 := constantI S_ 1 1#1
  let main_v17 : IVec S_ 1 := (fun x v => Host.reduce IntOp.andi x v reducesTo_S1152x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S16x64x1024 .f32) (main_arg1 : FVec F S32x128 .f32) (main_arg2 : FVec F S32x128 .f32) (main_arg3 : FVec F S1152x128 .f32) (main_arg4 : FVec F S128 .f32) (main_arg5 : FVec F S128 .f32) (main_arg6 : FVec F S128 .f32) (main_arg7 : FVec F S128x128 .f32) (main_arg8 : FVec F S128 .f32) (main_arg9 : FVec F S1152x128 .f32) (main_arg10 : FVec F S128 .f32) (main_arg11 : FVec F S1024x256 .f32) (main_arg12 : FVec F S256 .f32) (main_arg13 : FVec F S256x32 .f32) (main_arg14 : FVec F S32 .f32) : IVec S_ 1 :=
  let main_v0 : FVec F S16x64x1024 .f32 := Host.absf main_arg0
  let main_cst : FVec F S_ .f32 := constant S_ .f32 0x7F800000#32
  let main_v1 : FVec F S16x64x1024 .f32 := broadcastInDim S16x64x1024 ![] bcast_S_S16x64x1024 main_cst
  let main_v2 : IVec S16x64x1024 1 := cmpf .olt main_v0 main_v1
  let main_c : IVec S_ 1 := constantI S_ 1 1#1
  let main_v3 : IVec S_ 1 := (fun x v => Host.reduce IntOp.andi x v reducesTo_S16x64x1024_S_d0_1_2 h_S_) main_v2 main_c
  let main_v4 : FVec F S32x128 .f32 := Host.absf main_arg1
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S32x128 .f32 := Host.absf main_arg2
  let main_cst_2 : FVec F S_ .f32 := constant S_ .f32 0x7F800000#32
  let main_v10 : FVec F S32x128 .f32 := broadcastInDim S32x128 ![] bcast_S_S32x128 main_cst_2
  let main_v11 : IVec S32x128 1 := cmpf .olt main_v9 main_v10
  let main_c_3 : IVec S_ 1 := constantI S_ 1 1#1
  let main_v12 : IVec S_ 1 := (fun x v => Host.reduce IntOp.andi x v reducesTo_S32x128_S_d0_1 h_S_) main_v11 main_c_3
  let main_v13 : IVec S_ 1 := andi main_v8 main_v12
  let main_v14 : FVec F S1152x128 .f32 := Host.absf main_arg3
  let main_cst_4 : FVec F S_ .f32 := constant S_ .f32 0x7F800000#32
  let main_v15 : FVec F S1152x128 .f32 := broadcastInDim S1152x128 ![] bcast_S_S1152x128 main_cst_4
  let main_v16 : IVec S1152x128 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S16x64x1024 : Shape := ⟨3, ![16, 64, 1024]⟩
abbrev S32x128 : Shape := ⟨2, ![32, 128]⟩
abbrev S1152x128 : Shape := ⟨2, ![1152, 128]⟩
abbrev S128 : Shape := ⟨1, ![128]⟩
abbrev S128x128 : Shape := ⟨2, ![128, 128]⟩
abbrev S1024x256 : Shape := ⟨2, ![1024, 256]⟩
abbrev S256 : Shape := ⟨1, ![256]⟩
abbrev S256x32 : Shape := ⟨2, ![256, 32]⟩
abbrev S32 : Shape := ⟨1, ![32]⟩
abbrev S1024x1024 : Shape := ⟨2, ![1024, 1024]⟩
abbrev S_ : Shape := ⟨0, ![]⟩
abbrev S1x128 : Shape := ⟨2, ![1, 128]⟩
abbrev S32x1 : Shape := ⟨2, ![32, 1]⟩
abbrev S128x32 : Shape := ⟨2, ![128, 32]⟩
abbrev S1024x128 : Shape := ⟨2, ![1024, 128]⟩
abbrev S1024x512 : Shape := ⟨2, ![1024, 512]⟩
abbrev S1024x32 : Shape := ⟨2, ![1024, 32]⟩
abbrev S1024x32x128 : Shape := ⟨3, ![1024, 32, 128]⟩
abbrev S128x1024 : Shape := ⟨2, ![128, 1024]⟩
abbrev S128x32x128 : Shape := ⟨3, ![128, 32, 128]⟩
abbrev S128x512 : Shape := ⟨2, ![128, 512]⟩
abbrev S128x256 : Shape := ⟨2, ![128, 256]⟩
abbrev S1x256 : Shape := ⟨2, ![1, 256]⟩
abbrev S1x32 : Shape := ⟨2, ![1, 32]⟩
abbrev S128x1 : Shape := ⟨2, ![128, 1]⟩
abbrev S128x1x128 : Shape := ⟨3, ![128, 1, 128]⟩
abbrev S1x32x128 : Shape := ⟨3, ![1, 32, 128]⟩
abbrev S128x32x1 : Shape := ⟨3, ![128, 32, 1]⟩
abbrev S1x1x128 : Shape := ⟨3, ![1, 1, 128]⟩
abbrev S16x64x32 : Shape := ⟨3, ![16, 64, 32]⟩
abbrev S16x64x32x128 : Shape := ⟨4, ![16, 64, 32, 128]⟩

abbrev nBuf : Space → Nat
  | .hbm => 69
  | .vmem => 19
  | .smem => 0
  | _ => 0

abbrev bufTy : (tb : Table) → Fin (tcTables nBuf tb) → BufTy
  | .hbm, ⟨0, _⟩ => ⟨S16x64x1024, .f32⟩
  | .hbm, ⟨1, _⟩ => ⟨S32x128, .f32⟩
  | .hbm, ⟨2, _⟩ => ⟨S32x128, .f32⟩
  | .hbm, ⟨3, _⟩ => ⟨S1152x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1152x128, .f32⟩
  | .hbm, ⟨10, _⟩ => ⟨S128, .f32⟩
  | .hbm, ⟨11, _⟩ => ⟨S1024x256, .f32⟩
  | .hbm, ⟨12, _⟩ => ⟨S256, .f32⟩
  | .hbm, ⟨13, _⟩ => ⟨S256x32, .f32⟩
  | .hbm, ⟨14, _⟩ => ⟨S32, .f32⟩
  | .hbm, ⟨15, _⟩ => ⟨S1024x1024, .f32⟩
  | .hbm, ⟨16, _⟩ => ⟨S_, .f32⟩
  | .hbm, ⟨17, _⟩ => ⟨S32x128, .f32⟩
  | .hbm, ⟨18, _⟩ => ⟨S32x128, .f32⟩
  | .hbm, ⟨19, _⟩ => ⟨S_, .f32⟩
  | .hbm, ⟨20, _⟩ => ⟨S32x128, .f32⟩
  | .hbm, ⟨21, _⟩ => ⟨S32x128, .f32⟩
  | .hbm, ⟨22, _⟩ => ⟨S32x128, .f32⟩
  | .hbm, ⟨23, _⟩ => ⟨S128x128, .f32⟩
  | .hbm, ⟨24, _⟩ => ⟨S32x128, .f32⟩
  | .hbm, ⟨25, _⟩ => ⟨S1x128, .f32⟩
  | .hbm, ⟨26, _⟩ => ⟨S32x128, .f32⟩
  | .hbm, ⟨27, _⟩ => ⟨S32x128, .f32⟩
  | .hbm, ⟨28, _⟩ => ⟨S_, .f32⟩
  | .hbm, ⟨29, _⟩ => ⟨S32, .f32⟩
  | .hbm, ⟨30, _⟩ => ⟨S32x1, .f32⟩
  | .hbm, ⟨31, _⟩ => ⟨S_, .f32⟩
  | .hbm, ⟨32, _⟩ => ⟨S32x1, .f32⟩
  | .hbm, ⟨33, _⟩ => ⟨S32x1, .f32⟩
  | .hbm, ⟨34, _⟩ => ⟨S32x128, .f32⟩
  | .hbm, ⟨35, _⟩ => ⟨S32x128, .f32⟩
  | .hbm, ⟨36, _⟩ => ⟨S32x128, .f32⟩
  | .hbm, ⟨37, _⟩ => ⟨S_, .f32⟩
  | .hbm, ⟨38, _⟩ => ⟨S32, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S128x32, .f32⟩
  | .hbm, ⟨43, _⟩ => ⟨S128x32, .bf16⟩
  | .hbm, ⟨44, _⟩ => ⟨S1x128, .f32⟩
  | .hbm, ⟨45, _⟩ => ⟨S32x128, .f32⟩
  | .hbm, ⟨46, _⟩ => ⟨S32x128, .f32⟩
  | .hbm, ⟨47, _⟩ => ⟨S32x128, .f32⟩
  | .hbm, ⟨48, _⟩ => ⟨S1x128, .f32⟩
  | .hbm, ⟨49, _⟩ => ⟨S1x128, .f32⟩
  | .hbm, ⟨50, _⟩ => ⟨S128, .f32⟩
  | .hbm, ⟨51, _⟩ => ⟨S128, .f32⟩
  | .hbm, ⟨52, _⟩ => ⟨S128x128, .f32⟩
  | .hbm, ⟨53, _⟩ => ⟨S32x128, .f32⟩
  | .hbm, ⟨54, _⟩ => ⟨S1x128, .f32⟩
  | .hbm, ⟨55, _⟩ => ⟨S32x128, .f32⟩
  | .hbm, ⟨56, _⟩ => ⟨S32x128, .f32⟩
  | .hbm, ⟨57, _⟩ => ⟨S1024x128, .f32⟩
  | .hbm, ⟨58, _⟩ => ⟨S1024x128, .f32⟩
  | .hbm, ⟨59, _⟩ => ⟨S1024x512, .f32⟩
  | .hbm, ⟨60, _⟩ => ⟨S1024x512, .bf16⟩
  | .hbm, ⟨61, _⟩ => ⟨S128x128, .bf16⟩
  | .hbm, ⟨62, _⟩ => ⟨S256x32, .bf16⟩
  | .hbm, ⟨63, _⟩ => ⟨S1024x32, .f32⟩
  | .hbm, ⟨64, _⟩ => ⟨S1024x32x128, .f32⟩
  | .hbm, ⟨65, _⟩ => ⟨S1024x32x128, .f32⟩
  | .hbm, ⟨66, _⟩ => ⟨S16x64x32, .f32⟩
  | .hbm, ⟨67, _⟩ => ⟨S16x64x32x128, .f32⟩
  | .hbm, ⟨68, _⟩ => ⟨S16x64x32x128, .f32⟩
  | .local _ .vmem, ⟨0, _⟩ => ⟨S128x1024, .f32⟩
  | .local _ .vmem, ⟨1, _⟩ => ⟨S128x1024, .f32⟩
  | .local _ .vmem, ⟨2, _⟩ => ⟨S1024x512, .bf16⟩
  | .local _ .vmem, ⟨3, _⟩ => ⟨S256, .f32⟩
  | .local _ .vmem, ⟨4, _⟩ => ⟨S256x32, .bf16⟩
  | .local _ .vmem, ⟨5, _⟩ => ⟨S32, .f32⟩
  | .local _ .vmem, ⟨6, _⟩ => ⟨S32x128, .f32⟩
  | .local _ .vmem, ⟨7, _⟩ => ⟨S128x32, .bf16⟩
  | .local _ .vmem, ⟨8, _⟩ => ⟨S32, .f32⟩
  | .local _ .vmem, ⟨9, _⟩ => ⟨S32x128, .f32⟩
  | .local _ .vmem, ⟨10, _⟩ => ⟨S128, .f32⟩
  | .local _ .vmem, ⟨11, _⟩ => ⟨S128, .f32⟩
  | .local _ .vmem, ⟨12, _⟩ => ⟨S128x128, .bf16⟩
  | .local _ .vmem, ⟨13, _⟩ => ⟨S128x32, .f32⟩
  | .local _ .vmem, ⟨14, _⟩ => ⟨S128x32, .f32⟩
  | .local _ .vmem, ⟨15, _⟩ => ⟨S128x32x128, .f32⟩
  | .local _ .vmem, ⟨16, _⟩ => ⟨S128x32x128, .f32⟩
  | .local _ .vmem, ⟨17, _⟩ => ⟨S128x32x128, .f32⟩
  | .local _ .vmem, ⟨18, _⟩ => ⟨S128x32x128, .f32⟩
  | _, _ => ⟨S16x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_cst_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_cst_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42_0 : Ref sig .tc := ⟨.hbm, 63, rfl⟩
abbrev main_v42_1 : Ref sig .tc := ⟨.hbm, 64, rfl⟩
abbrev main_v42_2 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S128x32 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x32x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x32x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  shapeCasts_S16x64x1024_S1024x1024 : S16x64x1024.ShapeCasts S1024x1024
  bcast_S_S32x128 : S_.BroadcastsInDim S32x128 (![] : Fin 0 → Fin S32x128.rank)
  slices_S1152x128_S128x128_1024_0 : S1152x128.Slices ![1024, 0] S128x128
  bcast_S128_S1x128_1 : S128.BroadcastsInDim S1x128 (![1] : Fin 1 → Fin S1x128.rank)
  bcast_S1x128_S32x128_0_1 : S1x128.BroadcastsInDim S32x128 (![0, 1] : Fin 2 → Fin S32x128.rank)
  reducesTo_S32x128_S32_d1 : S32x128.ReducesTo [1] S32
  h_S_ : 0 < S_.numel
  bcast_S32_S32x1_0 : S32.BroadcastsInDim S32x1 (![0] : Fin 1 → Fin S32x1.rank)
  bcast_S_S32x1 : S_.BroadcastsInDim S32x1 (![] : Fin 0 → Fin S32x1.rank)
  bcast_S32x1_S32x128_0_1 : S32x1.BroadcastsInDim S32x128 (![0, 1] : Fin 2 → Fin S32x128.rank)
  bcast_S_S32 : S_.BroadcastsInDim S32 (![] : Fin 0 → Fin S32.rank)
  transposes_S32x128_S128x32_1_0 : S32x128.Transposes [1, 0] S128x32
  bitsLt_bf16_f32 : FTy.bits .bf16 < FTy.bits .f32
  shapeCasts_S1x128_S128 : S1x128.ShapeCasts S128
  slices_S1152x128_S1024x128_0_0 : S1152x128.Slices ![0, 0] S1024x128
  concatenates_S1024x128_S1024x128_S1024x256_S1024x512_d1 : Shape.Concatenates [S1024x128, S1024x128, S1024x256] S1024x512 1
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  slices_S128x512_o0_0_S128x128 : S128x512.Slices ![0, 0] S128x128
  slices_S128x512_o0_128_S128x128 : S128x512.Slices ![0, 128] S128x128
  slices_S128x512_o0_256_S128x256 : S128x512.Slices ![0, 256] S128x256
  inb_S256_S256_0 : ∀ a, (![0] : Fin 1 → Nat) a + S256.size a ≤ S256.size a
  h_S256 : 0 < S256.numel
  shapeCasts_S256_S1x256 : S256.ShapeCasts S1x256
  broadcasts_S1x256_S128x256 : S1x256.Broadcasts S128x256
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S32_S32_0 : ∀ a, (![0] : Fin 1 → Nat) a + S32.size a ≤ S32.size a
  h_S32 : 0 < S32.numel
  shapeCasts_S32_S1x32 : S32.ShapeCasts S1x32
  broadcasts_S1x32_S128x32 : S1x32.Broadcasts S128x32
  reduces_S128x32_S128 : S128x32.Reduces [1] S128
  shapeCasts_S128_S128x1 : S128.ShapeCasts S128x1
  broadcasts_S128x1_S128x32 : S128x1.Broadcasts S128x32
  inb_S128x32_S128x32_0_0 : ∀ a, (![0, 0] : Fin 2 → Nat) a + S128x32.size a ≤ S128x32.size a
  h_S128x32 : 0 < S128x32.numel
  reduces_S128x128_S128 : S128x128.Reduces [1] S128
  broadcasts_S128x1_S128x128 : S128x1.Broadcasts S128x128
  shapeCasts_S128x32_S128x32 : S128x32.ShapeCasts S128x32
  shapeCasts_S32_S32 : S32.ShapeCasts S32
  inb_S128_S128_0 : ∀ a, (![0] : Fin 1 → Nat) a + S128.size a ≤ S128.size a
  h_S128 : 0 < S128.numel
  shapeCasts_S128_S1x128 : S128.ShapeCasts S1x128
  broadcasts_S1x128_S128x128 : S1x128.Broadcasts S128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128x128_S128x1x128 : S128x128.ShapeCasts S128x1x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  shapeCasts_S32x128_S1x32x128 : S32x128.ShapeCasts S1x32x128
  broadcasts_S128x1x128_S128x32x128 : S128x1x128.Broadcasts S128x32x128
  broadcasts_S1x32x128_S128x32x128 : S1x32x128.Broadcasts S128x32x128
  shapeCasts_S128x32_S128x32x1 : S128x32.ShapeCasts S128x32x1
  broadcasts_S128x32x1_S128x32x128 : S128x32x1.Broadcasts S128x32x128
  shapeCasts_S128_S128 : S128.ShapeCasts S128
  shapeCasts_S128_S1x1x128 : S128.ShapeCasts S1x1x128
  broadcasts_S1x1x128_S128x32x128 : S1x1x128.Broadcasts S128x32x128
  inb_S128x32x128_S128x32x128_0_0_0 : ∀ a, (![0, 0, 0] : Fin 3 → Nat) a + S128x32x128.size a ≤ S128x32x128.size a
  h_S128x32x128 : 0 < S128x32x128.numel
  shapeCasts_S1024x32_S16x64x32 : S1024x32.ShapeCasts S16x64x32
  shapeCasts_S1024x32x128_S16x64x32x128 : S1024x32x128.ShapeCasts S16x64x32x128
  dot_S32x128_S128x128_S32x128_1_0_0_1_n_n_wf : DotDims.WF S32x128 S128x128 S32x128 [1] [0] [0] [1] [] []
  dot_S1x128_S128x128_S1x128_1_0_0_1_n_n_wf : DotDims.WF S1x128 S128x128 S1x128 [1] [0] [0] [1] [] []
  dot_S128x1024_S1024x512_S128x512_1_0_0_1_n_n_wf : DotDims.WF S128x1024 S1024x512 S128x512 [1] [0] [0] [1] [] []
  dot_S128x256_S256x32_S128x32_1_0_0_1_n_n_wf : DotDims.WF S128x256 S256x32 S128x32 [1] [0] [0] [1] [] []
  dot_S128x128_S128x32_S128x32_1_0_0_1_n_n_wf : DotDims.WF S128x128 S128x32 S128x32 [1] [0] [0] [1] [] []
  dot_S128x128_S128x128_S128x128_1_0_0_1_n_n_wf : DotDims.WF S128x128 S128x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S1024x1024.size a
  hwx0_0 : ∀ i : grid0.Coords, EltTy.bits .f32 = 32 ∨ (Rect.block (s := S1024x1024) S128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .bf16 = 32 ∨ (Rect.block (s := S1024x512) S1024x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x32.size a ≤ S256x32.size a
  hwx0_3 : ∀ i : grid0.Coords, EltTy.bits .bf16 = 32 ∨ (Rect.block (s := S256x32) S256x32.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x128.size a ≤ S32x128.size a
  hwx0_5 : ∀ i : grid0.Coords, EltTy.bits .f32 = 32 ∨ (Rect.block (s := S32x128) S32x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x32.size a ≤ S128x32.size a
  hwx0_6 : ∀ i : grid0.Coords, EltTy.bits .bf16 = 32 ∨ (Rect.block (s := S128x32) S128x32.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32.size a ≤ S32.size a
  hwx0_7 : ∀ i : grid0.Coords, EltTy.bits .f32 = 32 ∨ (Rect.block (s := S32) S32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x128.size a ≤ S32x128.size a
  hwx0_8 : ∀ i : grid0.Coords, EltTy.bits .f32 = 32 ∨ (Rect.block (s := S32x128) S32x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .bf16 = 32 ∨ (Rect.block (s := S128x128) S128x128.size (cc0_transform_11 i) (hinb0_11 i)).WholeWords (EltTy.packing .bf16)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S128x32.size a ≤ S1024x32.size a
  hwx0_12 : ∀ i : grid0.Coords, EltTy.bits .f32 = 32 ∨ (Rect.block (s := S1024x32) S128x32.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S128x32x128.size a ≤ S1024x32x128.size a
  hwx0_13 : ∀ i : grid0.Coords, EltTy.bits .f32 = 32 ∨ (Rect.block (s := S1024x32x128) S128x32x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S128x32x128.size a ≤ S1024x32x128.size a
  hwx0_14 : ∀ i : grid0.Coords, EltTy.bits .f32 = 32 ∨ (Rect.block (s := S1024x32x128) S128x32x128.size (cc0_transform_14 i) (hinb0_14 i)).WholeWords (EltTy.packing .f32)

variable [Facts₀]

def dot_S32x128_S128x128_S32x128_1_0_0_1_n_n : DotDims S32x128 S128x128 S32x128 where
  lhsContracting := [1]
  rhsContracting := [0]
  lhsNonContracting := [0]
  rhsNonContracting := [1]
  lhsBatch := []
  rhsBatch := []
  wf := dot_S32x128_S128x128_S32x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S128x1024_S1024x512_S128x512_1_0_0_1_n_n : DotDims S128x1024 S1024x512 S128x512 where
  lhsContracting := [1]
  rhsContracting := [0]
  lhsNonContracting := [0]
  rhsNonContracting := [1]
  lhsBatch := []
  rhsBatch := []
  wf := dot_S128x1024_S1024x512_S128x512_1_0_0_1_n_n_wf
def dot_S128x256_S256x32_S128x32_1_0_0_1_n_n : DotDims S128x256 S256x32 S128x32 where
  lhsContracting := [1]
  rhsContracting := [0]
  lhsNonContracting := [0]
  rhsNonContracting := [1]
  lhsBatch := []
  rhsBatch := []
  wf := dot_S128x256_S256x32_S128x32_1_0_0_1_n_n_wf
def dot_S128x128_S128x32_S128x32_1_0_0_1_n_n : DotDims S128x128 S128x32 S128x32 where
  lhsContracting := [1]
  rhsContracting := [0]
  lhsNonContracting := [0]
  rhsNonContracting := [1]
  lhsBatch := []
  rhsBatch := []
  wf := dot_S128x128_S128x32_S128x32_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf

abbrev win0_0 : Pipeline.Window sig grid0 :=
  Pipeline.Window.ofSpec (Memref.whole main_v0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v39) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg12) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v41) S256x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg14) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v35) S32x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S128x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20) S32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v26) S32x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v30) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg5) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v40) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v42_0) S128x32.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v42_1) S128x32x128.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v42_2) S128x32x128.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S16x64x1024 : Shape := ⟨3, ![16, 64, 1024]⟩
abbrev S32x128 : Shape := ⟨2, ![32, 128]⟩
abbrev S1152x128 : Shape := ⟨2, ![1152, 128]⟩
abbrev S128 : Shape := ⟨1, ![128]⟩
abbrev S128x128 : Shape := ⟨2, ![128, 128]⟩
abbrev S1024x256 : Shape := ⟨2, ![1024, 256]⟩
abbrev S256 : Shape := ⟨1, ![256]⟩
abbrev S256x32 : Shape := ⟨2, ![256, 32]⟩
abbrev S32 : Shape := ⟨1, ![32]⟩
abbrev S_ : Shape := ⟨0, ![]⟩
abbrev S16x64x256 : Shape := ⟨3, ![16, 64, 256]⟩
abbrev S1x1x256 : Shape := ⟨3, ![1, 1, 256]⟩
abbrev S16x64x32 : Shape := ⟨3, ![16, 64, 32]⟩
abbrev S1x1x32 : Shape := ⟨3, ![1, 1, 32]⟩
abbrev S16x64 : Shape := ⟨2, ![16, 64]⟩
abbrev S16x64x1 : Shape := ⟨3, ![16, 64, 1]⟩
abbrev S1024x128 : Shape := ⟨2, ![1024, 128]⟩
abbrev S16x64x128 : Shape := ⟨3, ![16, 64, 128]⟩
abbrev S16x64x1x128 : Shape := ⟨4, ![16, 64, 1, 128]⟩
abbrev S1x1x32x128 : Shape := ⟨4, ![1, 1, 32, 128]⟩
abbrev S16x64x32x128 : Shape := ⟨4, ![16, 64, 32, 128]⟩
abbrev S1x1x1x128 : Shape := ⟨4, ![1, 1, 1, 128]⟩
abbrev S16x64x32x1 : Shape := ⟨4, ![16, 64, 32, 1]⟩

abbrev nBuf : Space → Nat
  | .hbm => 127
  | .vmem => 0
  | .smem => 0
  | _ => 0

abbrev bufTy : (tb : Table) → Fin (tcTables nBuf tb) → BufTy
  | .hbm, ⟨0, _⟩ => ⟨S16x64x1024, .f32⟩
  | .hbm, ⟨1, _⟩ => ⟨S32x128, .f32⟩
  | .hbm, ⟨2, _⟩ => ⟨S32x128, .f32⟩
  | .hbm, ⟨3, _⟩ => ⟨S1152x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1152x128, .f32⟩
  | .hbm, ⟨10, _⟩ => ⟨S128, .f32⟩
  | .hbm, ⟨11, _⟩ => ⟨S1024x256, .f32⟩
  | .hbm, ⟨12, _⟩ => ⟨S256, .f32⟩
  | .hbm, ⟨13, _⟩ => ⟨S256x32, .f32⟩
  | .hbm, ⟨14, _⟩ => ⟨S32, .f32⟩
  | .hbm, ⟨15, _⟩ => ⟨S_, .f32⟩
  | .hbm, ⟨16, _⟩ => ⟨S32x128, .f32⟩
  | .hbm, ⟨17, _⟩ => ⟨S32x128, .f32⟩
  | .hbm, ⟨18, _⟩ => ⟨S_, .f32⟩
  | .hbm, ⟨19, _⟩ => ⟨S32x128, .f32⟩
  | .hbm, ⟨20, _⟩ => ⟨S32x128, .f32⟩
  | .hbm, ⟨21, _⟩ => ⟨S32x128, .f32⟩
  | .hbm, ⟨22, _⟩ => ⟨S16x64x256, .f32⟩
  | .hbm, ⟨23, _⟩ => ⟨S1x1x256, .f32⟩
  | .hbm, ⟨24, _⟩ => ⟨S16x64x256, .f32⟩
  | .hbm, ⟨25, _⟩ => ⟨S16x64x256, .f32⟩
  | .hbm, ⟨26, _⟩ => ⟨S16x64x256, .f32⟩
  | .hbm, ⟨27, _⟩ => ⟨S16x64x256, .f32⟩
  | .hbm, ⟨28, _⟩ => ⟨S_, .f32⟩
  | .hbm, ⟨29, _⟩ => ⟨S16x64x256, .f32⟩
  | .hbm, ⟨30, _⟩ => ⟨S16x64x256, .f32⟩
  | .hbm, ⟨31, _⟩ => ⟨S_, .f32⟩
  | .hbm, ⟨32, _⟩ => ⟨S16x64x256, .f32⟩
  | .hbm, ⟨33, _⟩ => ⟨S16x64x256, .f32⟩
  | .hbm, ⟨34, _⟩ => ⟨S16x64x256, .f32⟩
  | .hbm, ⟨35, _⟩ => ⟨S16x64x32, .f32⟩
  | .hbm, ⟨36, _⟩ => ⟨S1x1x32, .f32⟩
  | .hbm, ⟨37, _⟩ => ⟨S16x64x32, .f32⟩
  | .hbm, ⟨38, _⟩ => ⟨S16x64x32, .f32⟩
  | .hbm, ⟨39, _⟩ => ⟨S_, .f32⟩
  | .hbm, ⟨40, _⟩ => ⟨S16x64, .f32⟩
  | .hbm, ⟨41, _⟩ => ⟨S_, .f32⟩
  | .hbm, ⟨42, _⟩ => ⟨S16x64, .f32⟩
  | .hbm, ⟨43, _⟩ => ⟨S16x64, .f32⟩
  | .hbm, ⟨44, _⟩ => ⟨S16x64x1, .f32⟩
  | .hbm, ⟨45, _⟩ => ⟨S16x64x32, .f32⟩
  | .hbm, ⟨46, _⟩ => ⟨S16x64x32, .f32⟩
  | .hbm, ⟨47, _⟩ => ⟨S16x64x32, .f32⟩
  | .hbm, ⟨48, _⟩ => ⟨S_, .f32⟩
  | .hbm, ⟨49, _⟩ => ⟨S16x64, .f32⟩
  | .hbm, ⟨50, _⟩ => ⟨S16x64x1, .f32⟩
  | .hbm, ⟨51, _⟩ => ⟨S16x64x32, .f32⟩
  | .hbm, ⟨52, _⟩ => ⟨S16x64x32, .f32⟩
  | .hbm, ⟨53, _⟩ => ⟨S1024x128, .f32⟩
  | .hbm, ⟨54, _⟩ => ⟨S16x64x128, .f32⟩
  | .hbm, ⟨55, _⟩ => ⟨S16x64x1x128, .f32⟩
  | .hbm, ⟨56, _⟩ => ⟨S128x128, .f32⟩
  | .hbm, ⟨57, _⟩ => ⟨S32x128, .f32⟩
  | .hbm, ⟨58, _⟩ => ⟨S1x1x32x128, .f32⟩
  | .hbm, ⟨59, _⟩ => ⟨S16x64x32x128, .f32⟩
  | .hbm, ⟨60, _⟩ => ⟨S16x64x32x128, .f32⟩
  | .hbm, ⟨61, _⟩ => ⟨S16x64x32x128, .f32⟩
  | .hbm, ⟨62, _⟩ => ⟨S1x1x1x128, .f32⟩
  | .hbm, ⟨63, _⟩ => ⟨S16x64x32x128, .f32⟩
  | .hbm, ⟨64, _⟩ => ⟨S16x64x32x128, .f32⟩
  | .hbm, ⟨65, _⟩ => ⟨S_, .f32⟩
  | .hbm, ⟨66, _⟩ => ⟨S16x64x32, .f32⟩
  | .hbm, ⟨67, _⟩ => ⟨S16x64x32x1, .f32⟩
  | .hbm, ⟨68, _⟩ => ⟨S_, .f32⟩
  | .hbm, ⟨69, _⟩ => ⟨S16x64x32x1, .f32⟩
  | .hbm, ⟨70, _⟩ => ⟨S16x64x32x1, .f32⟩
  | .hbm, ⟨71, _⟩ => ⟨S16x64x32x128, .f32⟩
  | .hbm, ⟨72, _⟩ => ⟨S16x64x32x128, .f32⟩
  | .hbm, ⟨73, _⟩ => ⟨S16x64x32x128, .f32⟩
  | .hbm, ⟨74, _⟩ => ⟨S_, .f32⟩
  | .hbm, ⟨75, _⟩ => ⟨S16x64x32, .f32⟩
  | .hbm, ⟨76, _⟩ => ⟨S16x64x32x1, .f32⟩
  | .hbm, ⟨77, _⟩ => ⟨S_, .f32⟩
  | .hbm, ⟨78, _⟩ => ⟨S16x64x32x1, .f32⟩
  | .hbm, ⟨79, _⟩ => ⟨S16x64x32x1, .f32⟩
  | .hbm, ⟨80, _⟩ => ⟨S16x64x32x128, .f32⟩
  | .hbm, ⟨81, _⟩ => ⟨S16x64x32x128, .f32⟩
  | .hbm, ⟨82, _⟩ => ⟨S_, .f32⟩
  | .hbm, ⟨83, _⟩ => ⟨S16x64x32x1, .f32⟩
  | .hbm, ⟨84, _⟩ => ⟨S16x64x32x1, .f32⟩
  | .hbm, ⟨85, _⟩ => ⟨S16x64x32x1, .f32⟩
  | .hbm, ⟨86, _⟩ => ⟨S16x64x32x128, .f32⟩
  | .hbm, ⟨87, _⟩ => ⟨S16x64x32x128, .f32⟩
  | .hbm, ⟨88, _⟩ => ⟨S1x1x1x128, .f32⟩
  | .hbm, ⟨89, _⟩ => ⟨S16x64x32x128, .f32⟩
  | .hbm, ⟨90, _⟩ => ⟨S16x64x32x128, .f32⟩
  | .hbm, ⟨91, _⟩ => ⟨S1x1x1x128, .f32⟩
  | .hbm, ⟨92, _⟩ => ⟨S16x64x32x128, .f32⟩
  | .hbm, ⟨93, _⟩ => ⟨S16x64x32x128, .f32⟩
  | .hbm, ⟨94, _⟩ => ⟨S16x64x32x128, .f32⟩
  | .hbm, ⟨95, _⟩ => ⟨S1x1x1x128, .f32⟩
  | .hbm, ⟨96, _⟩ => ⟨S16x64x32x128, .f32⟩
  | .hbm, ⟨97, _⟩ => ⟨S16x64x32x128, .f32⟩
  | .hbm, ⟨98, _⟩ => ⟨S16x64x32x128, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S16x64x32x128, .f32⟩
  | .hbm, ⟨103, _⟩ => ⟨S16x64x32x128, .f32⟩
  | .hbm, ⟨104, _⟩ => ⟨S_, .f32⟩
  | .hbm, ⟨105, _⟩ => ⟨S16x64x32x128, .f32⟩
  | .hbm, ⟨106, _⟩ => ⟨S16x64x32x128, .f32⟩
  | .hbm, ⟨107, _⟩ => ⟨S1024x128, .f32⟩
  | .hbm, ⟨108, _⟩ => ⟨S16x64x128, .f32⟩
  | .hbm, ⟨109, _⟩ => ⟨S16x64x1x128, .f32⟩
  | .hbm, ⟨110, _⟩ => ⟨S128x128, .f32⟩
  | .hbm, ⟨111, _⟩ => ⟨S32x128, .f32⟩
  | .hbm, ⟨112, _⟩ => ⟨S1x1x32x128, .f32⟩
  | .hbm, ⟨113, _⟩ => ⟨S16x64x32x128, .f32⟩
  | .hbm, ⟨114, _⟩ => ⟨S16x64x32x128, .f32⟩
  | .hbm, ⟨115, _⟩ => ⟨S16x64x32x128, .f32⟩
  | .hbm, ⟨116, _⟩ => ⟨S1x1x1x128, .f32⟩
  | .hbm, ⟨117, _⟩ => ⟨S16x64x32x128, .f32⟩
  | .hbm, ⟨118, _⟩ => ⟨S16x64x32x128, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S16x64x32x128, .f32⟩
  | .hbm, ⟨123, _⟩ => ⟨S16x64x32x128, .f32⟩
  | .hbm, ⟨124, _⟩ => ⟨S_, .f32⟩
  | .hbm, ⟨125, _⟩ => ⟨S16x64x32x128, .f32⟩
  | .hbm, ⟨126, _⟩ => ⟨S16x64x32x128, .f32⟩
  | _, _ => ⟨S16x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_cst_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_1 : Ref sig .tc := ⟨.hbm, 39, rfl⟩
abbrev main_v14 : Ref sig .tc := ⟨.hbm, 40, rfl⟩
abbrev main_cst_2 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_cst_3 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_4 : Ref sig .tc := ⟨.hbm, 65, rfl⟩
abbrev main_v37 : Ref sig .tc := ⟨.hbm, 66, rfl⟩
abbrev main_v38 : Ref sig .tc := ⟨.hbm, 67, rfl⟩
abbrev main_cst_5 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_6 : Ref sig .tc := ⟨.hbm, 74, rfl⟩
abbrev main_v44 : Ref sig .tc := ⟨.hbm, 75, rfl⟩
abbrev main_v45 : Ref sig .tc := ⟨.hbm, 76, rfl⟩
abbrev main_cst_7 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_8 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_9 : Ref sig .tc := ⟨.hbm, 99, rfl⟩
abbrev main_cst_10 : Ref sig .tc := ⟨.hbm, 100, rfl⟩
abbrev main_call1_v0 : Ref sig .tc := ⟨.hbm, 101, rfl⟩
abbrev main_call1_v1 : Ref sig .tc := ⟨.hbm, 102, rfl⟩
abbrev main_call1_v2 : Ref sig .tc := ⟨.hbm, 103, rfl⟩
abbrev main_call1_v3 : Ref sig .tc := ⟨.hbm, 104, rfl⟩
abbrev main_call1_v4 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_cst_11 : Ref sig .tc := ⟨.hbm, 119, rfl⟩
abbrev main_cst_12 : Ref sig .tc := ⟨.hbm, 120, rfl⟩
abbrev main_call2_v0 : Ref sig .tc := ⟨.hbm, 121, rfl⟩
abbrev main_call2_v1 : Ref sig .tc := ⟨.hbm, 122, rfl⟩
abbrev main_call2_v2 : Ref sig .tc := ⟨.hbm, 123, rfl⟩
abbrev main_call2_v3 : Ref sig .tc := ⟨.hbm, 124, rfl⟩
abbrev main_call2_v4 : Ref sig .tc := ⟨.hbm, 125, rfl⟩
abbrev main_v79 : Ref sig .tc := ⟨.hbm, 126, rfl⟩

abbrev nD : Nat := 1
abbrev τ : Topo := Topo.v7x

variable {F : FTy → Type} [FloatOps F]

class Facts₀ : Prop where
  bcast_S_S32x128 : S_.BroadcastsInDim S32x128 (![] : Fin 0 → Fin S32x128.rank)
  bcast_S256_S1x1x256_2 : S256.BroadcastsInDim S1x1x256 (![2] : Fin 1 → Fin S1x1x256.rank)
  bcast_S1x1x256_S16x64x256_0_1_2 : S1x1x256.BroadcastsInDim S16x64x256 (![0, 1, 2] : Fin 3 → Fin S16x64x256.rank)
  bcast_S_S16x64x256 : S_.BroadcastsInDim S16x64x256 (![] : Fin 0 → Fin S16x64x256.rank)
  bcast_S32_S1x1x32_2 : S32.BroadcastsInDim S1x1x32 (![2] : Fin 1 → Fin S1x1x32.rank)
  bcast_S1x1x32_S16x64x32_0_1_2 : S1x1x32.BroadcastsInDim S16x64x32 (![0, 1, 2] : Fin 3 → Fin S16x64x32.rank)
  reducesTo_S16x64x32_S16x64_d2 : S16x64x32.ReducesTo [2] S16x64
  h_S_ : 0 < S_.numel
  bcast_S_S16x64 : S_.BroadcastsInDim S16x64 (![] : Fin 0 → Fin S16x64.rank)
  bcast_S16x64_S16x64x1_0_1 : S16x64.BroadcastsInDim S16x64x1 (![0, 1] : Fin 2 → Fin S16x64x1.rank)
  bcast_S16x64x1_S16x64x32_0_1_2 : S16x64x1.BroadcastsInDim S16x64x32 (![0, 1, 2] : Fin 3 → Fin S16x64x32.rank)
  slices_S1152x128_S1024x128_0_0 : S1152x128.Slices ![0, 0] S1024x128
  bcast_S16x64x128_S16x64x1x128_0_1_3 : S16x64x128.BroadcastsInDim S16x64x1x128 (![0, 1, 3] : Fin 3 → Fin S16x64x1x128.rank)
  slices_S1152x128_S128x128_1024_0 : S1152x128.Slices ![1024, 0] S128x128
  bcast_S32x128_S1x1x32x128_2_3 : S32x128.BroadcastsInDim S1x1x32x128 (![2, 3] : Fin 2 → Fin S1x1x32x128.rank)
  bcast_S16x64x1x128_S16x64x32x128_0_1_2_3 : S16x64x1x128.BroadcastsInDim S16x64x32x128 (![0, 1, 2, 3] : Fin 4 → Fin S16x64x32x128.rank)
  bcast_S1x1x32x128_S16x64x32x128_0_1_2_3 : S1x1x32x128.BroadcastsInDim S16x64x32x128 (![0, 1, 2, 3] : Fin 4 → Fin S16x64x32x128.rank)
  bcast_S128_S1x1x1x128_3 : S128.BroadcastsInDim S1x1x1x128 (![3] : Fin 1 → Fin S1x1x1x128.rank)
  bcast_S1x1x1x128_S16x64x32x128_0_1_2_3 : S1x1x1x128.BroadcastsInDim S16x64x32x128 (![0, 1, 2, 3] : Fin 4 → Fin S16x64x32x128.rank)
  reducesTo_S16x64x32x128_S16x64x32_d3 : S16x64x32x128.ReducesTo [3] S16x64x32
  bcast_S16x64x32_S16x64x32x1_0_1_2 : S16x64x32.BroadcastsInDim S16x64x32x1 (![0, 1, 2] : Fin 3 → Fin S16x64x32x1.rank)
  bcast_S_S16x64x32x1 : S_.BroadcastsInDim S16x64x32x1 (![] : Fin 0 → Fin S16x64x32x1.rank)
  bcast_S16x64x32x1_S16x64x32x128_0_1_2_3 : S16x64x32x1.BroadcastsInDim S16x64x32x128 (![0, 1, 2, 3] : Fin 4 → Fin S16x64x32x128.rank)
  bcast_S_S16x64x32x128 : S_.BroadcastsInDim S16x64x32x128 (![] : Fin 0 → Fin S16x64x32x128.rank)
  dot_S16x64x1024_S1024x256_S16x64x256_2_0_01_1_n_n_wf : DotDims.WF S16x64x1024 S1024x256 S16x64x256 [2] [0] [0, 1] [1] [] []
  dot_S16x64x256_S256x32_S16x64x32_2_0_01_1_n_n_wf : DotDims.WF S16x64x256 S256x32 S16x64x32 [2] [0] [0, 1] [1] [] []
  dot_S16x64x1024_S1024x128_S16x64x128_2_0_01_1_n_n_wf : DotDims.WF S16x64x1024 S1024x128 S16x64x128 [2] [0] [0, 1] [1] [] []
  dot_S32x128_S128x128_S32x128_1_0_0_1_n_n_wf : DotDims.WF S32x128 S128x128 S32x128 [1] [0] [0] [1] [] []
  dot_S16x64x32x128_S128x128_S16x64x32x128_3_0_012_1_n_n_wf : DotDims.WF S16x64x32x128 S128x128 S16x64x32x128 [3] [0] [0, 1, 2] [1] [] []

variable [Facts₀]

def dot_S16x64x1024_S1024x256_S16x64x256_2_0_01_1_n_n : DotDims S16x64x1024 S1024x256 S16x64x256 where
  lhsContracting := [2]
  rhsContracting := [0]
  lhsNonContracting := [0, 1]
  rhsNonContracting := [1]
  lhsBatch := []
  rhsBatch := []
  wf := dot_S16x64x1024_S1024x256_S16x64x256_2_0_01_1_n_n_wf
def dot_S16x64x256_S256x32_S16x64x32_2_0_01_1_n_n : DotDims S16x64x256 S256x32 S16x64x32 where
  lhsContracting := [2]
  rhsContracting := [0]
  lhsNonContracting := [0, 1]
  rhsNonContracting := [1]
  lhsBatch := []
  rhsBatch := []
  wf := dot_S16x64x256_S256x32_S16x64x32_2_0_01_1_n_n_wf
def dot_S16x64x1024_S1024x128_S16x64x128_2_0_01_1_n_n : DotDims S16x64x1024 S1024x128 S16x64x128 where
  lhsContracting := [2]
  rhsContracting := [0]
  lhsNonContracting := [0, 1]
  rhsNonContracting := [1]
  lhsBatch := []
  rhsBatch := []
  wf := dot_S16x64x1024_S1024x128_S16x64x128_2_0_01_1_n_n_wf
def dot_S32x128_S128x128_S32x128_1_0_0_1_n_n : DotDims S32x128 S128x128 S32x128 where
  lhsContracting := [1]
  rhsContracting := [0]
  lhsNonContracting := [0]
  rhsNonContracting := [1]
  lhsBatch := []
  rhsBatch := []
  wf := dot_S32x128_S128x128_S32x128_1_0_0_1_n_n_wf
def dot_S16x64x32x128_S128x128_S16x64x32x128_3_0_012_1_n_n : DotDims S16x64x32x128 S128x128 S16x64x32x128 where
  lhsContracting := [3]
  rhsContracting := [0]
  lhsNonContracting := [0, 1, 2]
  rhsNonContracting := [1]
  lhsBatch := []
  rhsBatch := []
  wf := dot_S16x64x32x128_S128x128_S16x64x32x128_3_0_012_1_n_n_wf

class Facts : Prop extends Facts₀ where

variable [Facts]
-- ==== Proof.KernelAround.lean ====
/-
  The host side of the program around its one launch. Before the launch the host computes, from the fifteen
  arguments, the twelve operands the launch stages: the flattened hidden states, the three row-blocks of weights
  joined side by side into one matrix, the momentum-blended codes pushed through the code rows of the two weight
  matrices, their centring, variances and projections. After the launch three reshapes give the results their
  batch and time axes back. None of these operations writes an argument array, and none of the three reshapes
  writes an array the launch stages: so every argument ends as it began, which is what this module records,
  together with each staged window's block at a grid point read off the contents the launch finds.
-/
import proofs.«410282_j21792664060394_3_alg».proof.Proof.Gen.Kernel.Launch
import proofs.«410282_j21792664060394_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the launch finds -/

/-- Core `c`'s buffer contents when the launch begins: the launch memory after the host operations that precede it. -/
abbrev entry (c : Dev nD) : Valuation τ sig (Elt F) := StableHlo.after (List.flatten [hostOps0]) (fun b => m (c, b))
/-- The same, read at one buffer of the core. -/
abbrev atEntry (c : Dev nD) (b : Ref sig .tc) : Buf (Elt F) ((c : Thread nD τ).loc b) := entry m c (Proc.devRef .tc b)

/-- The host operations before the launch allocate nothing. -/
theorem before_fresh : (hostOps0 : List (HloOp τ sig (Elt F))).Forall fun op => op.fresh = ∅ := by
  simp only [List.Forall]; repeat' constructor
/-- Nor do the three reshapes after it. -/
theorem after_fresh : (hostOps1 : List (HloOp τ sig (Elt F))).Forall fun op => op.fresh = ∅ := by
  simp only [List.Forall]; repeat' constructor

/-- The program is: the host operations, the launch, the three reshapes — so it reduces to the launch continued by
    the reshapes, from the contents `atEntry`. -/
theorem main_around (𝒱₀ : Variants) : Pipeline.HMainK (Ix := Unit) (Name := ℕ) (U := UR sig nD τ) (Lvl := ℕ) cfgs 0 defs₀ 𝒱₀ m (main (F := F)) (atEntry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_fresh) main_chain

/-- The reshapes touch only unscoped buffers of the core. -/
theorem after_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem after_alloc : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp after_fresh) op hop
/-- Each writes its own result (a result with batch and time axes), which is no array the launch stages. -/
theorem after_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The arguments are never written -/

/-- "No host operation before the launch writes this buffer": one conjunct per operation, each a comparison of two
    literal buffer numbers. -/
local macro "before_writes_elsewhere" : tactic => `(tactic|
  exact (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))))
/-- The same for the three reshapes after it. -/
local macro "after_writes_elsewhere" : tactic => `(tactic|
  exact (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))))

theorem entry_arg0 (c : Dev nD) : atEntry m c main_arg0 = m ((c : Thread nD τ).loc main_arg0) :=
  StableHlo.after_of_forall_not_mem (b := Proc.devRef .tc main_arg0) _ _ (by before_writes_elsewhere)
theorem entry_arg1 (c : Dev nD) : atEntry m c main_arg1 = m ((c : Thread nD τ).loc main_arg1) :=
  StableHlo.after_of_forall_not_mem (b := Proc.devRef .tc main_arg1) _ _ (by before_writes_elsewhere)
theorem entry_arg2 (c : Dev nD) : atEntry m c main_arg2 = m ((c : Thread nD τ).loc main_arg2) :=
  StableHlo.after_of_forall_not_mem (b := Proc.devRef .tc main_arg2) _ _ (by before_writes_elsewhere)
theorem entry_arg3 (c : Dev nD) : atEntry m c main_arg3 = m ((c : Thread nD τ).loc main_arg3) :=
  StableHlo.after_of_forall_not_mem (b := Proc.devRef .tc main_arg3) _ _ (by before_writes_elsewhere)
theorem entry_arg4 (c : Dev nD) : atEntry m c main_arg4 = m ((c : Thread nD τ).loc main_arg4) :=
  StableHlo.after_of_forall_not_mem (b := Proc.devRef .tc main_arg4) _ _ (by before_writes_elsewhere)
theorem entry_arg5 (c : Dev nD) : atEntry m c main_arg5 = m ((c : Thread nD τ).loc main_arg5) :=
  StableHlo.after_of_forall_not_mem (b := Proc.devRef .tc main_arg5) _ _ (by before_writes_elsewhere)
theorem entry_arg6 (c : Dev nD) : atEntry m c main_arg6 = m ((c : Thread nD τ).loc main_arg6) :=
  StableHlo.after_of_forall_not_mem (b := Proc.devRef .tc main_arg6) _ _ (by before_writes_elsewhere)
theorem entry_arg7 (c : Dev nD) : atEntry m c main_arg7 = m ((c : Thread nD τ).loc main_arg7) :=
  StableHlo.after_of_forall_not_mem (b := Proc.devRef .tc main_arg7) _ _ (by before_writes_elsewhere)
theorem entry_arg8 (c : Dev nD) : atEntry m c main_arg8 = m ((c : Thread nD τ).loc main_arg8) :=
  StableHlo.after_of_forall_not_mem (b := Proc.devRef .tc main_arg8) _ _ (by before_writes_elsewhere)
theorem entry_arg9 (c : Dev nD) : atEntry m c main_arg9 = m ((c : Thread nD τ).loc main_arg9) :=
  StableHlo.after_of_forall_not_mem (b := Proc.devRef .tc main_arg9) _ _ (by before_writes_elsewhere)
theorem entry_arg10 (c : Dev nD) : atEntry m c main_arg10 = m ((c : Thread nD τ).loc main_arg10) :=
  StableHlo.after_of_forall_not_mem (b := Proc.devRef .tc main_arg10) _ _ (by before_writes_elsewhere)
theorem entry_arg11 (c : Dev nD) : atEntry m c main_arg11 = m ((c : Thread nD τ).loc main_arg11) :=
  StableHlo.after_of_forall_not_mem (b := Proc.devRef .tc main_arg11) _ _ (by before_writes_elsewhere)
theorem entry_arg12 (c : Dev nD) : atEntry m c main_arg12 = m ((c : Thread nD τ).loc main_arg12) :=
  StableHlo.after_of_forall_not_mem (b := Proc.devRef .tc main_arg12) _ _ (by before_writes_elsewhere)
theorem entry_arg13 (c : Dev nD) : atEntry m c main_arg13 = m ((c : Thread nD τ).loc main_arg13) :=
  StableHlo.after_of_forall_not_mem (b := Proc.devRef .tc main_arg13) _ _ (by before_writes_elsewhere)
theorem entry_arg14 (c : Dev nD) : atEntry m c main_arg14 = m ((c : Thread nD τ).loc main_arg14) :=
  StableHlo.after_of_forall_not_mem (b := Proc.devRef .tc main_arg14) _ _ (by before_writes_elsewhere)

/-! An argument no window stages is read after the reshapes: they write elsewhere, the launch's write-backs go to
    the staged arrays, and before that it is as launched. -/

theorem exit_arg0 (dats : (p : Fin _) → (c : Dev nD) → Dat τ (Elt F) Unit ℕ (UR sig nD τ) ℕ (cfgs p) c) (c : Dev nD) :
    Pipeline.afterTail₀ cfgs dats 0 (entry m) [hostOps1] c main_arg0 = m ((c : Thread nD τ).loc main_arg0) := by
  unfold Pipeline.afterTail₀
  rw [StableHlo.after_of_forall_not_mem (b := Proc.devRef .tc main_arg0) _ _ (by after_writes_elsewhere),
    Pipeline.withArrays_of_ne _ c (entry m c) _ main_arg0 (by exact (by decide : ∀ w, Pipeline.arrRef spec0 w ≠ main_arg0))]
  exact entry_arg0 m c
theorem exit_arg1 (dats : (p : Fin _) → (c : Dev nD) → Dat τ (Elt F) Unit ℕ (UR sig nD τ) ℕ (cfgs p) c) (c : Dev nD) :
    Pipeline.afterTail₀ cfgs dats 0 (entry m) [hostOps1] c main_arg1 = m ((c : Thread nD τ).loc main_arg1) := by
  unfold Pipeline.afterTail₀
  rw [StableHlo.after_of_forall_not_mem (b := Proc.devRef .tc main_arg1) _ _ (by after_writes_elsewhere),
    Pipeline.withArrays_of_ne _ c (entry m c) _ main_arg1 (by exact (by decide : ∀ w, Pipeline.arrRef spec0 w ≠ main_arg1))]
  exact entry_arg1 m c
theorem exit_arg2 (dats : (p : Fin _) → (c : Dev nD) → Dat τ (Elt F) Unit ℕ (UR sig nD τ) ℕ (cfgs p) c) (c : Dev nD) :
    Pipeline.afterTail₀ cfgs dats 0 (entry m) [hostOps1] c main_arg2 = m ((c : Thread nD τ).loc main_arg2) := by
  unfold Pipeline.afterTail₀
  rw [StableHlo.after_of_forall_not_mem (b := Proc.devRef .tc main_arg2) _ _ (by after_writes_elsewhere),
    Pipeline.withArrays_of_ne _ c (entry m c) _ main_arg2 (by exact (by decide : ∀ w, Pipeline.arrRef spec0 w ≠ main_arg2))]
  exact entry_arg2 m c
theorem exit_arg3 (dats : (p : Fin _) → (c : Dev nD) → Dat τ (Elt F) Unit ℕ (UR sig nD τ) ℕ (cfgs p) c) (c : Dev nD) :
    Pipeline.afterTail₀ cfgs dats 0 (entry m) [hostOps1] c main_arg3 = m ((c : Thread nD τ).loc main_arg3) := by
  unfold Pipeline.afterTail₀
  rw [StableHlo.after_of_forall_not_mem (b := Proc.devRef .tc main_arg3) _ _ (by after_writes_elsewhere),
    Pipeline.withArrays_of_ne _ c (entry m c) _ main_arg3 (by exact (by decide : ∀ w, Pipeline.arrRef spec0 w ≠ main_arg3))]
  exact entry_arg3 m c
theorem exit_arg4 (dats : (p : Fin _) → (c : Dev nD) → Dat τ (Elt F) Unit ℕ (UR sig nD τ) ℕ (cfgs p) c) (c : Dev nD) :
    Pipeline.afterTail₀ cfgs dats 0 (entry m) [hostOps1] c main_arg4 = m ((c : Thread nD τ).loc main_arg4) := by
  unfold Pipeline.afterTail₀
  rw [StableHlo.after_of_forall_not_mem (b := Proc.devRef .tc main_arg4) _ _ (by after_writes_elsewhere),
    Pipeline.withArrays_of_ne _ c (entry m c) _ main_arg4 (by exact (by decide : ∀ w, Pipeline.arrRef spec0 w ≠ main_arg4))]
  exact entry_arg4 m c
theorem exit_arg6 (dats : (p : Fin _) → (c : Dev nD) → Dat τ (Elt F) Unit ℕ (UR sig nD τ) ℕ (cfgs p) c) (c : Dev nD) :
    Pipeline.afterTail₀ cfgs dats 0 (entry m) [hostOps1] c main_arg6 = m ((c : Thread nD τ).loc main_arg6) := by
  unfold Pipeline.afterTail₀
  rw [StableHlo.after_of_forall_not_mem (b := Proc.devRef .tc main_arg6) _ _ (by after_writes_elsewhere),
    Pipeline.withArrays_of_ne _ c (entry m c) _ main_arg6 (by exact (by decide : ∀ w, Pipeline.arrRef spec0 w ≠ main_arg6))]
  exact entry_arg6 m c
theorem exit_arg7 (dats : (p : Fin _) → (c : Dev nD) → Dat τ (Elt F) Unit ℕ (UR sig nD τ) ℕ (cfgs p) c) (c : Dev nD) :
    Pipeline.afterTail₀ cfgs dats 0 (entry m) [hostOps1] c main_arg7 = m ((c : Thread nD τ).loc main_arg7) := by
  unfold Pipeline.afterTail₀
  rw [StableHlo.after_of_forall_not_mem (b := Proc.devRef .tc main_arg7) _ _ (by after_writes_elsewhere),
    Pipeline.withArrays_of_ne _ c (entry m c) _ main_arg7 (by exact (by decide : ∀ w, Pipeline.arrRef spec0 w ≠ main_arg7))]
  exact entry_arg7 m c
theorem exit_arg8 (dats : (p : Fin _) → (c : Dev nD) → Dat τ (Elt F) Unit ℕ (UR sig nD τ) ℕ (cfgs p) c) (c : Dev nD) :
    Pipeline.afterTail₀ cfgs dats 0 (entry m) [hostOps1] c main_arg8 = m ((c : Thread nD τ).loc main_arg8) := by
  unfold Pipeline.afterTail₀
  rw [StableHlo.after_of_forall_not_mem (b := Proc.devRef .tc main_arg8) _ _ (by after_writes_elsewhere),
    Pipeline.withArrays_of_ne _ c (entry m c) _ main_arg8 (by exact (by decide : ∀ w, Pipeline.arrRef spec0 w ≠ main_arg8))]
  exact entry_arg8 m c
theorem exit_arg9 (dats : (p : Fin _) → (c : Dev nD) → Dat τ (Elt F) Unit ℕ (UR sig nD τ) ℕ (cfgs p) c) (c : Dev nD) :
    Pipeline.afterTail₀ cfgs dats 0 (entry m) [hostOps1] c main_arg9 = m ((c : Thread nD τ).loc main_arg9) := by
  unfold Pipeline.afterTail₀
  rw [StableHlo.after_of_forall_not_mem (b := Proc.devRef .tc main_arg9) _ _ (by after_writes_elsewhere),
    Pipeline.withArrays_of_ne _ c (entry m c) _ main_arg9 (by exact (by decide : ∀ w, Pipeline.arrRef spec0 w ≠ main_arg9))]
  exact entry_arg9 m c
theorem exit_arg10 (dats : (p : Fin _) → (c : Dev nD) → Dat τ (Elt F) Unit ℕ (UR sig nD τ) ℕ (cfgs p) c) (c : Dev nD) :
    Pipeline.afterTail₀ cfgs dats 0 (entry m) [hostOps1] c main_arg10 = m ((c : Thread nD τ).loc main_arg10) := by
  unfold Pipeline.afterTail₀
  rw [StableHlo.after_of_forall_not_mem (b := Proc.devRef .tc main_arg10) _ _ (by after_writes_elsewhere),
    Pipeline.withArrays_of_ne _ c (entry m c) _ main_arg10 (by exact (by decide : ∀ w, Pipeline.arrRef spec0 w ≠ main_arg10))]
  exact entry_arg10 m c
theorem exit_arg11 (dats : (p : Fin _) → (c : Dev nD) → Dat τ (Elt F) Unit ℕ (UR sig nD τ) ℕ (cfgs p) c) (c : Dev nD) :
    Pipeline.afterTail₀ cfgs dats 0 (entry m) [hostOps1] c main_arg11 = m ((c : Thread nD τ).loc main_arg11) := by
  unfold Pipeline.afterTail₀
  rw [StableHlo.after_of_forall_not_mem (b := Proc.devRef .tc main_arg11) _ _ (by after_writes_elsewhere),
    Pipeline.withArrays_of_ne _ c (entry m c) _ main_arg11 (by exact (by decide : ∀ w, Pipeline.arrRef spec0 w ≠ main_arg11))]
  exact entry_arg11 m c
theorem exit_arg13 (dats : (p : Fin _) → (c : Dev nD) → Dat τ (Elt F) Unit ℕ (UR sig nD τ) ℕ (cfgs p) c) (c : Dev nD) :
    Pipeline.afterTail₀ cfgs dats 0 (entry m) [hostOps1] c main_arg13 = m ((c : Thread nD τ).loc main_arg13) := by
  unfold Pipeline.afterTail₀
  rw [StableHlo.after_of_forall_not_mem (b := Proc.devRef .tc main_arg13) _ _ (by after_writes_elsewhere),
    Pipeline.withArrays_of_ne _ c (entry m c) _ main_arg13 (by exact (by decide : ∀ w, Pipeline.arrRef spec0 w ≠ main_arg13))]
  exact entry_arg13 m c

/-! ## The windows' blocks -/

/-- Window `w`'s block at grid point `t`, read off its array as the launch finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-! Each input window's current staging buffer holds that block at every point, whether the point fetches it or
    not (the eleven operands that do not depend on the rows are fetched once, at the first point, and the index of
    their block never moves), for any proof data over the contents `atEntry` whose body leaves the block in place. -/

theorem staged0_of {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem staged1_of {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem staged2_of {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem staged3_of {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem staged4_of {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem staged5_of {c : Dev nD} (dat : Dat τ (Elt F) Unit ℕ (UR sig nD τ) ℕ cfg0 c) (hA : dat.A 5 = atEntry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
theorem staged6_of {c : Dev nD} (dat : Dat τ (Elt F) Unit ℕ (UR sig nD τ) ℕ cfg0 c) (hA : dat.A 6 = atEntry m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)
theorem staged7_of {c : Dev nD} (dat : Dat τ (Elt F) Unit ℕ (UR sig nD τ) ℕ cfg0 c) (hA : dat.A 7 = atEntry m c (Pipeline.arrRef spec0 7))
    (hafter : ∀ t, dat.after 7 t = blockAt m c 7 t) (t : Fin cfg0.N) (d) : dat.before 7 t d = blockAt m c 7 t :=
  (dat.before_in_eq_fetched 7 rfl (fun _ => rfl) (fun _ _ _ => rfl) (fun t => by rw [hafter]; unfold Dat.blockOf blockAt; rw [hA]; try rfl) t d).trans
    (by unfold Dat.fetched Dat.blockOf blockAt; rw [hA]; try rfl)
theorem staged8_of {c : Dev nD} (dat : Dat τ (Elt F) Unit ℕ (UR sig nD τ) ℕ cfg0 c) (hA : dat.A 8 = atEntry m c (Pipeline.arrRef spec0 8))
    (hafter : ∀ t, dat.after 8 t = blockAt m c 8 t) (t : Fin cfg0.N) (d) : dat.before 8 t d = blockAt m c 8 t :=
  (dat.before_in_eq_fetched 8 rfl (fun _ => rfl) (fun _ _ _ => rfl) (fun t => by rw [hafter]; unfold Dat.blockOf blockAt; rw [hA]; try rfl) t d).trans
    (by unfold Dat.fetched Dat.blockOf blockAt; rw [hA]; try rfl)
theorem staged9_of {c : Dev nD} (dat : Dat τ (Elt F) Unit ℕ (UR sig nD τ) ℕ cfg0 c) (hA : dat.A 9 = atEntry m c (Pipeline.arrRef spec0 9))
    (hafter : ∀ t, dat.after 9 t = blockAt m c 9 t) (t : Fin cfg0.N) (d) : dat.before 9 t d = blockAt m c 9 t :=
  (dat.before_in_eq_fetched 9 rfl (fun _ => rfl) (fun _ _ _ => rfl) (fun t => by rw [hafter]; unfold Dat.blockOf blockAt; rw [hA]; try rfl) t d).trans
    (by unfold Dat.fetched Dat.blockOf blockAt; rw [hA]; try rfl)
theorem staged10_of {c : Dev nD} (dat : Dat τ (Elt F) Unit ℕ (UR sig nD τ) ℕ cfg0 c) (hA : dat.A 10 = atEntry m c (Pipeline.arrRef spec0 10))
    (hafter : ∀ t, dat.after 10 t = blockAt m c 10 t) (t : Fin cfg0.N) (d) : dat.before 10 t d = blockAt m c 10 t :=
  (dat.before_in_eq_fetched 10 rfl (fun _ => rfl) (fun _ _ _ => rfl) (fun t => by rw [hafter]; unfold Dat.blockOf blockAt; rw [hA]; try rfl) t d).trans
    (by unfold Dat.fetched Dat.blockOf blockAt; rw [hA]; try rfl)
theorem staged11_of {c : Dev nD} (dat : Dat τ (Elt F) Unit ℕ (UR sig nD τ) ℕ cfg0 c) (hA : dat.A 11 = atEntry m c (Pipeline.arrRef spec0 11))
    (hafter : ∀ t, dat.after 11 t = blockAt m c 11 t) (t : Fin cfg0.N) (d) : dat.before 11 t d = blockAt m c 11 t :=
  (dat.before_in_eq_fetched 11 rfl (fun _ => rfl) (fun _ _ _ => rfl) (fun t => by rw [hafter]; unfold Dat.blockOf blockAt; rw [hA]; try rfl) t d).trans
    (by unfold Dat.fetched Dat.blockOf blockAt; rw [hA]; try rfl)

/-! ## The arguments end unchanged -/

/-- From any run of the program that ends with every staged array at what the proof data computes and every other
    unscoped buffer as the three reshapes leave it: each of the fifteen arguments ends as launched — the three the
    launch stages as inputs (the two mixture biases and the normalisation gain) because an input's array is only
    read, the other twelve because nothing writes them. -/
theorem args_kept (dats : (p : Fin 1) → (c : Dev nD) → Dat τ (Elt F) Unit ℕ (UR sig nD τ) ℕ (cfgs p) c)
    (hA : ∀ c w, (dats 0 c).A w = atEntry m c (Pipeline.arrRef spec0 w))
    (h : θ_run defs (onTc (τ := τ) (main (F := F))) (s₀ m ρ) (Pipeline.FramePost cfgs dats 0 (Pipeline.afterTail₀ cfgs dats 0 (entry m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(((h c).2 main_arg0 (Pipeline.mem_restRefs_of main_arg0 (by decide) (by decide))).trans (exit_arg0 m dats c)),
      (((h c).2 main_arg1 (Pipeline.mem_restRefs_of main_arg1 (by decide) (by decide))).trans (exit_arg1 m dats c)),
      (((h c).2 main_arg2 (Pipeline.mem_restRefs_of main_arg2 (by decide) (by decide))).trans (exit_arg2 m dats c)),
      (((h c).2 main_arg3 (Pipeline.mem_restRefs_of main_arg3 (by decide) (by decide))).trans (exit_arg3 m dats c)),
      (((h c).2 main_arg4 (Pipeline.mem_restRefs_of main_arg4 (by decide) (by decide))).trans (exit_arg4 m dats c)),
      ((h c).1 10).trans (((dats 0 c).arrAt_in 10 rfl _).trans ((hA c 10).trans (entry_arg5 m c))),
      (((h c).2 main_arg6 (Pipeline.mem_restRefs_of main_arg6 (by decide) (by decide))).trans (exit_arg6 m dats c)),
      (((h c).2 main_arg7 (Pipeline.mem_restRefs_of main_arg7 (by decide) (by decide))).trans (exit_arg7 m dats c)),
      (((h c).2 main_arg8 (Pipeline.mem_restRefs_of main_arg8 (by decide) (by decide))).trans (exit_arg8 m dats c)),
      (((h c).2 main_arg9 (Pipeline.mem_restRefs_of main_arg9 (by decide) (by decide))).trans (exit_arg9 m dats c)),
      (((h c).2 main_arg10 (Pipeline.mem_restRefs_of main_arg10 (by decide) (by decide))).trans (exit_arg10 m dats c)),
      (((h c).2 main_arg11 (Pipeline.mem_restRefs_of main_arg11 (by decide) (by decide))).trans (exit_arg11 m dats c)),
      ((h c).1 2).trans (((dats 0 c).arrAt_in 2 rfl _).trans ((hA c 2).trans (entry_arg12 m c))),
      (((h c).2 main_arg13 (Pipeline.mem_restRefs_of main_arg13 (by decide) (by decide))).trans (exit_arg13 m dats c)),
      ((h c).1 4).trans (((dats 0 c).arrAt_in 4 rfl _).trans ((hA c 4).trans (entry_arg14 m c)))⟩) h

end Cert.Kernel.Around

end
-- ==== Proof.KernelBody.lean ====
/-
  What one grid point's body leaves in its three output buffers, as functions of the twelve input blocks it reads.
  The body loads each input buffer whole, once; it forms the product of the 128 rows of hidden states with the
  joined weight matrix and cuts it into its three column bands; from the last band it makes the mixture weights
  (bias, x·logistic x, a second product, bias, a softmax along the 32 codes) and stores them whole; from the first
  band, centred along its 128 columns, it makes the variance, the inverse deviation and the projected centred rows,
  combines them with the code-side tables into the 128 × 32 × 128 block of means and stores tanh of it whole; from
  the middle band plus the code-side table it makes the clipped log-variances and stores them whole. Each output
  buffer is written by exactly one store that covers it, so afterwards it holds that store's value.
-/
import proofs.«410282_j21792664060394_3_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The rectangles the body reads and writes: every one a whole buffer -/

abbrev allRows : Rect S128x1024 := Rect.unit (s := S128x1024) ![0, 0] S128x1024.size inb_S128x1024_S128x1024_0_0
abbrev allJoined : Rect S1024x512 := Rect.unit (s := S1024x512) ![0, 0] S1024x512.size inb_S1024x512_S1024x512_0_0
abbrev all256 : Rect S256 := Rect.unit (s := S256) ![0] S256.size inb_S256_S256_0
abbrev all256x32 : Rect S256x32 := Rect.unit (s := S256x32) ![0, 0] S256x32.size inb_S256x32_S256x32_0_0
abbrev all32 : Rect S32 := Rect.unit (s := S32) ![0] S32.size inb_S32_S32_0
abbrev all128x32 : Rect S128x32 := Rect.unit (s := S128x32) ![0, 0] S128x32.size inb_S128x32_S128x32_0_0
abbrev all128 : Rect S128 := Rect.unit (s := S128) ![0] S128.size inb_S128_S128_0
abbrev all128x128 : Rect S128x128 := Rect.unit (s := S128x128) ![0, 0] S128x128.size inb_S128x128_S128x128_0_0
abbrev all32x128 : Rect S32x128 := Rect.unit (s := S32x128) ![0, 0] S32x128.size inb_S32x128_S32x128_0_0
abbrev allCube : Rect S128x32x128 := Rect.unit (s := S128x32x128) ![0, 0, 0] S128x32x128.size inb_S128x32x128_S128x32x128_0_0_0

/-! ## What the body leaves in each output buffer -/

/-- The mixture weights of the point's 128 rows: from the rows, the joined weights, the hidden bias, the second
    mixture matrix and its bias. -/
def mixOut (rows : Vec F S128x1024 .f32) (joined : Vec F S1024x512 .bf16) (hb : Vec F S256 .f32) (w2 : Vec F S256x32 .bf16) (ob : Vec F S32 .f32) : Vec F S128x32 .f32 :=
  View.canon [⟨all128x32, k0_pay4 (View.ld rows allRows) (View.ld joined allJoined) (View.ld hb all256) (View.ld w2 all256x32) (View.ld ob all32)⟩]

/-- The means of the point's 128 rows against the 32 codes: from the rows, the joined weights, the transposed
    centred code projections, their variances, the projected code table, the shift, the gain and the output matrix. -/
def meanOut (rows : Vec F S128x1024 .f32) (joined : Vec F S1024x512 .bf16) (bT : Vec F S128x32 .bf16) (vb : Vec F S32 .f32)
    (q : Vec F S32x128 .f32) (r : Vec F S128 .f32) (g : Vec F S128 .f32) (wo : Vec F S128x128 .bf16) : Vec F S128x32x128 .f32 :=
  View.canon [⟨allCube, k0_pay6 (k0_pay5 (View.ld rows allRows) (View.ld joined allJoined)) (View.ld bT all128x32) (View.ld vb all32) (View.ld g all128) (View.ld wo all128x128) (View.ld q all32x128) (View.ld r all128)⟩]

/-- The clipped log-variances of the point's 128 rows against the 32 codes: from the rows, the joined weights and
    the code-side table. -/
def logvarOut (rows : Vec F S128x1024 .f32) (joined : Vec F S1024x512 .bf16) (lc : Vec F S32x128 .f32) : Vec F S128x32x128 .f32 :=
  View.canon [⟨allCube, k0_pay1 (k0_pay3 (View.ld rows allRows) (View.ld joined allJoined)) (View.ld lc all32x128)⟩]

/-- One whole-buffer store covers its buffer. -/
theorem mix_cover (p0 : Vec F S128x32 .f32) (y : S128x32.Idx) :
    ∃ pc ∈ ([⟨all128x32, p0⟩] : List (View.Piece (Elt F) S128x32 .f32)), y ∈ pc.1.set :=
  View.cover_of_tiled [⟨all128x32, p0⟩] S128x32.size (by rfl) y
theorem cube_cover (p0 : Vec F S128x32x128 .f32) (y : S128x32x128.Idx) :
    ∃ pc ∈ ([⟨allCube, p0⟩] : List (View.Piece (Elt F) S128x32x128 .f32)), y ∈ pc.1.set :=
  View.cover_of_tiled [⟨allCube, p0⟩] S128x32x128.size (by rfl) y

/-! ## The body's triple -/

set_option maxHeartbeats 4000000 in
/-- The body on whole staging buffers, the twelve inputs' at known contents and the three outputs' at anything, runs
    to its end, leaves the inputs' as they were and each output's at the function above of the inputs'. -/
theorem body_runs (c : Dev nD) (E : Set ℕ) (i : grid0.Coords) (arg1 : Memref sig .tc .vmem S128x1024 .f32) (harg1 : arg1.IsWhole) (arg2 : Memref sig .tc .vmem S1024x512 .bf16) (harg2 : arg2.IsWhole) (arg3 : Memref sig .tc .vmem S256 .f32) (harg3 : arg3.IsWhole) (arg4 : Memref sig .tc .vmem S256x32 .bf16) (harg4 : arg4.IsWhole) (arg5 : Memref sig .tc .vmem S32 .f32) (harg5 : arg5.IsWhole) (arg6 : Memref sig .tc .vmem S32x128 .f32) (harg6 : arg6.IsWhole) (arg7 : Memref sig .tc .vmem S128x32 .bf16) (harg7 : arg7.IsWhole) (arg8 : Memref sig .tc .vmem S32 .f32) (harg8 : arg8.IsWhole) (arg9 : Memref sig .tc .vmem S32x128 .f32) (harg9 : arg9.IsWhole) (arg10 : Memref sig .tc .vmem S128 .f32) (harg10 : arg10.IsWhole) (arg11 : Memref sig .tc .vmem S128 .f32) (harg11 : arg11.IsWhole) (arg12 : Memref sig .tc .vmem S128x128 .bf16) (harg12 : arg12.IsWhole) (arg13 : Memref sig .tc .vmem S128x32 .f32) (harg13 : arg13.IsWhole) (arg14 : Memref sig .tc .vmem S128x32x128 .f32) (harg14 : arg14.IsWhole) (arg15 : Memref sig .tc .vmem S128x32x128 .f32) (harg15 : arg15.IsWhole)
    (x0 : Vec F S128x1024 .f32) (x1 : Vec F S1024x512 .bf16) (x2 : Vec F S256 .f32) (x3 : Vec F S256x32 .bf16) (x4 : Vec F S32 .f32) (x5 : Vec F S32x128 .f32) (x6 : Vec F S128x32 .bf16) (x7 : Vec F S32 .f32) (x8 : Vec F S32x128 .f32) (x9 : Vec F S128 .f32) (x10 : Vec F S128 .f32) (x11 : Vec F S128x128 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (mixOut x0 x1 x2 x3 x4) ∗ owns (c : Thread nD τ) arg14 fullShare (meanOut x0 x1 x6 x7 x8 x9 x10 x11) ∗ owns (c : Thread nD τ) arg15 fullShare (logvarOut x0 x1 x5)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__kernel_eq_skeleton]; unfold cc0__kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    try dsimp only
    exact View.read_writes_eq_canon _ _ _ (mix_cover _)
  isplitl [H13]
  · iexists _; isplitr
    swap; · iexact H13
    ipureintro
    try dsimp only
    exact View.read_writes_eq_canon _ _ _ (cube_cover _)
  iexists _; isplitr
  swap; · iexact H14
  ipureintro
  try dsimp only
  exact View.read_writes_eq_canon _ _ _ (cube_cover _)

end Cert.Kernel.Body

end
-- ==== Proof.KernelWhole.lean ====
/-
  The launch as a whole. Its proof data: every staged array holds what the launch finds; after the body at a grid
  point each input buffer still holds its block and each output buffer the body's function of the input blocks.
  The body's triple discharges the launch's obligation at every point, the launch theorem runs the program around it,
  and the arguments come out unchanged.
-/
import proofs.«410282_j21792664060394_3_alg».proof.Proof.KernelAround
import proofs.«410282_j21792664060394_3_alg».proof.Proof.KernelBody

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Around Cert.Kernel.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the launch finds them; after the body at point `t` each input's buffer at its block,
    the three outputs' at the body's functions of the blocks; the invariant the untouched rest; full shares, nothing owed. -/
def pdat (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => blockAt m c 8 t
    | ⟨9, _⟩ => blockAt m c 9 t
    | ⟨10, _⟩ => blockAt m c 10 t
    | ⟨11, _⟩ => blockAt m c 11 t
    | ⟨12, _⟩ => mixOut (blockAt m c 0 t) (blockAt m c 1 t) (blockAt m c 2 t) (blockAt m c 3 t) (blockAt m c 4 t)
    | ⟨13, _⟩ => meanOut (blockAt m c 0 t) (blockAt m c 1 t) (blockAt m c 6 t) (blockAt m c 7 t) (blockAt m c 8 t) (blockAt m c 9 t) (blockAt m c 10 t) (blockAt m c 11 t)
    | ⟨14, _⟩ => logvarOut (blockAt m c 0 t) (blockAt m c 1 t) (blockAt m c 5 t)
  Φ _ := Pipeline.ΦA spec0 c
  q _ := fullShare
  owed _ := 0

theorem pdat_arr (c : Dev nD) (w : Fin cfg0.W) : (pdat m 0 c).A w = atEntry m c (Pipeline.arrRef spec0 w) := by
  dsimp only [pdat]

theorem left0 (c : Dev nD) (t : Fin cfg0.N) : (pdat m 0 c).after 0 t = blockAt m c 0 t := by dsimp only [pdat]
theorem left1 (c : Dev nD) (t : Fin cfg0.N) : (pdat m 0 c).after 1 t = blockAt m c 1 t := by dsimp only [pdat]
theorem left2 (c : Dev nD) (t : Fin cfg0.N) : (pdat m 0 c).after 2 t = blockAt m c 2 t := by dsimp only [pdat]
theorem left3 (c : Dev nD) (t : Fin cfg0.N) : (pdat m 0 c).after 3 t = blockAt m c 3 t := by dsimp only [pdat]
theorem left4 (c : Dev nD) (t : Fin cfg0.N) : (pdat m 0 c).after 4 t = blockAt m c 4 t := by dsimp only [pdat]
theorem left5 (c : Dev nD) (t : Fin cfg0.N) : (pdat m 0 c).after 5 t = blockAt m c 5 t := by dsimp only [pdat]
theorem left6 (c : Dev nD) (t : Fin cfg0.N) : (pdat m 0 c).after 6 t = blockAt m c 6 t := by dsimp only [pdat]
theorem left7 (c : Dev nD) (t : Fin cfg0.N) : (pdat m 0 c).after 7 t = blockAt m c 7 t := by dsimp only [pdat]
theorem left8 (c : Dev nD) (t : Fin cfg0.N) : (pdat m 0 c).after 8 t = blockAt m c 8 t := by dsimp only [pdat]
theorem left9 (c : Dev nD) (t : Fin cfg0.N) : (pdat m 0 c).after 9 t = blockAt m c 9 t := by dsimp only [pdat]
theorem left10 (c : Dev nD) (t : Fin cfg0.N) : (pdat m 0 c).after 10 t = blockAt m c 10 t := by dsimp only [pdat]
theorem left11 (c : Dev nD) (t : Fin cfg0.N) : (pdat m 0 c).after 11 t = blockAt m c 11 t := by dsimp only [pdat]
theorem left12 (c : Dev nD) (t : Fin cfg0.N) : (pdat m 0 c).after 12 t = mixOut (blockAt m c 0 t) (blockAt m c 1 t) (blockAt m c 2 t) (blockAt m c 3 t) (blockAt m c 4 t) := by dsimp only [pdat]
theorem left13 (c : Dev nD) (t : Fin cfg0.N) : (pdat m 0 c).after 13 t = meanOut (blockAt m c 0 t) (blockAt m c 1 t) (blockAt m c 6 t) (blockAt m c 7 t) (blockAt m c 8 t) (blockAt m c 9 t) (blockAt m c 10 t) (blockAt m c 11 t) := by dsimp only [pdat]
theorem left14 (c : Dev nD) (t : Fin cfg0.N) : (pdat m 0 c).after 14 t = logvarOut (blockAt m c 0 t) (blockAt m c 1 t) (blockAt m c 5 t) := by dsimp only [pdat]

theorem found0 (c : Dev nD) (t : Fin cfg0.N) (d) : (pdat m 0 c).before 0 t d = blockAt m c 0 t :=
  staged0_of m (pdat m 0 c) (pdat_arr m c 0) (left0 m c) t d
theorem found1 (c : Dev nD) (t : Fin cfg0.N) (d) : (pdat m 0 c).before 1 t d = blockAt m c 1 t :=
  staged1_of m (pdat m 0 c) (pdat_arr m c 1) (left1 m c) t d
theorem found2 (c : Dev nD) (t : Fin cfg0.N) (d) : (pdat m 0 c).before 2 t d = blockAt m c 2 t :=
  staged2_of m (pdat m 0 c) (pdat_arr m c 2) (left2 m c) t d
theorem found3 (c : Dev nD) (t : Fin cfg0.N) (d) : (pdat m 0 c).before 3 t d = blockAt m c 3 t :=
  staged3_of m (pdat m 0 c) (pdat_arr m c 3) (left3 m c) t d
theorem found4 (c : Dev nD) (t : Fin cfg0.N) (d) : (pdat m 0 c).before 4 t d = blockAt m c 4 t :=
  staged4_of m (pdat m 0 c) (pdat_arr m c 4) (left4 m c) t d
theorem found5 (c : Dev nD) (t : Fin cfg0.N) (d) : (pdat m 0 c).before 5 t d = blockAt m c 5 t :=
  staged5_of m (pdat m 0 c) (pdat_arr m c 5) (left5 m c) t d
theorem found6 (c : Dev nD) (t : Fin cfg0.N) (d) : (pdat m 0 c).before 6 t d = blockAt m c 6 t :=
  staged6_of m (pdat m 0 c) (pdat_arr m c 6) (left6 m c) t d
theorem found7 (c : Dev nD) (t : Fin cfg0.N) (d) : (pdat m 0 c).before 7 t d = blockAt m c 7 t :=
  staged7_of m (pdat m 0 c) (pdat_arr m c 7) (left7 m c) t d
theorem found8 (c : Dev nD) (t : Fin cfg0.N) (d) : (pdat m 0 c).before 8 t d = blockAt m c 8 t :=
  staged8_of m (pdat m 0 c) (pdat_arr m c 8) (left8 m c) t d
theorem found9 (c : Dev nD) (t : Fin cfg0.N) (d) : (pdat m 0 c).before 9 t d = blockAt m c 9 t :=
  staged9_of m (pdat m 0 c) (pdat_arr m c 9) (left9 m c) t d
theorem found10 (c : Dev nD) (t : Fin cfg0.N) (d) : (pdat m 0 c).before 10 t d = blockAt m c 10 t :=
  staged10_of m (pdat m 0 c) (pdat_arr m c 10) (left10 m c) t d
theorem found11 (c : Dev nD) (t : Fin cfg0.N) (d) : (pdat m 0 c).before 11 t d = blockAt m c 11 t :=
  staged11_of m (pdat m 0 c) (pdat_arr m c 11) (left11 m c) t d

/-! ## The body obligation at a grid point -/

def pointPre (c : Dev nD) (t : Fin cfg0.N) : sProp 𝕄 :=
  iprop((pdat m 0 c).Φ t.castSucc ∗ (pdat m 0 c).owesAt () t.castSucc
    ∗ (∃ d, owns (c : Thread nD τ) (st0_0 t) fullShare ((pdat m 0 c).before 0 t d))
    ∗ (∃ d, owns (c : Thread nD τ) (st0_1 t) fullShare ((pdat m 0 c).before 1 t d))
    ∗ (∃ d, owns (c : Thread nD τ) (st0_2 t) fullShare ((pdat m 0 c).before 2 t d))
    ∗ (∃ d, owns (c : Thread nD τ) (st0_3 t) fullShare ((pdat m 0 c).before 3 t d))
    ∗ (∃ d, owns (c : Thread nD τ) (st0_4 t) fullShare ((pdat m 0 c).before 4 t d))
    ∗ (∃ d, owns (c : Thread nD τ) (st0_5 t) fullShare ((pdat m 0 c).before 5 t d))
    ∗ (∃ d, owns (c : Thread nD τ) (st0_6 t) fullShare ((pdat m 0 c).before 6 t d))
    ∗ (∃ d, owns (c : Thread nD τ) (st0_7 t) fullShare ((pdat m 0 c).before 7 t d))
    ∗ (∃ d, owns (c : Thread nD τ) (st0_8 t) fullShare ((pdat m 0 c).before 8 t d))
    ∗ (∃ d, owns (c : Thread nD τ) (st0_9 t) fullShare ((pdat m 0 c).before 9 t d))
    ∗ (∃ d, owns (c : Thread nD τ) (st0_10 t) fullShare ((pdat m 0 c).before 10 t d))
    ∗ (∃ d, owns (c : Thread nD τ) (st0_11 t) fullShare ((pdat m 0 c).before 11 t d))
    ∗ (∃ d, owns (c : Thread nD τ) (st0_12 t) fullShare ((pdat m 0 c).before 12 t d))
    ∗ (∃ d, owns (c : Thread nD τ) (st0_13 t) fullShare ((pdat m 0 c).before 13 t d))
    ∗ (∃ d, owns (c : Thread nD τ) (st0_14 t) fullShare ((pdat m 0 c).before 14 t d)))

def pointPost (c : Dev nD) (t : Fin cfg0.N) : sProp 𝕄 :=
  iprop((pdat m 0 c).Φ t.succ ∗ (pdat m 0 c).owesAt () t.succ
    ∗ owns (c : Thread nD τ) (st0_0 t) fullShare ((pdat m 0 c).after 0 t)
    ∗ owns (c : Thread nD τ) (st0_1 t) fullShare ((pdat m 0 c).after 1 t)
    ∗ owns (c : Thread nD τ) (st0_2 t) fullShare ((pdat m 0 c).after 2 t)
    ∗ owns (c : Thread nD τ) (st0_3 t) fullShare ((pdat m 0 c).after 3 t)
    ∗ owns (c : Thread nD τ) (st0_4 t) fullShare ((pdat m 0 c).after 4 t)
    ∗ owns (c : Thread nD τ) (st0_5 t) fullShare ((pdat m 0 c).after 5 t)
    ∗ owns (c : Thread nD τ) (st0_6 t) fullShare ((pdat m 0 c).after 6 t)
    ∗ owns (c : Thread nD τ) (st0_7 t) fullShare ((pdat m 0 c).after 7 t)
    ∗ owns (c : Thread nD τ) (st0_8 t) fullShare ((pdat m 0 c).after 8 t)
    ∗ owns (c : Thread nD τ) (st0_9 t) fullShare ((pdat m 0 c).after 9 t)
    ∗ owns (c : Thread nD τ) (st0_10 t) fullShare ((pdat m 0 c).after 10 t)
    ∗ owns (c : Thread nD τ) (st0_11 t) fullShare ((pdat m 0 c).after 11 t)
    ∗ owns (c : Thread nD τ) (st0_12 t) fullShare ((pdat m 0 c).after 12 t)
    ∗ owns (c : Thread nD τ) (st0_13 t) fullShare ((pdat m 0 c).after 13 t)
    ∗ owns (c : Thread nD τ) (st0_14 t) fullShare ((pdat m 0 c).after 14 t))

set_option maxHeartbeats 1600000 in
/-- At any point the inputs' buffers hold their blocks, so the body's triple applies; the invariant and what the core
    owes pass through unread. -/
theorem point_runs (c : Dev nD) (t : Fin cfg0.N) :
    pointPre m c t ⊢ wp frame (wpE (defs₀ (F := F)) Variants.none c none) Set.univ (bodyAt0 t) (fun _ => pointPost m c t) := by
  unfold pointPre pointPost bodyAt0
  simp only [found0, found1, found2, found3, found4, found5, found6, found7, found8, found9, found10, found11]
  rw [show (pdat m 0 c).Φ t.succ = (pdat m 0 c).Φ t.castSucc from rfl,
    show (pdat m 0 c).owesAt () t.succ = (pdat m 0 c).owesAt () t.castSucc from rfl,
    left0, left1, left2, left3, left4, left5, left6, left7, left8, left9, left10, left11, left12, left13, left14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (body_runs c Set.univ (grid0.coords t) _ _ _ _ _ _ _ _ _ _ _ _ _ _ _ _ _ _ _ _ _ _ _ _ _ _ _ _ _ _ (blockAt m c 0 t) (blockAt m c 1 t) (blockAt m c 2 t) (blockAt m c 3 t) (blockAt m c 4 t) (blockAt m c 5 t) (blockAt m c 6 t) (blockAt m c 7 t) (blockAt m c 8 t) (blockAt m c 9 t) (blockAt m c 10 t) (blockAt m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem obligation (c : Dev nD) : BodyObligation (pdat (F := F) m 0 c) (defs₀ (F := F)) Variants.none () Set.univ := fun t => by
  rw [bigSep_W0, bigSep_W0]
  exact point_runs m c t

/-! ## The run -/

set_option backward.isDefEq.respectTransparency.types false in
/-- Every weakly fair execution of the program terminates, and ends with every staged array at what the proof data
    computes from the write-backs and every other unscoped buffer as the three reshapes leave it. -/
theorem runs : θ_run defs (onTc (τ := τ) (main (F := F))) (s₀ m ρ) (Pipeline.FramePost cfgs (pdat m) 0 (Pipeline.afterTail₀ cfgs (pdat m) 0 (entry m) [hostOps1])) :=
  Pipeline.θ_run_frame_around cfgs (pdat m) (0 : Fin 1) launch0 defs₀ Variants.none m ρ main
    (hbody := fun c => (obligation m c).loose) (hshare := fun c => (pdat m 0 c).share_full fun _ => rfl)
    (howed := fun _ _ => rfl) (V₀ := entry m) (opss := [hostOps1]) (hsub := after_sub) (hfresh := after_alloc) (hkeep := after_keeps)
    (hmain := main_around m Variants.none) (hA := pdat_arr m) (hΦ := fun _ _ => rfl)

/-- The program runs and leaves its fifteen arguments unchanged. -/
theorem args_unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  args_kept m ρ (pdat m) (pdat_arr m) (runs m ρ)

end Cert.Kernel.Whole

end
-- ==== Proof.KernelIdealAround.lean ====
/-
  The host side of the program around its one launch. Before the launch the host computes, from the fifteen
  arguments, the twelve operands the launch stages: the flattened hidden states, the three row-blocks of weights
  joined side by side into one matrix, the momentum-blended codes pushed through the code rows of the two weight
  matrices, their centring, variances and projections. After the launch three reshapes give the results their
  batch and time axes back. None of these operations writes an argument array, and none of the three reshapes
  writes an array the launch stages: so every argument ends as it began, which is what this module records,
  together with each staged window's block at a grid point read off the contents the launch finds.
-/
import proofs.«410282_j21792664060394_3_alg».proof.Proof.Gen.KernelIdeal.Launch
import proofs.«410282_j21792664060394_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the launch finds -/

/-- Core `c`'s buffer contents when the launch begins: the launch memory after the host operations that precede it. -/
abbrev entry (c : Dev nD) : Valuation τ sig (Elt F) := StableHlo.after (List.flatten [hostOps0]) (fun b => m (c, b))
/-- The same, read at one buffer of the core. -/
abbrev atEntry (c : Dev nD) (b : Ref sig .tc) : Buf (Elt F) ((c : Thread nD τ).loc b) := entry m c (Proc.devRef .tc b)

/-- The host operations before the launch allocate nothing. -/
theorem before_fresh : (hostOps0 : List (HloOp τ sig (Elt F))).Forall fun op => op.fresh = ∅ := by
  simp only [List.Forall]; repeat' constructor
/-- Nor do the three reshapes after it. -/
theorem after_fresh : (hostOps1 : List (HloOp τ sig (Elt F))).Forall fun op => op.fresh = ∅ := by
  simp only [List.Forall]; repeat' constructor

/-- The program is: the host operations, the launch, the three reshapes — so it reduces to the launch continued by
    the reshapes, from the contents `atEntry`. -/
theorem main_around (𝒱₀ : Variants) : Pipeline.HMainK (Ix := Unit) (Name := ℕ) (U := UR sig nD τ) (Lvl := ℕ) cfgs 0 defs₀ 𝒱₀ m (main (F := F)) (atEntry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_fresh) main_chain

/-- The reshapes touch only unscoped buffers of the core. -/
theorem after_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem after_alloc : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp after_fresh) op hop
/-- Each writes its own result (a result with batch and time axes), which is no array the launch stages. -/
theorem after_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The arguments are never written -/

/-- "No host operation before the launch writes this buffer": one conjunct per operation, each a comparison of two
    literal buffer numbers. -/
local macro "before_writes_elsewhere" : tactic => `(tactic|
  exact (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))))
/-- The same for the three reshapes after it. -/
local macro "after_writes_elsewhere" : tactic => `(tactic|
  exact (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))))

theorem entry_arg0 (c : Dev nD) : atEntry m c main_arg0 = m ((c : Thread nD τ).loc main_arg0) :=
  StableHlo.after_of_forall_not_mem (b := Proc.devRef .tc main_arg0) _ _ (by before_writes_elsewhere)
theorem entry_arg1 (c : Dev nD) : atEntry m c main_arg1 = m ((c : Thread nD τ).loc main_arg1) :=
  StableHlo.after_of_forall_not_mem (b := Proc.devRef .tc main_arg1) _ _ (by before_writes_elsewhere)
theorem entry_arg2 (c : Dev nD) : atEntry m c main_arg2 = m ((c : Thread nD τ).loc main_arg2) :=
  StableHlo.after_of_forall_not_mem (b := Proc.devRef .tc main_arg2) _ _ (by before_writes_elsewhere)
theorem entry_arg3 (c : Dev nD) : atEntry m c main_arg3 = m ((c : Thread nD τ).loc main_arg3) :=
  StableHlo.after_of_forall_not_mem (b := Proc.devRef .tc main_arg3) _ _ (by before_writes_elsewhere)
theorem entry_arg4 (c : Dev nD) : atEntry m c main_arg4 = m ((c : Thread nD τ).loc main_arg4) :=
  StableHlo.after_of_forall_not_mem (b := Proc.devRef .tc main_arg4) _ _ (by before_writes_elsewhere)
theorem entry_arg5 (c : Dev nD) : atEntry m c main_arg5 = m ((c : Thread nD τ).loc main_arg5) :=
  StableHlo.after_of_forall_not_mem (b := Proc.devRef .tc main_arg5) _ _ (by before_writes_elsewhere)
theorem entry_arg6 (c : Dev nD) : atEntry m c main_arg6 = m ((c : Thread nD τ).loc main_arg6) :=
  StableHlo.after_of_forall_not_mem (b := Proc.devRef .tc main_arg6) _ _ (by before_writes_elsewhere)
theorem entry_arg7 (c : Dev nD) : atEntry m c main_arg7 = m ((c : Thread nD τ).loc main_arg7) :=
  StableHlo.after_of_forall_not_mem (b := Proc.devRef .tc main_arg7) _ _ (by before_writes_elsewhere)
theorem entry_arg8 (c : Dev nD) : atEntry m c main_arg8 = m ((c : Thread nD τ).loc main_arg8) :=
  StableHlo.after_of_forall_not_mem (b := Proc.devRef .tc main_arg8) _ _ (by before_writes_elsewhere)
theorem entry_arg9 (c : Dev nD) : atEntry m c main_arg9 = m ((c : Thread nD τ).loc main_arg9) :=
  StableHlo.after_of_forall_not_mem (b := Proc.devRef .tc main_arg9) _ _ (by before_writes_elsewhere)
theorem entry_arg10 (c : Dev nD) : atEntry m c main_arg10 = m ((c : Thread nD τ).loc main_arg10) :=
  StableHlo.after_of_forall_not_mem (b := Proc.devRef .tc main_arg10) _ _ (by before_writes_elsewhere)
theorem entry_arg11 (c : Dev nD) : atEntry m c main_arg11 = m ((c : Thread nD τ).loc main_arg11) :=
  StableHlo.after_of_forall_not_mem (b := Proc.devRef .tc main_arg11) _ _ (by before_writes_elsewhere)
theorem entry_arg12 (c : Dev nD) : atEntry m c main_arg12 = m ((c : Thread nD τ).loc main_arg12) :=
  StableHlo.after_of_forall_not_mem (b := Proc.devRef .tc main_arg12) _ _ (by before_writes_elsewhere)
theorem entry_arg13 (c : Dev nD) : atEntry m c main_arg13 = m ((c : Thread nD τ).loc main_arg13) :=
  StableHlo.after_of_forall_not_mem (b := Proc.devRef .tc main_arg13) _ _ (by before_writes_elsewhere)
theorem entry_arg14 (c : Dev nD) : atEntry m c main_arg14 = m ((c : Thread nD τ).loc main_arg14) :=
  StableHlo.after_of_forall_not_mem (b := Proc.devRef .tc main_arg14) _ _ (by before_writes_elsewhere)

/-! An argument no window stages is read after the reshapes: they write elsewhere, the launch's write-backs go to
    the staged arrays, and before that it is as launched. -/

theorem exit_arg0 (dats : (p : Fin _) → (c : Dev nD) → Dat τ (Elt F) Unit ℕ (UR sig nD τ) ℕ (cfgs p) c) (c : Dev nD) :
    Pipeline.afterTail₀ cfgs dats 0 (entry m) [hostOps1] c main_arg0 = m ((c : Thread nD τ).loc main_arg0) := by
  unfold Pipeline.afterTail₀
  rw [StableHlo.after_of_forall_not_mem (b := Proc.devRef .tc main_arg0) _ _ (by after_writes_elsewhere),
    Pipeline.withArrays_of_ne _ c (entry m c) _ main_arg0 (by exact (by decide : ∀ w, Pipeline.arrRef spec0 w ≠ main_arg0))]
  exact entry_arg0 m c
theorem exit_arg1 (dats : (p : Fin _) → (c : Dev nD) → Dat τ (Elt F) Unit ℕ (UR sig nD τ) ℕ (cfgs p) c) (c : Dev nD) :
    Pipeline.afterTail₀ cfgs dats 0 (entry m) [hostOps1] c main_arg1 = m ((c : Thread nD τ).loc main_arg1) := by
  unfold Pipeline.afterTail₀
  rw [StableHlo.after_of_forall_not_mem (b := Proc.devRef .tc main_arg1) _ _ (by after_writes_elsewhere),
    Pipeline.withArrays_of_ne _ c (entry m c) _ main_arg1 (by exact (by decide : ∀ w, Pipeline.arrRef spec0 w ≠ main_arg1))]
  exact entry_arg1 m c
theorem exit_arg2 (dats : (p : Fin _) → (c : Dev nD) → Dat τ (Elt F) Unit ℕ (UR sig nD τ) ℕ (cfgs p) c) (c : Dev nD) :
    Pipeline.afterTail₀ cfgs dats 0 (entry m) [hostOps1] c main_arg2 = m ((c : Thread nD τ).loc main_arg2) := by
  unfold Pipeline.afterTail₀
  rw [StableHlo.after_of_forall_not_mem (b := Proc.devRef .tc main_arg2) _ _ (by after_writes_elsewhere),
    Pipeline.withArrays_of_ne _ c (entry m c) _ main_arg2 (by exact (by decide : ∀ w, Pipeline.arrRef spec0 w ≠ main_arg2))]
  exact entry_arg2 m c
theorem exit_arg3 (dats : (p : Fin _) → (c : Dev nD) → Dat τ (Elt F) Unit ℕ (UR sig nD τ) ℕ (cfgs p) c) (c : Dev nD) :
    Pipeline.afterTail₀ cfgs dats 0 (entry m) [hostOps1] c main_arg3 = m ((c : Thread nD τ).loc main_arg3) := by
  unfold Pipeline.afterTail₀
  rw [StableHlo.after_of_forall_not_mem (b := Proc.devRef .tc main_arg3) _ _ (by after_writes_elsewhere),
    Pipeline.withArrays_of_ne _ c (entry m c) _ main_arg3 (by exact (by decide : ∀ w, Pipeline.arrRef spec0 w ≠ main_arg3))]
  exact entry_arg3 m c
theorem exit_arg4 (dats : (p : Fin _) → (c : Dev nD) → Dat τ (Elt F) Unit ℕ (UR sig nD τ) ℕ (cfgs p) c) (c : Dev nD) :
    Pipeline.afterTail₀ cfgs dats 0 (entry m) [hostOps1] c main_arg4 = m ((c : Thread nD τ).loc main_arg4) := by
  unfold Pipeline.afterTail₀
  rw [StableHlo.after_of_forall_not_mem (b := Proc.devRef .tc main_arg4) _ _ (by after_writes_elsewhere),
    Pipeline.withArrays_of_ne _ c (entry m c) _ main_arg4 (by exact (by decide : ∀ w, Pipeline.arrRef spec0 w ≠ main_arg4))]
  exact entry_arg4 m c
theorem exit_arg6 (dats : (p : Fin _) → (c : Dev nD) → Dat τ (Elt F) Unit ℕ (UR sig nD τ) ℕ (cfgs p) c) (c : Dev nD) :
    Pipeline.afterTail₀ cfgs dats 0 (entry m) [hostOps1] c main_arg6 = m ((c : Thread nD τ).loc main_arg6) := by
  unfold Pipeline.afterTail₀
  rw [StableHlo.after_of_forall_not_mem (b := Proc.devRef .tc main_arg6) _ _ (by after_writes_elsewhere),
    Pipeline.withArrays_of_ne _ c (entry m c) _ main_arg6 (by exact (by decide : ∀ w, Pipeline.arrRef spec0 w ≠ main_arg6))]
  exact entry_arg6 m c
theorem exit_arg7 (dats : (p : Fin _) → (c : Dev nD) → Dat τ (Elt F) Unit ℕ (UR sig nD τ) ℕ (cfgs p) c) (c : Dev nD) :
    Pipeline.afterTail₀ cfgs dats 0 (entry m) [hostOps1] c main_arg7 = m ((c : Thread nD τ).loc main_arg7) := by
  unfold Pipeline.afterTail₀
  rw [StableHlo.after_of_forall_not_mem (b := Proc.devRef .tc main_arg7) _ _ (by after_writes_elsewhere),
    Pipeline.withArrays_of_ne _ c (entry m c) _ main_arg7 (by exact (by decide : ∀ w, Pipeline.arrRef spec0 w ≠ main_arg7))]
  exact entry_arg7 m c
theorem exit_arg8 (dats : (p : Fin _) → (c : Dev nD) → Dat τ (Elt F) Unit ℕ (UR sig nD τ) ℕ (cfgs p) c) (c : Dev nD) :
    Pipeline.afterTail₀ cfgs dats 0 (entry m) [hostOps1] c main_arg8 = m ((c : Thread nD τ).loc main_arg8) := by
  unfold Pipeline.afterTail₀
  rw [StableHlo.after_of_forall_not_mem (b := Proc.devRef .tc main_arg8) _ _ (by after_writes_elsewhere),
    Pipeline.withArrays_of_ne _ c (entry m c) _ main_arg8 (by exact (by decide : ∀ w, Pipeline.arrRef spec0 w ≠ main_arg8))]
  exact entry_arg8 m c
theorem exit_arg9 (dats : (p : Fin _) → (c : Dev nD) → Dat τ (Elt F) Unit ℕ (UR sig nD τ) ℕ (cfgs p) c) (c : Dev nD) :
    Pipeline.afterTail₀ cfgs dats 0 (entry m) [hostOps1] c main_arg9 = m ((c : Thread nD τ).loc main_arg9) := by
  unfold Pipeline.afterTail₀
  rw [StableHlo.after_of_forall_not_mem (b := Proc.devRef .tc main_arg9) _ _ (by after_writes_elsewhere),
    Pipeline.withArrays_of_ne _ c (entry m c) _ main_arg9 (by exact (by decide : ∀ w, Pipeline.arrRef spec0 w ≠ main_arg9))]
  exact entry_arg9 m c
theorem exit_arg10 (dats : (p : Fin _) → (c : Dev nD) → Dat τ (Elt F) Unit ℕ (UR sig nD τ) ℕ (cfgs p) c) (c : Dev nD) :
    Pipeline.afterTail₀ cfgs dats 0 (entry m) [hostOps1] c main_arg10 = m ((c : Thread nD τ).loc main_arg10) := by
  unfold Pipeline.afterTail₀
  rw [StableHlo.after_of_forall_not_mem (b := Proc.devRef .tc main_arg10) _ _ (by after_writes_elsewhere),
    Pipeline.withArrays_of_ne _ c (entry m c) _ main_arg10 (by exact (by decide : ∀ w, Pipeline.arrRef spec0 w ≠ main_arg10))]
  exact entry_arg10 m c
theorem exit_arg11 (dats : (p : Fin _) → (c : Dev nD) → Dat τ (Elt F) Unit ℕ (UR sig nD τ) ℕ (cfgs p) c) (c : Dev nD) :
    Pipeline.afterTail₀ cfgs dats 0 (entry m) [hostOps1] c main_arg11 = m ((c : Thread nD τ).loc main_arg11) := by
  unfold Pipeline.afterTail₀
  rw [StableHlo.after_of_forall_not_mem (b := Proc.devRef .tc main_arg11) _ _ (by after_writes_elsewhere),
    Pipeline.withArrays_of_ne _ c (entry m c) _ main_arg11 (by exact (by decide : ∀ w, Pipeline.arrRef spec0 w ≠ main_arg11))]
  exact entry_arg11 m c
theorem exit_arg13 (dats : (p : Fin _) → (c : Dev nD) → Dat τ (Elt F) Unit ℕ (UR sig nD τ) ℕ (cfgs p) c) (c : Dev nD) :
    Pipeline.afterTail₀ cfgs dats 0 (entry m) [hostOps1] c main_arg13 = m ((c : Thread nD τ).loc main_arg13) := by
  unfold Pipeline.afterTail₀
  rw [StableHlo.after_of_forall_not_mem (b := Proc.devRef .tc main_arg13) _ _ (by after_writes_elsewhere),
    Pipeline.withArrays_of_ne _ c (entry m c) _ main_arg13 (by exact (by decide : ∀ w, Pipeline.arrRef spec0 w ≠ main_arg13))]
  exact entry_arg13 m c

/-! ## The windows' blocks -/

/-- Window `w`'s block at grid point `t`, read off its array as the launch finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-! Each input window's current staging buffer holds that block at every point, whether the point fetches it or
    not (the eleven operands that do not depend on the rows are fetched once, at the first point, and the index of
    their block never moves), for any proof data over the contents `atEntry` whose body leaves the block in place. -/

theorem staged0_of {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem staged1_of {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem staged2_of {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem staged3_of {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem staged4_of {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem staged5_of {c : Dev nD} (dat : Dat τ (Elt F) Unit ℕ (UR sig nD τ) ℕ cfg0 c) (hA : dat.A 5 = atEntry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
theorem staged6_of {c : Dev nD} (dat : Dat τ (Elt F) Unit ℕ (UR sig nD τ) ℕ cfg0 c) (hA : dat.A 6 = atEntry m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)
theorem staged7_of {c : Dev nD} (dat : Dat τ (Elt F) Unit ℕ (UR sig nD τ) ℕ cfg0 c) (hA : dat.A 7 = atEntry m c (Pipeline.arrRef spec0 7))
    (hafter : ∀ t, dat.after 7 t = blockAt m c 7 t) (t : Fin cfg0.N) (d) : dat.before 7 t d = blockAt m c 7 t :=
  (dat.before_in_eq_fetched 7 rfl (fun _ => rfl) (fun _ _ _ => rfl) (fun t => by rw [hafter]; unfold Dat.blockOf blockAt; rw [hA]; try rfl) t d).trans
    (by unfold Dat.fetched Dat.blockOf blockAt; rw [hA]; try rfl)
theorem staged8_of {c : Dev nD} (dat : Dat τ (Elt F) Unit ℕ (UR sig nD τ) ℕ cfg0 c) (hA : dat.A 8 = atEntry m c (Pipeline.arrRef spec0 8))
    (hafter : ∀ t, dat.after 8 t = blockAt m c 8 t) (t : Fin cfg0.N) (d) : dat.before 8 t d = blockAt m c 8 t :=
  (dat.before_in_eq_fetched 8 rfl (fun _ => rfl) (fun _ _ _ => rfl) (fun t => by rw [hafter]; unfold Dat.blockOf blockAt; rw [hA]; try rfl) t d).trans
    (by unfold Dat.fetched Dat.blockOf blockAt; rw [hA]; try rfl)
theorem staged9_of {c : Dev nD} (dat : Dat τ (Elt F) Unit ℕ (UR sig nD τ) ℕ cfg0 c) (hA : dat.A 9 = atEntry m c (Pipeline.arrRef spec0 9))
    (hafter : ∀ t, dat.after 9 t = blockAt m c 9 t) (t : Fin cfg0.N) (d) : dat.before 9 t d = blockAt m c 9 t :=
  (dat.before_in_eq_fetched 9 rfl (fun _ => rfl) (fun _ _ _ => rfl) (fun t => by rw [hafter]; unfold Dat.blockOf blockAt; rw [hA]; try rfl) t d).trans
    (by unfold Dat.fetched Dat.blockOf blockAt; rw [hA]; try rfl)
theorem staged10_of {c : Dev nD} (dat : Dat τ (Elt F) Unit ℕ (UR sig nD τ) ℕ cfg0 c) (hA : dat.A 10 = atEntry m c (Pipeline.arrRef spec0 10))
    (hafter : ∀ t, dat.after 10 t = blockAt m c 10 t) (t : Fin cfg0.N) (d) : dat.before 10 t d = blockAt m c 10 t :=
  (dat.before_in_eq_fetched 10 rfl (fun _ => rfl) (fun _ _ _ => rfl) (fun t => by rw [hafter]; unfold Dat.blockOf blockAt; rw [hA]; try rfl) t d).trans
    (by unfold Dat.fetched Dat.blockOf blockAt; rw [hA]; try rfl)
theorem staged11_of {c : Dev nD} (dat : Dat τ (Elt F) Unit ℕ (UR sig nD τ) ℕ cfg0 c) (hA : dat.A 11 = atEntry m c (Pipeline.arrRef spec0 11))
    (hafter : ∀ t, dat.after 11 t = blockAt m c 11 t) (t : Fin cfg0.N) (d) : dat.before 11 t d = blockAt m c 11 t :=
  (dat.before_in_eq_fetched 11 rfl (fun _ => rfl) (fun _ _ _ => rfl) (fun t => by rw [hafter]; unfold Dat.blockOf blockAt; rw [hA]; try rfl) t d).trans
    (by unfold Dat.fetched Dat.blockOf blockAt; rw [hA]; try rfl)

/-! ## The arguments end unchanged -/

/-- From any run of the program that ends with every staged array at what the proof data computes and every other
    unscoped buffer as the three reshapes leave it: each of the fifteen arguments ends as launched — the three the
    launch stages as inputs (the two mixture biases and the normalisation gain) because an input's array is only
    read, the other twelve because nothing writes them. -/
theorem args_kept (dats : (p : Fin 1) → (c : Dev nD) → Dat τ (Elt F) Unit ℕ (UR sig nD τ) ℕ (cfgs p) c)
    (hA : ∀ c w, (dats 0 c).A w = atEntry m c (Pipeline.arrRef spec0 w))
    (h : θ_run defs (onTc (τ := τ) (main (F := F))) (s₀ m ρ) (Pipeline.FramePost cfgs dats 0 (Pipeline.afterTail₀ cfgs dats 0 (entry m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(((h c).2 main_arg0 (Pipeline.mem_restRefs_of main_arg0 (by decide) (by decide))).trans (exit_arg0 m dats c)),
      (((h c).2 main_arg1 (Pipeline.mem_restRefs_of main_arg1 (by decide) (by decide))).trans (exit_arg1 m dats c)),
      (((h c).2 main_arg2 (Pipeline.mem_restRefs_of main_arg2 (by decide) (by decide))).trans (exit_arg2 m dats c)),
      (((h c).2 main_arg3 (Pipeline.mem_restRefs_of main_arg3 (by decide) (by decide))).trans (exit_arg3 m dats c)),
      (((h c).2 main_arg4 (Pipeline.mem_restRefs_of main_arg4 (by decide) (by decide))).trans (exit_arg4 m dats c)),
      ((h c).1 10).trans (((dats 0 c).arrAt_in 10 rfl _).trans ((hA c 10).trans (entry_arg5 m c))),
      (((h c).2 main_arg6 (Pipeline.mem_restRefs_of main_arg6 (by decide) (by decide))).trans (exit_arg6 m dats c)),
      (((h c).2 main_arg7 (Pipeline.mem_restRefs_of main_arg7 (by decide) (by decide))).trans (exit_arg7 m dats c)),
      (((h c).2 main_arg8 (Pipeline.mem_restRefs_of main_arg8 (by decide) (by decide))).trans (exit_arg8 m dats c)),
      (((h c).2 main_arg9 (Pipeline.mem_restRefs_of main_arg9 (by decide) (by decide))).trans (exit_arg9 m dats c)),
      (((h c).2 main_arg10 (Pipeline.mem_restRefs_of main_arg10 (by decide) (by decide))).trans (exit_arg10 m dats c)),
      (((h c).2 main_arg11 (Pipeline.mem_restRefs_of main_arg11 (by decide) (by decide))).trans (exit_arg11 m dats c)),
      ((h c).1 2).trans (((dats 0 c).arrAt_in 2 rfl _).trans ((hA c 2).trans (entry_arg12 m c))),
      (((h c).2 main_arg13 (Pipeline.mem_restRefs_of main_arg13 (by decide) (by decide))).trans (exit_arg13 m dats c)),
      ((h c).1 4).trans (((dats 0 c).arrAt_in 4 rfl _).trans ((hA c 4).trans (entry_arg14 m c)))⟩) h

end Cert.KernelIdeal.Around

end
-- ==== Proof.KernelIdealBody.lean ====
/-
  What one grid point's body leaves in its three output buffers, as functions of the twelve input blocks it reads.
  The body loads each input buffer whole, once; it forms the product of the 128 rows of hidden states with the
  joined weight matrix and cuts it into its three column bands; from the last band it makes the mixture weights
  (bias, x·logistic x, a second product, bias, a softmax along the 32 codes) and stores them whole; from the first
  band, centred along its 128 columns, it makes the variance, the inverse deviation and the projected centred rows,
  combines them with the code-side tables into the 128 × 32 × 128 block of means and stores tanh of it whole; from
  the middle band plus the code-side table it makes the clipped log-variances and stores them whole. Each output
  buffer is written by exactly one store that covers it, so afterwards it holds that store's value.
-/
import proofs.«410282_j21792664060394_3_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The rectangles the body reads and writes: every one a whole buffer -/

abbrev allRows : Rect S128x1024 := Rect.unit (s := S128x1024) ![0, 0] S128x1024.size inb_S128x1024_S128x1024_0_0
abbrev allJoined : Rect S1024x512 := Rect.unit (s := S1024x512) ![0, 0] S1024x512.size inb_S1024x512_S1024x512_0_0
abbrev all256 : Rect S256 := Rect.unit (s := S256) ![0] S256.size inb_S256_S256_0
abbrev all256x32 : Rect S256x32 := Rect.unit (s := S256x32) ![0, 0] S256x32.size inb_S256x32_S256x32_0_0
abbrev all32 : Rect S32 := Rect.unit (s := S32) ![0] S32.size inb_S32_S32_0
abbrev all128x32 : Rect S128x32 := Rect.unit (s := S128x32) ![0, 0] S128x32.size inb_S128x32_S128x32_0_0
abbrev all128 : Rect S128 := Rect.unit (s := S128) ![0] S128.size inb_S128_S128_0
abbrev all128x128 : Rect S128x128 := Rect.unit (s := S128x128) ![0, 0] S128x128.size inb_S128x128_S128x128_0_0
abbrev all32x128 : Rect S32x128 := Rect.unit (s := S32x128) ![0, 0] S32x128.size inb_S32x128_S32x128_0_0
abbrev allCube : Rect S128x32x128 := Rect.unit (s := S128x32x128) ![0, 0, 0] S128x32x128.size inb_S128x32x128_S128x32x128_0_0_0

/-! ## What the body leaves in each output buffer -/

/-- The mixture weights of the point's 128 rows: from the rows, the joined weights, the hidden bias, the second
    mixture matrix and its bias. -/
def mixOut (rows : Vec F S128x1024 .f32) (joined : Vec F S1024x512 .bf16) (hb : Vec F S256 .f32) (w2 : Vec F S256x32 .bf16) (ob : Vec F S32 .f32) : Vec F S128x32 .f32 :=
  View.canon [⟨all128x32, k0_pay4 (View.ld rows allRows) (View.ld joined allJoined) (View.ld hb all256) (View.ld w2 all256x32) (View.ld ob all32)⟩]

/-- The means of the point's 128 rows against the 32 codes: from the rows, the joined weights, the transposed
    centred code projections, their variances, the projected code table, the shift, the gain and the output matrix. -/
def meanOut (rows : Vec F S128x1024 .f32) (joined : Vec F S1024x512 .bf16) (bT : Vec F S128x32 .bf16) (vb : Vec F S32 .f32)
    (q : Vec F S32x128 .f32) (r : Vec F S128 .f32) (g : Vec F S128 .f32) (wo : Vec F S128x128 .bf16) : Vec F S128x32x128 .f32 :=
  View.canon [⟨allCube, k0_pay6 (k0_pay5 (View.ld rows allRows) (View.ld joined allJoined)) (View.ld bT all128x32) (View.ld vb all32) (View.ld g all128) (View.ld wo all128x128) (View.ld q all32x128) (View.ld r all128)⟩]

/-- The clipped log-variances of the point's 128 rows against the 32 codes: from the rows, the joined weights and
    the code-side table. -/
def logvarOut (rows : Vec F S128x1024 .f32) (joined : Vec F S1024x512 .bf16) (lc : Vec F S32x128 .f32) : Vec F S128x32x128 .f32 :=
  View.canon [⟨allCube, k0_pay1 (k0_pay3 (View.ld rows allRows) (View.ld joined allJoined)) (View.ld lc all32x128)⟩]

/-- One whole-buffer store covers its buffer. -/
theorem mix_cover (p0 : Vec F S128x32 .f32) (y : S128x32.Idx) :
    ∃ pc ∈ ([⟨all128x32, p0⟩] : List (View.Piece (Elt F) S128x32 .f32)), y ∈ pc.1.set :=
  View.cover_of_tiled [⟨all128x32, p0⟩] S128x32.size (by rfl) y
theorem cube_cover (p0 : Vec F S128x32x128 .f32) (y : S128x32x128.Idx) :
    ∃ pc ∈ ([⟨allCube, p0⟩] : List (View.Piece (Elt F) S128x32x128 .f32)), y ∈ pc.1.set :=
  View.cover_of_tiled [⟨allCube, p0⟩] S128x32x128.size (by rfl) y

/-! ## The body's triple -/

set_option maxHeartbeats 4000000 in
/-- The body on whole staging buffers, the twelve inputs' at known contents and the three outputs' at anything, runs
    to its end, leaves the inputs' as they were and each output's at the function above of the inputs'. -/
theorem body_runs (c : Dev nD) (E : Set ℕ) (i : grid0.Coords) (arg1 : Memref sig .tc .vmem S128x1024 .f32) (harg1 : arg1.IsWhole) (arg2 : Memref sig .tc .vmem S1024x512 .bf16) (harg2 : arg2.IsWhole) (arg3 : Memref sig .tc .vmem S256 .f32) (harg3 : arg3.IsWhole) (arg4 : Memref sig .tc .vmem S256x32 .bf16) (harg4 : arg4.IsWhole) (arg5 : Memref sig .tc .vmem S32 .f32) (harg5 : arg5.IsWhole) (arg6 : Memref sig .tc .vmem S32x128 .f32) (harg6 : arg6.IsWhole) (arg7 : Memref sig .tc .vmem S128x32 .bf16) (harg7 : arg7.IsWhole) (arg8 : Memref sig .tc .vmem S32 .f32) (harg8 : arg8.IsWhole) (arg9 : Memref sig .tc .vmem S32x128 .f32) (harg9 : arg9.IsWhole) (arg10 : Memref sig .tc .vmem S128 .f32) (harg10 : arg10.IsWhole) (arg11 : Memref sig .tc .vmem S128 .f32) (harg11 : arg11.IsWhole) (arg12 : Memref sig .tc .vmem S128x128 .bf16) (harg12 : arg12.IsWhole) (arg13 : Memref sig .tc .vmem S128x32 .f32) (harg13 : arg13.IsWhole) (arg14 : Memref sig .tc .vmem S128x32x128 .f32) (harg14 : arg14.IsWhole) (arg15 : Memref sig .tc .vmem S128x32x128 .f32) (harg15 : arg15.IsWhole)
    (x0 : Vec F S128x1024 .f32) (x1 : Vec F S1024x512 .bf16) (x2 : Vec F S256 .f32) (x3 : Vec F S256x32 .bf16) (x4 : Vec F S32 .f32) (x5 : Vec F S32x128 .f32) (x6 : Vec F S128x32 .bf16) (x7 : Vec F S32 .f32) (x8 : Vec F S32x128 .f32) (x9 : Vec F S128 .f32) (x10 : Vec F S128 .f32) (x11 : Vec F S128x128 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (mixOut x0 x1 x2 x3 x4) ∗ owns (c : Thread nD τ) arg14 fullShare (meanOut x0 x1 x6 x7 x8 x9 x10 x11) ∗ owns (c : Thread nD τ) arg15 fullShare (logvarOut x0 x1 x5)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__kernel_eq_skeleton]; unfold cc0__kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    try dsimp only
    exact View.read_writes_eq_canon _ _ _ (mix_cover _)
  isplitl [H13]
  · iexists _; isplitr
    swap; · iexact H13
    ipureintro
    try dsimp only
    exact View.read_writes_eq_canon _ _ _ (cube_cover _)
  iexists _; isplitr
  swap; · iexact H14
  ipureintro
  try dsimp only
  exact View.read_writes_eq_canon _ _ _ (cube_cover _)

end Cert.KernelIdeal.Body

end
-- ==== Proof.KernelIdealWhole.lean ====
/-
  The launch as a whole. Its proof data: every staged array holds what the launch finds; after the body at a grid
  point each input buffer still holds its block and each output buffer the body's function of the input blocks.
  The body's triple discharges the launch's obligation at every point, the launch theorem runs the program around it,
  and the arguments come out unchanged.
-/
import proofs.«410282_j21792664060394_3_alg».proof.Proof.KernelIdealAround
import proofs.«410282_j21792664060394_3_alg».proof.Proof.KernelIdealBody

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Around Cert.KernelIdeal.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the launch finds them; after the body at point `t` each input's buffer at its block,
    the three outputs' at the body's functions of the blocks; the invariant the untouched rest; full shares, nothing owed. -/
def pdat (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => blockAt m c 8 t
    | ⟨9, _⟩ => blockAt m c 9 t
    | ⟨10, _⟩ => blockAt m c 10 t
    | ⟨11, _⟩ => blockAt m c 11 t
    | ⟨12, _⟩ => mixOut (blockAt m c 0 t) (blockAt m c 1 t) (blockAt m c 2 t) (blockAt m c 3 t) (blockAt m c 4 t)
    | ⟨13, _⟩ => meanOut (blockAt m c 0 t) (blockAt m c 1 t) (blockAt m c 6 t) (blockAt m c 7 t) (blockAt m c 8 t) (blockAt m c 9 t) (blockAt m c 10 t) (blockAt m c 11 t)
    | ⟨14, _⟩ => logvarOut (blockAt m c 0 t) (blockAt m c 1 t) (blockAt m c 5 t)
  Φ _ := Pipeline.ΦA spec0 c
  q _ := fullShare
  owed _ := 0

theorem pdat_arr (c : Dev nD) (w : Fin cfg0.W) : (pdat m 0 c).A w = atEntry m c (Pipeline.arrRef spec0 w) := by
  dsimp only [pdat]

theorem left0 (c : Dev nD) (t : Fin cfg0.N) : (pdat m 0 c).after 0 t = blockAt m c 0 t := by dsimp only [pdat]
theorem left1 (c : Dev nD) (t : Fin cfg0.N) : (pdat m 0 c).after 1 t = blockAt m c 1 t := by dsimp only [pdat]
theorem left2 (c : Dev nD) (t : Fin cfg0.N) : (pdat m 0 c).after 2 t = blockAt m c 2 t := by dsimp only [pdat]
theorem left3 (c : Dev nD) (t : Fin cfg0.N) : (pdat m 0 c).after 3 t = blockAt m c 3 t := by dsimp only [pdat]
theorem left4 (c : Dev nD) (t : Fin cfg0.N) : (pdat m 0 c).after 4 t = blockAt m c 4 t := by dsimp only [pdat]
theorem left5 (c : Dev nD) (t : Fin cfg0.N) : (pdat m 0 c).after 5 t = blockAt m c 5 t := by dsimp only [pdat]
theorem left6 (c : Dev nD) (t : Fin cfg0.N) : (pdat m 0 c).after 6 t = blockAt m c 6 t := by dsimp only [pdat]
theorem left7 (c : Dev nD) (t : Fin cfg0.N) : (pdat m 0 c).after 7 t = blockAt m c 7 t := by dsimp only [pdat]
theorem left8 (c : Dev nD) (t : Fin cfg0.N) : (pdat m 0 c).after 8 t = blockAt m c 8 t := by dsimp only [pdat]
theorem left9 (c : Dev nD) (t : Fin cfg0.N) : (pdat m 0 c).after 9 t = blockAt m c 9 t := by dsimp only [pdat]
theorem left10 (c : Dev nD) (t : Fin cfg0.N) : (pdat m 0 c).after 10 t = blockAt m c 10 t := by dsimp only [pdat]
theorem left11 (c : Dev nD) (t : Fin cfg0.N) : (pdat m 0 c).after 11 t = blockAt m c 11 t := by dsimp only [pdat]
theorem left12 (c : Dev nD) (t : Fin cfg0.N) : (pdat m 0 c).after 12 t = mixOut (blockAt m c 0 t) (blockAt m c 1 t) (blockAt m c 2 t) (blockAt m c 3 t) (blockAt m c 4 t) := by dsimp only [pdat]
theorem left13 (c : Dev nD) (t : Fin cfg0.N) : (pdat m 0 c).after 13 t = meanOut (blockAt m c 0 t) (blockAt m c 1 t) (blockAt m c 6 t) (blockAt m c 7 t) (blockAt m c 8 t) (blockAt m c 9 t) (blockAt m c 10 t) (blockAt m c 11 t) := by dsimp only [pdat]
theorem left14 (c : Dev nD) (t : Fin cfg0.N) : (pdat m 0 c).after 14 t = logvarOut (blockAt m c 0 t) (blockAt m c 1 t) (blockAt m c 5 t) := by dsimp only [pdat]

theorem found0 (c : Dev nD) (t : Fin cfg0.N) (d) : (pdat m 0 c).before 0 t d = blockAt m c 0 t :=
  staged0_of m (pdat m 0 c) (pdat_arr m c 0) (left0 m c) t d
theorem found1 (c : Dev nD) (t : Fin cfg0.N) (d) : (pdat m 0 c).before 1 t d = blockAt m c 1 t :=
  staged1_of m (pdat m 0 c) (pdat_arr m c 1) (left1 m c) t d
theorem found2 (c : Dev nD) (t : Fin cfg0.N) (d) : (pdat m 0 c).before 2 t d = blockAt m c 2 t :=
  staged2_of m (pdat m 0 c) (pdat_arr m c 2) (left2 m c) t d
theorem found3 (c : Dev nD) (t : Fin cfg0.N) (d) : (pdat m 0 c).before 3 t d = blockAt m c 3 t :=
  staged3_of m (pdat m 0 c) (pdat_arr m c 3) (left3 m c) t d
theorem found4 (c : Dev nD) (t : Fin cfg0.N) (d) : (pdat m 0 c).before 4 t d = blockAt m c 4 t :=
  staged4_of m (pdat m 0 c) (pdat_arr m c 4) (left4 m c) t d
theorem found5 (c : Dev nD) (t : Fin cfg0.N) (d) : (pdat m 0 c).before 5 t d = blockAt m c 5 t :=
  staged5_of m (pdat m 0 c) (pdat_arr m c 5) (left5 m c) t d
theorem found6 (c : Dev nD) (t : Fin cfg0.N) (d) : (pdat m 0 c).before 6 t d = blockAt m c 6 t :=
  staged6_of m (pdat m 0 c) (pdat_arr m c 6) (left6 m c) t d
theorem found7 (c : Dev nD) (t : Fin cfg0.N) (d) : (pdat m 0 c).before 7 t d = blockAt m c 7 t :=
  staged7_of m (pdat m 0 c) (pdat_arr m c 7) (left7 m c) t d
theorem found8 (c : Dev nD) (t : Fin cfg0.N) (d) : (pdat m 0 c).before 8 t d = blockAt m c 8 t :=
  staged8_of m (pdat m 0 c) (pdat_arr m c 8) (left8 m c) t d
theorem found9 (c : Dev nD) (t : Fin cfg0.N) (d) : (pdat m 0 c).before 9 t d = blockAt m c 9 t :=
  staged9_of m (pdat m 0 c) (pdat_arr m c 9) (left9 m c) t d
theorem found10 (c : Dev nD) (t : Fin cfg0.N) (d) : (pdat m 0 c).before 10 t d = blockAt m c 10 t :=
  staged10_of m (pdat m 0 c) (pdat_arr m c 10) (left10 m c) t d
theorem found11 (c : Dev nD) (t : Fin cfg0.N) (d) : (pdat m 0 c).before 11 t d = blockAt m c 11 t :=
  staged11_of m (pdat m 0 c) (pdat_arr m c 11) (left11 m c) t d

/-! ## The body obligation at a grid point -/

def pointPre (c : Dev nD) (t : Fin cfg0.N) : sProp 𝕄 :=
  iprop((pdat m 0 c).Φ t.castSucc ∗ (pdat m 0 c).owesAt () t.castSucc
    ∗ (∃ d, owns (c : Thread nD τ) (st0_0 t) fullShare ((pdat m 0 c).before 0 t d))
    ∗ (∃ d, owns (c : Thread nD τ) (st0_1 t) fullShare ((pdat m 0 c).before 1 t d))
    ∗ (∃ d, owns (c : Thread nD τ) (st0_2 t) fullShare ((pdat m 0 c).before 2 t d))
    ∗ (∃ d, owns (c : Thread nD τ) (st0_3 t) fullShare ((pdat m 0 c).before 3 t d))
    ∗ (∃ d, owns (c : Thread nD τ) (st0_4 t) fullShare ((pdat m 0 c).before 4 t d))
    ∗ (∃ d, owns (c : Thread nD τ) (st0_5 t) fullShare ((pdat m 0 c).before 5 t d))
    ∗ (∃ d, owns (c : Thread nD τ) (st0_6 t) fullShare ((pdat m 0 c).before 6 t d))
    ∗ (∃ d, owns (c : Thread nD τ) (st0_7 t) fullShare ((pdat m 0 c).before 7 t d))
    ∗ (∃ d, owns (c : Thread nD τ) (st0_8 t) fullShare ((pdat m 0 c).before 8 t d))
    ∗ (∃ d, owns (c : Thread nD τ) (st0_9 t) fullShare ((pdat m 0 c).before 9 t d))
    ∗ (∃ d, owns (c : Thread nD τ) (st0_10 t) fullShare ((pdat m 0 c).before 10 t d))
    ∗ (∃ d, owns (c : Thread nD τ) (st0_11 t) fullShare ((pdat m 0 c).before 11 t d))
    ∗ (∃ d, owns (c : Thread nD τ) (st0_12 t) fullShare ((pdat m 0 c).before 12 t d))
    ∗ (∃ d, owns (c : Thread nD τ) (st0_13 t) fullShare ((pdat m 0 c).before 13 t d))
    ∗ (∃ d, owns (c : Thread nD τ) (st0_14 t) fullShare ((pdat m 0 c).before 14 t d)))

def pointPost (c : Dev nD) (t : Fin cfg0.N) : sProp 𝕄 :=
  iprop((pdat m 0 c).Φ t.succ ∗ (pdat m 0 c).owesAt () t.succ
    ∗ owns (c : Thread nD τ) (st0_0 t) fullShare ((pdat m 0 c).after 0 t)
    ∗ owns (c : Thread nD τ) (st0_1 t) fullShare ((pdat m 0 c).after 1 t)
    ∗ owns (c : Thread nD τ) (st0_2 t) fullShare ((pdat m 0 c).after 2 t)
    ∗ owns (c : Thread nD τ) (st0_3 t) fullShare ((pdat m 0 c).after 3 t)
    ∗ owns (c : Thread nD τ) (st0_4 t) fullShare ((pdat m 0 c).after 4 t)
    ∗ owns (c : Thread nD τ) (st0_5 t) fullShare ((pdat m 0 c).after 5 t)
    ∗ owns (c : Thread nD τ) (st0_6 t) fullShare ((pdat m 0 c).after 6 t)
    ∗ owns (c : Thread nD τ) (st0_7 t) fullShare ((pdat m 0 c).after 7 t)
    ∗ owns (c : Thread nD τ) (st0_8 t) fullShare ((pdat m 0 c).after 8 t)
    ∗ owns (c : Thread nD τ) (st0_9 t) fullShare ((pdat m 0 c).after 9 t)
    ∗ owns (c : Thread nD τ) (st0_10 t) fullShare ((pdat m 0 c).after 10 t)
    ∗ owns (c : Thread nD τ) (st0_11 t) fullShare ((pdat m 0 c).after 11 t)
    ∗ owns (c : Thread nD τ) (st0_12 t) fullShare ((pdat m 0 c).after 12 t)
    ∗ owns (c : Thread nD τ) (st0_13 t) fullShare ((pdat m 0 c).after 13 t)
    ∗ owns (c : Thread nD τ) (st0_14 t) fullShare ((pdat m 0 c).after 14 t))

set_option maxHeartbeats 1600000 in
/-- At any point the inputs' buffers hold their blocks, so the body's triple applies; the invariant and what the core
    owes pass through unread. -/
theorem point_runs (c : Dev nD) (t : Fin cfg0.N) :
    pointPre m c t ⊢ wp frame (wpE (defs₀ (F := F)) Variants.none c none) Set.univ (bodyAt0 t) (fun _ => pointPost m c t) := by
  unfold pointPre pointPost bodyAt0
  simp only [found0, found1, found2, found3, found4, found5, found6, found7, found8, found9, found10, found11]
  rw [show (pdat m 0 c).Φ t.succ = (pdat m 0 c).Φ t.castSucc from rfl,
    show (pdat m 0 c).owesAt () t.succ = (pdat m 0 c).owesAt () t.castSucc from rfl,
    left0, left1, left2, left3, left4, left5, left6, left7, left8, left9, left10, left11, left12, left13, left14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (body_runs c Set.univ (grid0.coords t) _ _ _ _ _ _ _ _ _ _ _ _ _ _ _ _ _ _ _ _ _ _ _ _ _ _ _ _ _ _ (blockAt m c 0 t) (blockAt m c 1 t) (blockAt m c 2 t) (blockAt m c 3 t) (blockAt m c 4 t) (blockAt m c 5 t) (blockAt m c 6 t) (blockAt m c 7 t) (blockAt m c 8 t) (blockAt m c 9 t) (blockAt m c 10 t) (blockAt m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem obligation (c : Dev nD) : BodyObligation (pdat (F := F) m 0 c) (defs₀ (F := F)) Variants.none () Set.univ := fun t => by
  rw [bigSep_W0, bigSep_W0]
  exact point_runs m c t

/-! ## The run -/

set_option backward.isDefEq.respectTransparency.types false in
/-- Every weakly fair execution of the program terminates, and ends with every staged array at what the proof data
    computes from the write-backs and every other unscoped buffer as the three reshapes leave it. -/
theorem runs : θ_run defs (onTc (τ := τ) (main (F := F))) (s₀ m ρ) (Pipeline.FramePost cfgs (pdat m) 0 (Pipeline.afterTail₀ cfgs (pdat m) 0 (entry m) [hostOps1])) :=
  Pipeline.θ_run_frame_around cfgs (pdat m) (0 : Fin 1) launch0 defs₀ Variants.none m ρ main
    (hbody := fun c => (obligation m c).loose) (hshare := fun c => (pdat m 0 c).share_full fun _ => rfl)
    (howed := fun _ _ => rfl) (V₀ := entry m) (opss := [hostOps1]) (hsub := after_sub) (hfresh := after_alloc) (hkeep := after_keeps)
    (hmain := main_around m Variants.none) (hA := pdat_arr m) (hΦ := fun _ _ => rfl)

/-- The program runs and leaves its fifteen arguments unchanged. -/
theorem args_unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  args_kept m ρ (pdat m) (pdat_arr m) (runs m ρ)

end Cert.KernelIdeal.Whole

end
-- ==== Proof.Spec.lean ====
/-
  The mathematics of the three results, row by row, on the extended reals.

  One row of hidden states `row : Fin 1024 → EReal` is pushed through three weight blocks. The mixture weights are a
  softmax over the 32 codes of a two-layer perceptron of the row. For the means and log-variances every code `k`
  contributes a code-side vector (the momentum-blended code through the last 128 rows of the weight matrix), which is
  ADDED to the row's projection through the first 1024 rows; the sum is layer-normalised along its 128 entries,
  scaled, shifted, projected and squashed (means), or just clipped (log-variances).

  The layer norm of a sum `a + b` separates: its mean is the sum of the means, its centred part the sum of the
  centred parts, and its variance `var a + var b + (2/128)·⟨a', b'⟩`; and since the normalised vector is
  `s·(a' + b')` with ONE scalar `s`, projecting it is `s·(P + Q)` for the projections of the scaled centred parts.
  `meanRef` is the direct form, `meanKer` the separated one; they agree on finite inputs, where the extended reals
  are a field's worth of real numbers and the distributive law holds.
-/
import Idealize.ShloMosaic.PureOps.Ideal
import Idealize.ShloMosaic.Lib.ValueIdx
import Mathlib.Algebra.BigOperators.Fin

noncomputable section

namespace Cert.Spec

open Idealize.ShloMosaic

/-- An array of the programs read at coordinates. -/
abbrev of1 {n : Nat} (x : (⟨1, ![n]⟩ : Shape).Idx → EReal) (i : Fin n) : EReal := x (ValueIdx.ix1 i)
abbrev of2 {n p : Nat} (x : (⟨2, ![n, p]⟩ : Shape).Idx → EReal) (i : Fin n) (j : Fin p) : EReal := x (ValueIdx.ix2 i j)
abbrev of3 {n p q : Nat} (x : (⟨3, ![n, p, q]⟩ : Shape).Idx → EReal) (i : Fin n) (j : Fin p) (k : Fin q) : EReal :=
  x (ValueIdx.ix3 i j k)

/-- A 32-bit float literal's value. -/
def lit (w : BitVec 32) : EReal := Ideal.ofBits .f32 w

/-- The codes blended with their momentum copy, `0.9·momentum + 0.1·code` at the two literals' exact values. -/
def code (ce mo : Fin 32 → Fin 128 → EReal) (k : Fin 32) (e : Fin 128) : EReal :=
  lit 0x3F666666#32 * mo k e + lit 0x3DCCCCCD#32 * ce k e

/-- The first 1024 rows of a weight matrix of 1152: the rows the hidden states meet. -/
def top (W : Fin 1152 → Fin 128 → EReal) (d : Fin 1024) (f : Fin 128) : EReal := W ⟨d.val, by omega⟩ f
/-- Its last 128 rows: the rows the codes meet. -/
def bot (W : Fin 1152 → Fin 128 → EReal) (e : Fin 128) (f : Fin 128) : EReal := W ⟨1024 + e.val, by omega⟩ f

/-- The row's projection. -/
def rowProj (row : Fin 1024 → EReal) (W : Fin 1152 → Fin 128 → EReal) (f : Fin 128) : EReal :=
  ∑ d : Fin 1024, row d * top W d f
/-- Code `k`'s projection. -/
def codeProj (ce mo : Fin 32 → Fin 128 → EReal) (W : Fin 1152 → Fin 128 → EReal) (k : Fin 32) (f : Fin 128) : EReal :=
  ∑ e : Fin 128, code ce mo k e * bot W e f

/-- Mean, centred part and variance of a vector of 128 entries (the divisor is the literal 128). -/
def mean128 (x : Fin 128 → EReal) : EReal := Ideal.div (∑ c : Fin 128, x c) (lit 0x43000000#32)
def cen (x : Fin 128 → EReal) (c : Fin 128) : EReal := x c - mean128 x
def var128 (x : Fin 128 → EReal) : EReal := Ideal.div (∑ c : Fin 128, cen x c * cen x c) (lit 0x43000000#32)

/-! ## The mixture weights -/

/-- `x · logistic x`. -/
def act (x : EReal) : EReal := x * Ideal.logistic x
/-- The hidden layer before its activation. -/
def hid (row : Fin 1024 → EReal) (M1 : Fin 1024 → Fin 256 → EReal) (mb1 : Fin 256 → EReal) (j : Fin 256) : EReal :=
  (∑ d : Fin 1024, row d * M1 d j) + mb1 j
/-- The 32 logits. -/
def logit (row : Fin 1024 → EReal) (M1 : Fin 1024 → Fin 256 → EReal) (mb1 : Fin 256 → EReal)
    (M2 : Fin 256 → Fin 32 → EReal) (mb2 : Fin 32 → EReal) (k : Fin 32) : EReal :=
  (∑ j : Fin 256, act (hid row M1 mb1 j) * M2 j k) + mb2 k
/-- The largest logit (a maximum started from −∞, then once more against −∞, as both programs take it). -/
def peak (l : Fin 32 → EReal) : EReal :=
  max (lit 0xFF800000#32) ((Finset.univ : Finset (Fin 32)).fold max (lit 0xFF800000#32) l)
/-- The softmax, shifted by the peak. -/
def soft (l : Fin 32 → EReal) (k : Fin 32) : EReal :=
  Ideal.div (Ideal.exp (l k - peak l)) (∑ k' : Fin 32, Ideal.exp (l k' - peak l))
def mix (row : Fin 1024 → EReal) (M1 : Fin 1024 → Fin 256 → EReal) (mb1 : Fin 256 → EReal)
    (M2 : Fin 256 → Fin 32 → EReal) (mb2 : Fin 32 → EReal) (k : Fin 32) : EReal :=
  soft (logit row M1 mb1 M2 mb2) k

/-! ## The means -/

/-- The code-side vector of code `k`, bias included. -/
def codePre (ce mo : Fin 32 → Fin 128 → EReal) (W1 : Fin 1152 → Fin 128 → EReal) (b1 : Fin 128 → EReal) (k : Fin 32)
    (c : Fin 128) : EReal := codeProj ce mo W1 k c + b1 c

/-- What the launch's body computes at one (row, code, output column), from the row's projection `a`, the centred
    code-side vector `bT`, its variance `vb`, the gain `g`, column `wo` of the output matrix, and the two
    code-side projections `q` and `rr` the host prepared. -/
def meanBody (a bT g wo : Fin 128 → EReal) (vb q rr : EReal) : EReal :=
  Ideal.tanh (Ideal.rsqrt (((var128 a + vb) + lit 0x3C800000#32 * ∑ c : Fin 128, cen a c * bT c) + lit 0x3727C5AC#32)
    * ((∑ c : Fin 128, (cen a c * g c) * wo c) + q) + rr)

/-- The separated form, everything from the arguments. -/
def meanKer (row : Fin 1024 → EReal) (ce mo : Fin 32 → Fin 128 → EReal) (W1 : Fin 1152 → Fin 128 → EReal)
    (b1 g lb : Fin 128 → EReal) (W2 : Fin 128 → Fin 128 → EReal) (b2 : Fin 128 → EReal) (k : Fin 32) (f : Fin 128) : EReal :=
  meanBody (rowProj row W1) (cen (codePre ce mo W1 b1 k)) g (fun c => W2 c f) (var128 (codePre ce mo W1 b1 k))
    (∑ c : Fin 128, (cen (codePre ce mo W1 b1 k) c * g c) * W2 c f) ((∑ c : Fin 128, lb c * W2 c f) + b2 f)

/-- The direct form: normalise the summed vector, scale, shift, project, squash. -/
def meanRef (row : Fin 1024 → EReal) (ce mo : Fin 32 → Fin 128 → EReal) (W1 : Fin 1152 → Fin 128 → EReal)
    (b1 g lb : Fin 128 → EReal) (W2 : Fin 128 → Fin 128 → EReal) (b2 : Fin 128 → EReal) (k : Fin 32) (f : Fin 128) : EReal :=
  Ideal.tanh ((∑ c : Fin 128,
      ((cen (fun c => (rowProj row W1 c + codeProj ce mo W1 k c) + b1 c) c
          * Ideal.rsqrt (var128 (fun c => (rowProj row W1 c + codeProj ce mo W1 k c) + b1 c) + lit 0x3727C5AC#32)) * g c + lb c)
        * W2 c f) + b2 f)

/-! ## The log-variances -/

/-- Clip to `[log 0.1, log 2]` at the two literals' exact values. -/
def clipLv (x : EReal) : EReal := min (lit 0x3F317218#32) (max (lit 0xC0135D8E#32) x)
def logvar (row : Fin 1024 → EReal) (ce mo : Fin 32 → Fin 128 → EReal) (Wv : Fin 1152 → Fin 128 → EReal)
    (bv : Fin 128 → EReal) (k : Fin 32) (f : Fin 128) : EReal :=
  clipLv ((rowProj row Wv f + codeProj ce mo Wv k f) + bv f)

/-- Every entry a real number. -/
def Real1 {n : Nat} (x : Fin n → EReal) : Prop := ∀ i, ∃ r : ℝ, x i = (r : EReal)
def Real2 {n p : Nat} (x : Fin n → Fin p → EReal) : Prop := ∀ i j, ∃ r : ℝ, x i j = (r : EReal)

end Cert.Spec

end
-- ==== Proof.Consts.lean ====
/-
  The float literals the two programs spell, as the extended reals their bit patterns denote. Stated once, here, so
  that no other module unfolds the decoding of a pattern.
-/
import proofs.«410282_j21792664060394_3_alg».proof.Proof.Spec

noncomputable section

namespace Cert.Consts

open Idealize.ShloMosaic Cert.Spec

theorem lit_zero : lit 0x00000000#32 = 0 := by
  simp [lit, Ideal.ofBits, Ideal.ieee]
theorem lit_one : lit 0x3F800000#32 = 1 := by
  simp [lit, Ideal.ofBits, Ideal.ieee, -EReal.coe_mul]; norm_num
/-- The width of the normalised axis. -/
theorem lit_128 : lit 0x43000000#32 = ((128 : ℝ) : EReal) := by
  simp [lit, Ideal.ofBits, Ideal.ieee, -EReal.coe_mul]; norm_num
/-- Twice its reciprocal, the factor of the cross term of a variance of a sum. -/
theorem lit_64th : lit 0x3C800000#32 = (((1 : ℝ) / 64 : ℝ) : EReal) := by
  simp [lit, Ideal.ofBits, Ideal.ieee, -EReal.coe_mul]; norm_num
theorem lit_three : lit 0x40400000#32 = ((3 : ℝ) : EReal) := by
  simp [lit, Ideal.ofBits, Ideal.ieee, -EReal.coe_mul]; norm_num
theorem lit_negThree : lit 0xC0400000#32 = ((-3 : ℝ) : EReal) := by
  simp [lit, Ideal.ofBits, Ideal.ieee, -EReal.coe_mul]; norm_num
theorem lit_negInf : lit 0xFF800000#32 = ⊥ := by
  simp [lit, Ideal.ofBits, Ideal.ieee]
/-- The normalisation's epsilon: a positive real. -/
theorem lit_eps : ∃ e : ℝ, 0 < e ∧ lit 0x3727C5AC#32 = (e : EReal) := by
  refine ⟨(2 ^ 23 + 2606508 : ℕ) * (2 : ℝ) ^ ((110 : ℤ) - 127 - 23), by positivity, ?_⟩
  simp [lit, Ideal.ofBits, Ideal.ieee, -EReal.coe_mul]
/-- The two blending weights: real numbers. -/
theorem lit_momentum : ∃ e : ℝ, lit 0x3F666666#32 = (e : EReal) := by
  refine ⟨(2 ^ 23 + 6710886 : ℕ) * (2 : ℝ) ^ ((126 : ℤ) - 127 - 23), ?_⟩
  simp [lit, Ideal.ofBits, Ideal.ieee, -EReal.coe_mul]
theorem lit_blend : ∃ e : ℝ, lit 0x3DCCCCCD#32 = (e : EReal) := by
  refine ⟨(2 ^ 23 + 5033165 : ℕ) * (2 : ℝ) ^ ((123 : ℤ) - 127 - 23), ?_⟩
  simp [lit, Ideal.ofBits, Ideal.ieee, -EReal.coe_mul]

end Cert.Consts

end
-- ==== Proof.KPayMix.lean ====
/-
  The mixture weights one grid point's body stores, read at one (row, code) entry.
-/
import proofs.«410282_j21792664060394_3_alg».proof.Proof.Gen.KernelIdeal.Skeleton
import proofs.«410282_j21792664060394_3_alg».proof.Proof.Spec
import proofs.«410282_j21792664060394_3_alg».proof.Proof.Consts
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Pay

open Idealize.ShloMosaic Idealize.ShloMosaic.ValueIdx Cert.KernelIdeal Cert.KernelIdeal.Gen Cert.Spec

/-! ## The layout operations of the branch, read at coordinates -/

/-- The last column band (columns 256 … 511) of a 128 × 512 array. -/
private theorem band_at (x : FVec Ideal S128x512 .f32) (r : Fin 128) (j : Fin 256) :
    extractStridedSlice S128x256 ![0, 256] x slices_S128x512_o0_256_S128x256 (ix2 r j)
      = x (ix2 r ⟨256 + j.val, by omega⟩) :=
  extractStridedSlice_apply ![0, 256] x slices_S128x512_o0_256_S128x256 (ix2 r j) (ix2 r ⟨256 + j.val, by omega⟩)
    (fun a => match a with
      | ⟨0, _⟩ => by show r.val = 0 + r.val; omega
      | ⟨1, _⟩ => by show 256 + j.val = 256 + j.val; rfl)

/-- A vector of 256 laid as one row and repeated down 128 rows reads its entry at the column. -/
private theorem rowBias256_at (v : FVec Ideal S256 .f32) (r : Fin 128) (j : Fin 256) :
    broadcastTo S128x256 (shapeCast S1x256 v shapeCasts_S256_S1x256) broadcasts_S1x256_S128x256 (ix2 r j) = v (ix1 j) :=
  (broadcastTo_1b_ab_apply _ broadcasts_S1x256_S128x256 r j).trans (shapeCast_a_1a_apply v shapeCasts_S256_S1x256 0 j)

/-- The same for a vector of 32. -/
private theorem rowBias32_at (v : FVec Ideal S32 .f32) (r : Fin 128) (k : Fin 32) :
    broadcastTo S128x32 (shapeCast S1x32 v shapeCasts_S32_S1x32) broadcasts_S1x32_S128x32 (ix2 r k) = v (ix1 k) :=
  (broadcastTo_1b_ab_apply _ broadcasts_S1x32_S128x32 r k).trans (shapeCast_a_1a_apply v shapeCasts_S32_S1x32 0 k)

/-- A vector of 128 laid as one column and repeated along 32 columns reads its entry at the row. -/
private theorem col_at (v : FVec Ideal S128 .f32) (r : Fin 128) (k : Fin 32) :
    broadcastTo S128x32 (shapeCast S128x1 v shapeCasts_S128_S128x1) broadcasts_S128x1_S128x32 (ix2 r k) = v (ix1 r) := by
  refine (broadcastTo_apply _ broadcasts_S128x1_S128x32 (ix2 r k) (ix2 r (0 : Fin 1)) fun a => ?_).trans ?_
  · match a with
    | ⟨0, _⟩ => rfl
    | ⟨1, _⟩ => rfl
  · exact shapeCast_apply v shapeCasts_S128_S128x1 _ _ (by
      rw [Shape.rowMajor_val_one, Shape.rowMajor_val_two]
      show r.val = r.val * 1 + 0
      omega)

/-! ## The two products, read at coordinates -/

private theorem lhsA_0 (i : S128x512.Idx) (q : dot_S128x1024_S1024x512_S128x512_1_0_0_1_n_n.contr.Idx) :
    (dot_S128x1024_S1024x512_S128x512_1_0_0_1_n_n.lhsIdx i q 0).val = (i 0).val := by
  unfold DotDims.lhsIdx
  rw [dif_neg (show ¬(0 : Fin S128x1024.rank) ∈ dot_S128x1024_S1024x512_S128x512_1_0_0_1_n_n.lhsBatch by decide), dif_pos (show (0 : Fin S128x1024.rank) ∈ dot_S128x1024_S1024x512_S128x512_1_0_0_1_n_n.lhsNonContracting by decide)]
  rfl
private theorem lhsA_1 (i : S128x512.Idx) (q : dot_S128x1024_S1024x512_S128x512_1_0_0_1_n_n.contr.Idx) :
    (dot_S128x1024_S1024x512_S128x512_1_0_0_1_n_n.lhsIdx i q 1).val = (q ⟨0, by decide⟩).val :=
  dot_S128x1024_S1024x512_S128x512_1_0_0_1_n_n.lhsIdx_val_of_single rfl i q
private theorem rhsA_0 (i : S128x512.Idx) (q : dot_S128x1024_S1024x512_S128x512_1_0_0_1_n_n.contr.Idx) :
    (dot_S128x1024_S1024x512_S128x512_1_0_0_1_n_n.rhsIdx i q 0).val = (q ⟨0, by decide⟩).val :=
  dot_S128x1024_S1024x512_S128x512_1_0_0_1_n_n.rhsIdx_val_of_single rfl i q
private theorem rhsA_1 (i : S128x512.Idx) (q : dot_S128x1024_S1024x512_S128x512_1_0_0_1_n_n.contr.Idx) :
    (dot_S128x1024_S1024x512_S128x512_1_0_0_1_n_n.rhsIdx i q 1).val = (i 1).val := by
  unfold DotDims.rhsIdx
  rw [dif_neg (show ¬(1 : Fin S1024x512.rank) ∈ dot_S128x1024_S1024x512_S128x512_1_0_0_1_n_n.rhsBatch by decide), dif_pos (show (1 : Fin S1024x512.rank) ∈ dot_S128x1024_S1024x512_S128x512_1_0_0_1_n_n.rhsNonContracting by decide)]
  rfl

/-- The 128 × 1024 by 1024 × 512 product into a zero accumulator: the sum over the 1024 contracted coordinates. -/
private theorem mmA_at (a : FVec Ideal S128x1024 .bf16) (b : FVec Ideal S1024x512 .bf16) (r : Fin 128) (c : Fin 512) :
    matmul dot_S128x1024_S1024x512_S128x512_1_0_0_1_n_n none a b (constant (F := Ideal) S128x512 .f32 0x00000000#32) (ix2 r c)
      = ∑ d : Fin 1024, a (ix2 r d) * b (ix2 d c) := by
  refine (Ideal.matmul_constant_zero_apply dot_S128x1024_S1024x512_S128x512_1_0_0_1_n_n none a b (ix2 r c)).trans ?_
  rw [← Equiv.sum_comp (contrEquiv1 dot_S128x1024_S1024x512_S128x512_1_0_0_1_n_n 1024 rfl rfl).symm]
  refine Finset.sum_congr rfl fun d _ => ?_
  have hd := contrEquiv1_symm_val dot_S128x1024_S1024x512_S128x512_1_0_0_1_n_n 1024 rfl rfl d
  have el : dot_S128x1024_S1024x512_S128x512_1_0_0_1_n_n.lhsIdx (ix2 r c) ((contrEquiv1 dot_S128x1024_S1024x512_S128x512_1_0_0_1_n_n 1024 rfl rfl).symm d) = ix2 r d := funext fun ax => Fin.ext (by
    match ax with
    | ⟨0, _⟩ => exact lhsA_0 _ _
    | ⟨1, _⟩ => exact (lhsA_1 _ _).trans hd)
  have er : dot_S128x1024_S1024x512_S128x512_1_0_0_1_n_n.rhsIdx (ix2 r c) ((contrEquiv1 dot_S128x1024_S1024x512_S128x512_1_0_0_1_n_n 1024 rfl rfl).symm d) = ix2 d c := funext fun ax => Fin.ext (by
    match ax with
    | ⟨0, _⟩ => exact (rhsA_0 _ _).trans hd
    | ⟨1, _⟩ => exact rhsA_1 _ _)
  rw [el, er]

private theorem lhsB_0 (i : S128x32.Idx) (q : dot_S128x256_S256x32_S128x32_1_0_0_1_n_n.contr.Idx) :
    (dot_S128x256_S256x32_S128x32_1_0_0_1_n_n.lhsIdx i q 0).val = (i 0).val := by
  unfold DotDims.lhsIdx
  rw [dif_neg (show ¬(0 : Fin S128x256.rank) ∈ dot_S128x256_S256x32_S128x32_1_0_0_1_n_n.lhsBatch by decide), dif_pos (show (0 : Fin S128x256.rank) ∈ dot_S128x256_S256x32_S128x32_1_0_0_1_n_n.lhsNonContracting by decide)]
  rfl
private theorem lhsB_1 (i : S128x32.Idx) (q : dot_S128x256_S256x32_S128x32_1_0_0_1_n_n.contr.Idx) :
    (dot_S128x256_S256x32_S128x32_1_0_0_1_n_n.lhsIdx i q 1).val = (q ⟨0, by decide⟩).val :=
  dot_S128x256_S256x32_S128x32_1_0_0_1_n_n.lhsIdx_val_of_single rfl i q
private theorem rhsB_0 (i : S128x32.Idx) (q : dot_S128x256_S256x32_S128x32_1_0_0_1_n_n.contr.Idx) :
    (dot_S128x256_S256x32_S128x32_1_0_0_1_n_n.rhsIdx i q 0).val = (q ⟨0, by decide⟩).val :=
  dot_S128x256_S256x32_S128x32_1_0_0_1_n_n.rhsIdx_val_of_single rfl i q
private theorem rhsB_1 (i : S128x32.Idx) (q : dot_S128x256_S256x32_S128x32_1_0_0_1_n_n.contr.Idx) :
    (dot_S128x256_S256x32_S128x32_1_0_0_1_n_n.rhsIdx i q 1).val = (i 1).val := by
  unfold DotDims.rhsIdx
  rw [dif_neg (show ¬(1 : Fin S256x32.rank) ∈ dot_S128x256_S256x32_S128x32_1_0_0_1_n_n.rhsBatch by decide), dif_pos (show (1 : Fin S256x32.rank) ∈ dot_S128x256_S256x32_S128x32_1_0_0_1_n_n.rhsNonContracting by decide)]
  rfl

/-- The 128 × 256 by 256 × 32 product into a zero accumulator: the sum over the 256 contracted coordinates. -/
private theorem mmB_at (a : FVec Ideal S128x256 .bf16) (b : FVec Ideal S256x32 .bf16) (r : Fin 128) (c : Fin 32) :
    matmul dot_S128x256_S256x32_S128x32_1_0_0_1_n_n none a b (constant (F := Ideal) S128x32 .f32 0x00000000#32) (ix2 r c)
      = ∑ d : Fin 256, a (ix2 r d) * b (ix2 d c) := by
  refine (Ideal.matmul_constant_zero_apply dot_S128x256_S256x32_S128x32_1_0_0_1_n_n none a b (ix2 r c)).trans ?_
  rw [← Equiv.sum_comp (contrEquiv1 dot_S128x256_S256x32_S128x32_1_0_0_1_n_n 256 rfl rfl).symm]
  refine Finset.sum_congr rfl fun d _ => ?_
  have hd := contrEquiv1_symm_val dot_S128x256_S256x32_S128x32_1_0_0_1_n_n 256 rfl rfl d
  have el : dot_S128x256_S256x32_S128x32_1_0_0_1_n_n.lhsIdx (ix2 r c) ((contrEquiv1 dot_S128x256_S256x32_S128x32_1_0_0_1_n_n 256 rfl rfl).symm d) = ix2 r d := funext fun ax => Fin.ext (by
    match ax with
    | ⟨0, _⟩ => exact lhsB_0 _ _
    | ⟨1, _⟩ => exact (lhsB_1 _ _).trans hd)
  have er : dot_S128x256_S256x32_S128x32_1_0_0_1_n_n.rhsIdx (ix2 r c) ((contrEquiv1 dot_S128x256_S256x32_S128x32_1_0_0_1_n_n 256 rfl rfl).symm d) = ix2 d c := funext fun ax => Fin.ext (by
    match ax with
    | ⟨0, _⟩ => exact (rhsB_0 _ _).trans hd
    | ⟨1, _⟩ => exact rhsB_1 _ _)
  rw [el, er]

/-! ## The two reductions along the codes, read at a row -/

/-- The source index over row `r` with code `k` inserted is `(r, k)`. -/
private theorem lift_row (r : Fin 128) (k : Fin 32) : reduces_S128x32_S128.lift (ix1 r) k = ix2 r k :=
  funext fun a => Fin.ext (by match a with | ⟨0, _⟩ => rfl | ⟨1, _⟩ => rfl)

/-- The maximum along the codes started from the literal −∞. -/
private theorem rowMax_at (x : FVec Ideal S128x32 .f32) (r : Fin 128) :
    multiReduction (F := Ideal) .maximumf [1] S128 x 0xFF800000#32 reduces_S128x32_S128 (.inl rfl) rfl (ix1 r)
      = (Finset.univ : Finset (Fin 32)).fold max (lit 0xFF800000#32) (fun k => x (ix2 r k)) := by
  refine (Ideal.multiReduction_maximumf_single x _ reduces_S128x32_S128 _ _ (ix1 r)).trans ?_
  have e : (x ∘ reduces_S128x32_S128.lift (ix1 r)) = fun k : Fin 32 => x (ix2 r k) :=
    funext fun k => congrArg x (lift_row r k)
  rw [e]
  rfl

/-- The sum along the codes. -/
private theorem rowSum_at (x : FVec Ideal S128x32 .f32) (r : Fin 128) :
    multiReduction (F := Ideal) .add [1] S128 x 0x00000000#32 reduces_S128x32_S128 (.inl rfl) rfl (ix1 r)
      = ∑ k : Fin 32, x (ix2 r k) := by
  refine (Ideal.multiReduction_add_single x _ reduces_S128x32_S128 _ _ (ix1 r)).trans ?_
  exact Finset.sum_congr rfl fun k _ => congrArg x (lift_row r k)

/-! ## The stages of the branch -/

/-- The product of the rows with the joined weight matrix (a change of float format is the identity here). -/
private theorem pay2_at (rows : Vec Ideal S128x1024 .f32) (joined : Vec Ideal S1024x512 .bf16) (r : Fin 128) (c : Fin 512) :
    k0_pay2 rows joined (ix2 r c) = ∑ d : Fin 1024, rows (ix2 r d) * joined (ix2 d c) := by
  unfold k0_pay2
  show matmul dot_S128x1024_S1024x512_S128x512_1_0_0_1_n_n none
      (truncf .bf16 (shapeCast S128x1024 rows shapeCasts_S128x1024_S128x1024) bitsLt_bf16_f32)
      (shapeCast S1024x512 joined shapeCasts_S1024x512_S1024x512) (constant (F := Ideal) S128x512 .f32 0x00000000#32) (ix2 r c) = _
  refine (mmA_at _ _ r c).trans (Finset.sum_congr rfl fun d _ => ?_)
  show shapeCast S128x1024 rows shapeCasts_S128x1024_S128x1024 (ix2 r d)
      * shapeCast S1024x512 joined shapeCasts_S1024x512_S1024x512 (ix2 d c) = _
  rw [shapeCast_self, shapeCast_self]

/-- The hidden layer before its activation, as the body forms it: the last column band of the product, plus the bias row. -/
private def hidV (rows : Vec Ideal S128x1024 .f32) (joined : Vec Ideal S1024x512 .bf16) (hb : Vec Ideal S256 .f32) :
    FVec Ideal S128x256 .f32 :=
  addf (extractStridedSlice S128x256 ![0, 256] (k0_pay2 rows joined) slices_S128x512_o0_256_S128x256)
    (broadcastTo S128x256 (shapeCast S1x256 hb shapeCasts_S256_S1x256) broadcasts_S1x256_S128x256)

/-- The logits from the hidden layer: activation, second product, bias row. -/
private def logitV (h : FVec Ideal S128x256 .f32) (w2 : Vec Ideal S256x32 .bf16) (ob : Vec Ideal S32 .f32) :
    FVec Ideal S128x32 .f32 :=
  addf (matmul dot_S128x256_S256x32_S128x32_1_0_0_1_n_n none (truncf .bf16 (mulf h (logistic h)) bitsLt_bf16_f32)
      (shapeCast S256x32 w2 shapeCasts_S256x32_S256x32 : FVec Ideal S256x32 .bf16) (constant (F := Ideal) S128x32 .f32 0x00000000#32))
    (broadcastTo S128x32 (shapeCast S1x32 ob shapeCasts_S32_S1x32) broadcasts_S1x32_S128x32)

/-- Each row's largest logit: the maximum along the codes from −∞, then once more against −∞. -/
private def peakV (l : FVec Ideal S128x32 .f32) : FVec Ideal S128 .f32 :=
  maximumf (broadcast S128 (Scalar.ofBits (F := Ideal) .f32 0xFF800000#32))
    (multiReduction (F := Ideal) .maximumf [1] S128 l 0xFF800000#32 reduces_S128x32_S128 (.inl rfl) rfl)

/-- The exponentials of the logits shifted by their row's peak. -/
private def expV (l : FVec Ideal S128x32 .f32) : FVec Ideal S128x32 .f32 :=
  exp (subf l (broadcastTo S128x32 (shapeCast S128x1 (peakV l) shapeCasts_S128_S128x1) broadcasts_S128x1_S128x32))

/-- Those exponentials over their row's sum. -/
private def softV (l : FVec Ideal S128x32 .f32) : FVec Ideal S128x32 .f32 :=
  divf (expV l) (broadcastTo S128x32 (shapeCast S128x1
    (multiReduction (F := Ideal) .add [1] S128 (expV l) 0x00000000#32 reduces_S128x32_S128 (.inl rfl) rfl)
    shapeCasts_S128_S128x1) broadcasts_S128x1_S128x32)

/-- The payload is these stages composed. -/
private theorem pay4_eq (rows : Vec Ideal S128x1024 .f32) (joined : Vec Ideal S1024x512 .bf16) (hb : Vec Ideal S256 .f32)
    (w2 : Vec Ideal S256x32 .bf16) (ob : Vec Ideal S32 .f32) :
    k0_pay4 rows joined hb w2 ob = softV (logitV (hidV rows joined hb) w2 ob) := rfl

private theorem hidV_at (rows : Vec Ideal S128x1024 .f32) (joined : Vec Ideal S1024x512 .bf16) (hb : Vec Ideal S256 .f32)
    (r : Fin 128) (j : Fin 256) :
    hidV rows joined hb (ix2 r j)
      = hid (fun d => rows (ix2 r d)) (fun d j => joined (ix2 d ⟨256 + j.val, by omega⟩)) (fun j => hb (ix1 j)) j := by
  unfold hidV
  show extractStridedSlice S128x256 ![0, 256] (k0_pay2 rows joined) slices_S128x512_o0_256_S128x256 (ix2 r j)
      + broadcastTo S128x256 (shapeCast S1x256 hb shapeCasts_S256_S1x256) broadcasts_S1x256_S128x256 (ix2 r j) = _
  rw [band_at, rowBias256_at, pay2_at]
  rfl

private theorem logitV_at (h : FVec Ideal S128x256 .f32) (w2 : Vec Ideal S256x32 .bf16) (ob : Vec Ideal S32 .f32)
    (r : Fin 128) (H : Fin 256 → EReal) (hH : ∀ j, h (ix2 r j) = H j) (k : Fin 32) :
    logitV h w2 ob (ix2 r k) = (∑ j : Fin 256, act (H j) * w2 (ix2 j k)) + ob (ix1 k) := by
  unfold logitV
  show matmul dot_S128x256_S256x32_S128x32_1_0_0_1_n_n none (truncf .bf16 (mulf h (logistic h)) bitsLt_bf16_f32)
        (shapeCast S256x32 w2 shapeCasts_S256x32_S256x32 : FVec Ideal S256x32 .bf16) (constant (F := Ideal) S128x32 .f32 0x00000000#32) (ix2 r k)
      + broadcastTo S128x32 (shapeCast S1x32 ob shapeCasts_S32_S1x32) broadcasts_S1x32_S128x32 (ix2 r k) = _
  rw [mmB_at, rowBias32_at]
  refine congrArg (· + ob (ix1 k)) (Finset.sum_congr rfl fun j _ => ?_)
  show (h (ix2 r j) * Ideal.logistic (h (ix2 r j))) * shapeCast S256x32 w2 shapeCasts_S256x32_S256x32 (ix2 j k) = _
  rw [shapeCast_self, hH j]
  rfl

private theorem peakV_at (l : FVec Ideal S128x32 .f32) (r : Fin 128) :
    peakV l (ix1 r) = peak (fun k => l (ix2 r k)) := by
  unfold peakV peak
  show max (Ideal.ofBits .f32 0xFF800000#32)
      (multiReduction (F := Ideal) .maximumf [1] S128 l 0xFF800000#32 reduces_S128x32_S128 (.inl rfl) rfl (ix1 r)) = _
  rw [rowMax_at]
  rfl

private theorem expV_at (l : FVec Ideal S128x32 .f32) (r : Fin 128) (k : Fin 32) :
    expV l (ix2 r k) = Ideal.exp (l (ix2 r k) - peak (fun k => l (ix2 r k))) := by
  unfold expV
  show Ideal.exp (l (ix2 r k)
      - broadcastTo S128x32 (shapeCast S128x1 (peakV l) shapeCasts_S128_S128x1) broadcasts_S128x1_S128x32 (ix2 r k)) = _
  rw [col_at, peakV_at]

private theorem softV_at (l : FVec Ideal S128x32 .f32) (r : Fin 128) (k : Fin 32) :
    softV l (ix2 r k) = soft (fun k => l (ix2 r k)) k := by
  unfold softV soft
  show Ideal.div (expV l (ix2 r k)) (broadcastTo S128x32 (shapeCast S128x1
      (multiReduction (F := Ideal) .add [1] S128 (expV l) 0x00000000#32 reduces_S128x32_S128 (.inl rfl) rfl)
      shapeCasts_S128_S128x1) broadcasts_S128x1_S128x32 (ix2 r k)) = _
  rw [col_at, rowSum_at, expV_at]
  exact congrArg (Ideal.div _) (Finset.sum_congr rfl fun k' _ => expV_at l r k')

/-- Entry (r, k) of the stored mixture block: the softmax over the codes of the row's two-layer perceptron, whose first
    layer is the LAST column band (columns 256 … 511) of the joined weight matrix. -/
theorem mix_at (rows : Vec Ideal S128x1024 .f32) (joined : Vec Ideal S1024x512 .bf16) (hb : Vec Ideal S256 .f32)
    (w2 : Vec Ideal S256x32 .bf16) (ob : Vec Ideal S32 .f32) (r : Fin 128) (k : Fin 32) :
    k0_pay4 rows joined hb w2 ob (ix2 r k)
      = Spec.mix (fun d => rows (ix2 r d)) (fun d j => joined (ix2 d ⟨256 + j.val, by omega⟩)) (fun j => hb (ix1 j))
          (fun j k => w2 (ix2 j k)) (fun k => ob (ix1 k)) k := by
  rw [pay4_eq, softV_at]
  unfold mix
  refine congrArg (fun l => soft l k) (funext fun k' => ?_)
  exact logitV_at (hidV rows joined hb) w2 ob r _ (fun j => hidV_at rows joined hb r j) k'

end Cert.KernelIdeal.Pay

end
-- ==== Proof.KPayMean.lean ====
/-
  The means one grid point's body stores, read at one (row, code, column) entry.
-/
import proofs.«410282_j21792664060394_3_alg».proof.Proof.Gen.KernelIdeal.Skeleton
import proofs.«410282_j21792664060394_3_alg».proof.Proof.Spec
import proofs.«410282_j21792664060394_3_alg».proof.Proof.Consts
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Pay

open Idealize.ShloMosaic Idealize.ShloMosaic.ValueIdx Cert.KernelIdeal Cert.KernelIdeal.Gen Cert.Spec

/-! ## Unit axes added by a shape cast, and unit axes broadcast -/

section Layout
variable {α : Type}

/-- An `[a]` array cast to a column `[a, 1]` reads, at `(i, u)`, the operand at `i`. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a]` array cast to `[1, 1, a]` reads, at `(u, w, i)`, the operand at `i`. -/
private theorem shapeCast_a_11a_apply {a : ℕ} (x : (⟨1, ![a]⟩ : Shape).Idx → α) (h : (⟨1, ![a]⟩ : Shape).ShapeCasts ⟨3, ![1, 1, a]⟩)
    (u w : Fin 1) (i : Fin a) : shapeCast ⟨3, ![1, 1, a]⟩ x h (ix3 u w i) = x (ix1 i) :=
  shapeCast_apply x h _ _ (by
    have hu : u.val = 0 := by omega
    have hw : w.val = 0 := by omega
    rw [Shape.rowMajor_val_three, Shape.rowMajor_val_one]
    show i.val = (u.val * 1 + w.val) * a + i.val
    simp only [hu, hw, Nat.zero_mul, Nat.zero_add])

/-- An `[a, b]` array cast to `[a, 1, b]` reads, at `(i, u, j)`, the operand at `(i, j)`. -/
private theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b]` array cast to `[a, b, 1]` reads, at `(i, j, u)`, the operand at `(i, j)`. -/
private theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A column `[a, 1]` broadcast to `[a, b]` reads, at `(p, c)`, the column at `p`. -/
private theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1, c]` array broadcast to `[a, b, c]` reads, at `(p, q, r)`, the operand at `(p, 0, r)`. -/
private theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- A `[1, b, c]` array broadcast to `[a, b, c]` reads, at `(p, q, r)`, the operand at `(0, q, r)`. -/
private theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- An `[a, b, 1]` array broadcast to `[a, b, c]` reads, at `(p, q, r)`, the operand at `(p, q, 0)`. -/
private theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A `[1, 1, c]` array broadcast to `[a, b, c]` reads, at `(p, q, r)`, the operand at `(0, 0, r)`. -/
private theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ v h (ix3 p q r) = v (ix3 (0 : Fin 1) (0 : Fin 1) r) := by
  refine broadcastTo_apply v h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

end Layout

/-! ## The three matrix products, read at an entry -/

private theorem lhsProj_0 (i : S128x512.Idx) (q : dot_S128x1024_S1024x512_S128x512_1_0_0_1_n_n.contr.Idx) :
    (dot_S128x1024_S1024x512_S128x512_1_0_0_1_n_n.lhsIdx i q 0).val = (i 0).val := by
  unfold DotDims.lhsIdx
  rw [dif_neg (show ¬(0 : Fin S128x1024.rank) ∈ dot_S128x1024_S1024x512_S128x512_1_0_0_1_n_n.lhsBatch by decide), dif_pos (show (0 : Fin S128x1024.rank) ∈ dot_S128x1024_S1024x512_S128x512_1_0_0_1_n_n.lhsNonContracting by decide)]
  rfl
private theorem lhsProj_1 (i : S128x512.Idx) (q : dot_S128x1024_S1024x512_S128x512_1_0_0_1_n_n.contr.Idx) :
    (dot_S128x1024_S1024x512_S128x512_1_0_0_1_n_n.lhsIdx i q 1).val = (q ⟨0, by decide⟩).val :=
  dot_S128x1024_S1024x512_S128x512_1_0_0_1_n_n.lhsIdx_val_of_single rfl i q
private theorem rhsProj_0 (i : S128x512.Idx) (q : dot_S128x1024_S1024x512_S128x512_1_0_0_1_n_n.contr.Idx) :
    (dot_S128x1024_S1024x512_S128x512_1_0_0_1_n_n.rhsIdx i q 0).val = (q ⟨0, by decide⟩).val :=
  dot_S128x1024_S1024x512_S128x512_1_0_0_1_n_n.rhsIdx_val_of_single rfl i q
private theorem rhsProj_1 (i : S128x512.Idx) (q : dot_S128x1024_S1024x512_S128x512_1_0_0_1_n_n.contr.Idx) :
    (dot_S128x1024_S1024x512_S128x512_1_0_0_1_n_n.rhsIdx i q 1).val = (i 1).val := by
  unfold DotDims.rhsIdx
  rw [dif_neg (show ¬(1 : Fin S1024x512.rank) ∈ dot_S128x1024_S1024x512_S128x512_1_0_0_1_n_n.rhsBatch by decide), dif_pos (show (1 : Fin S1024x512.rank) ∈ dot_S128x1024_S1024x512_S128x512_1_0_0_1_n_n.rhsNonContracting by decide)]
  rfl
/-- The product of a `128 × 1024` by a `1024 × 512` matrix into the zero accumulator, read at `(r, c)`: the sum over the
    shared axis. -/
private theorem matmulProj_apply {φ₁ φ₂ : FTy} (x : FVec Ideal S128x1024 φ₁) (y : FVec Ideal S1024x512 φ₂) (r : Fin 128) (c : Fin 512) :
    matmul dot_S128x1024_S1024x512_S128x512_1_0_0_1_n_n none x y (constant (F := Ideal) S128x512 .f32 0x00000000#32) (ix2 r c)
      = ∑ d : Fin 1024, x (ix2 r d) * y (ix2 d c) := by
  show FloatOps.matmul dot_S128x1024_S1024x512_S128x512_1_0_0_1_n_n none x y (constant (F := Ideal) S128x512 .f32 0x00000000#32) (ix2 r c) = _
  rw [Ideal.matmul_constant_zero_apply, ← Equiv.sum_comp (contrEquiv1 dot_S128x1024_S1024x512_S128x512_1_0_0_1_n_n 1024 rfl rfl).symm]
  refine Finset.sum_congr rfl fun d _ => ?_
  have hd := contrEquiv1_symm_val dot_S128x1024_S1024x512_S128x512_1_0_0_1_n_n 1024 rfl rfl d
  have el : dot_S128x1024_S1024x512_S128x512_1_0_0_1_n_n.lhsIdx (ix2 r c) ((contrEquiv1 dot_S128x1024_S1024x512_S128x512_1_0_0_1_n_n 1024 rfl rfl).symm d) = ix2 r d := funext fun a => Fin.ext (by
    match a with
    | ⟨0, _⟩ => exact lhsProj_0 _ _
    | ⟨1, _⟩ => exact (lhsProj_1 _ _).trans hd)
  have er : dot_S128x1024_S1024x512_S128x512_1_0_0_1_n_n.rhsIdx (ix2 r c) ((contrEquiv1 dot_S128x1024_S1024x512_S128x512_1_0_0_1_n_n 1024 rfl rfl).symm d) = ix2 d c := funext fun a => Fin.ext (by
    match a with
    | ⟨0, _⟩ => exact (rhsProj_0 _ _).trans hd
    | ⟨1, _⟩ => exact rhsProj_1 _ _)
  rw [el, er]

private theorem lhsCov_0 (i : S128x32.Idx) (q : dot_S128x128_S128x32_S128x32_1_0_0_1_n_n.contr.Idx) :
    (dot_S128x128_S128x32_S128x32_1_0_0_1_n_n.lhsIdx i q 0).val = (i 0).val := by
  unfold DotDims.lhsIdx
  rw [dif_neg (show ¬(0 : Fin S128x128.rank) ∈ dot_S128x128_S128x32_S128x32_1_0_0_1_n_n.lhsBatch by decide), dif_pos (show (0 : Fin S128x128.rank) ∈ dot_S128x128_S128x32_S128x32_1_0_0_1_n_n.lhsNonContracting by decide)]
  rfl
private theorem lhsCov_1 (i : S128x32.Idx) (q : dot_S128x128_S128x32_S128x32_1_0_0_1_n_n.contr.Idx) :
    (dot_S128x128_S128x32_S128x32_1_0_0_1_n_n.lhsIdx i q 1).val = (q ⟨0, by decide⟩).val :=
  dot_S128x128_S128x32_S128x32_1_0_0_1_n_n.lhsIdx_val_of_single rfl i q
private theorem rhsCov_0 (i : S128x32.Idx) (q : dot_S128x128_S128x32_S128x32_1_0_0_1_n_n.contr.Idx) :
    (dot_S128x128_S128x32_S128x32_1_0_0_1_n_n.rhsIdx i q 0).val = (q ⟨0, by decide⟩).val :=
  dot_S128x128_S128x32_S128x32_1_0_0_1_n_n.rhsIdx_val_of_single rfl i q
private theorem rhsCov_1 (i : S128x32.Idx) (q : dot_S128x128_S128x32_S128x32_1_0_0_1_n_n.contr.Idx) :
    (dot_S128x128_S128x32_S128x32_1_0_0_1_n_n.rhsIdx i q 1).val = (i 1).val := by
  unfold DotDims.rhsIdx
  rw [dif_neg (show ¬(1 : Fin S128x32.rank) ∈ dot_S128x128_S128x32_S128x32_1_0_0_1_n_n.rhsBatch by decide), dif_pos (show (1 : Fin S128x32.rank) ∈ dot_S128x128_S128x32_S128x32_1_0_0_1_n_n.rhsNonContracting by decide)]
  rfl
/-- The product of a `128 × 128` by a `128 × 32` matrix into the zero accumulator, read at `(r, c)`: the sum over the
    shared axis. -/
private theorem matmulCov_apply {φ₁ φ₂ : FTy} (x : FVec Ideal S128x128 φ₁) (y : FVec Ideal S128x32 φ₂) (r : Fin 128) (c : Fin 32) :
    matmul dot_S128x128_S128x32_S128x32_1_0_0_1_n_n none x y (constant (F := Ideal) S128x32 .f32 0x00000000#32) (ix2 r c)
      = ∑ d : Fin 128, x (ix2 r d) * y (ix2 d c) := by
  show FloatOps.matmul dot_S128x128_S128x32_S128x32_1_0_0_1_n_n none x y (constant (F := Ideal) S128x32 .f32 0x00000000#32) (ix2 r c) = _
  rw [Ideal.matmul_constant_zero_apply, ← Equiv.sum_comp (contrEquiv1 dot_S128x128_S128x32_S128x32_1_0_0_1_n_n 128 rfl rfl).symm]
  refine Finset.sum_congr rfl fun d _ => ?_
  have hd := contrEquiv1_symm_val dot_S128x128_S128x32_S128x32_1_0_0_1_n_n 128 rfl rfl d
  have el : dot_S128x128_S128x32_S128x32_1_0_0_1_n_n.lhsIdx (ix2 r c) ((contrEquiv1 dot_S128x128_S128x32_S128x32_1_0_0_1_n_n 128 rfl rfl).symm d) = ix2 r d := funext fun a => Fin.ext (by
    match a with
    | ⟨0, _⟩ => exact lhsCov_0 _ _
    | ⟨1, _⟩ => exact (lhsCov_1 _ _).trans hd)
  have er : dot_S128x128_S128x32_S128x32_1_0_0_1_n_n.rhsIdx (ix2 r c) ((contrEquiv1 dot_S128x128_S128x32_S128x32_1_0_0_1_n_n 128 rfl rfl).symm d) = ix2 d c := funext fun a => Fin.ext (by
    match a with
    | ⟨0, _⟩ => exact (rhsCov_0 _ _).trans hd
    | ⟨1, _⟩ => exact rhsCov_1 _ _)
  rw [el, er]

private theorem lhsOut_0 (i : S128x128.Idx) (q : dot_S128x128_S128x128_S128x128_1_0_0_1_n_n.contr.Idx) :
    (dot_S128x128_S128x128_S128x128_1_0_0_1_n_n.lhsIdx i q 0).val = (i 0).val := by
  unfold DotDims.lhsIdx
  rw [dif_neg (show ¬(0 : Fin S128x128.rank) ∈ dot_S128x128_S128x128_S128x128_1_0_0_1_n_n.lhsBatch by decide), dif_pos (show (0 : Fin S128x128.rank) ∈ dot_S128x128_S128x128_S128x128_1_0_0_1_n_n.lhsNonContracting by decide)]
  rfl
private theorem lhsOut_1 (i : S128x128.Idx) (q : dot_S128x128_S128x128_S128x128_1_0_0_1_n_n.contr.Idx) :
    (dot_S128x128_S128x128_S128x128_1_0_0_1_n_n.lhsIdx i q 1).val = (q ⟨0, by decide⟩).val :=
  dot_S128x128_S128x128_S128x128_1_0_0_1_n_n.lhsIdx_val_of_single rfl i q
private theorem rhsOut_0 (i : S128x128.Idx) (q : dot_S128x128_S128x128_S128x128_1_0_0_1_n_n.contr.Idx) :
    (dot_S128x128_S128x128_S128x128_1_0_0_1_n_n.rhsIdx i q 0).val = (q ⟨0, by decide⟩).val :=
  dot_S128x128_S128x128_S128x128_1_0_0_1_n_n.rhsIdx_val_of_single rfl i q
private theorem rhsOut_1 (i : S128x128.Idx) (q : dot_S128x128_S128x128_S128x128_1_0_0_1_n_n.contr.Idx) :
    (dot_S128x128_S128x128_S128x128_1_0_0_1_n_n.rhsIdx i q 1).val = (i 1).val := by
  unfold DotDims.rhsIdx
  rw [dif_neg (show ¬(1 : Fin S128x128.rank) ∈ dot_S128x128_S128x128_S128x128_1_0_0_1_n_n.rhsBatch by decide), dif_pos (show (1 : Fin S128x128.rank) ∈ dot_S128x128_S128x128_S128x128_1_0_0_1_n_n.rhsNonContracting by decide)]
  rfl
/-- The product of a `128 × 128` by a `128 × 128` matrix into the zero accumulator, read at `(r, c)`: the sum over the
    shared axis. -/
private theorem matmulOut_apply {φ₁ φ₂ : FTy} (x : FVec Ideal S128x128 φ₁) (y : FVec Ideal S128x128 φ₂) (r : Fin 128) (c : Fin 128) :
    matmul dot_S128x128_S128x128_S128x128_1_0_0_1_n_n none x y (constant (F := Ideal) S128x128 .f32 0x00000000#32) (ix2 r c)
      = ∑ d : Fin 128, x (ix2 r d) * y (ix2 d c) := by
  show FloatOps.matmul dot_S128x128_S128x128_S128x128_1_0_0_1_n_n none x y (constant (F := Ideal) S128x128 .f32 0x00000000#32) (ix2 r c) = _
  rw [Ideal.matmul_constant_zero_apply, ← Equiv.sum_comp (contrEquiv1 dot_S128x128_S128x128_S128x128_1_0_0_1_n_n 128 rfl rfl).symm]
  refine Finset.sum_congr rfl fun d _ => ?_
  have hd := contrEquiv1_symm_val dot_S128x128_S128x128_S128x128_1_0_0_1_n_n 128 rfl rfl d
  have el : dot_S128x128_S128x128_S128x128_1_0_0_1_n_n.lhsIdx (ix2 r c) ((contrEquiv1 dot_S128x128_S128x128_S128x128_1_0_0_1_n_n 128 rfl rfl).symm d) = ix2 r d := funext fun a => Fin.ext (by
    match a with
    | ⟨0, _⟩ => exact lhsOut_0 _ _
    | ⟨1, _⟩ => exact (lhsOut_1 _ _).trans hd)
  have er : dot_S128x128_S128x128_S128x128_1_0_0_1_n_n.rhsIdx (ix2 r c) ((contrEquiv1 dot_S128x128_S128x128_S128x128_1_0_0_1_n_n 128 rfl rfl).symm d) = ix2 d c := funext fun a => Fin.ext (by
    match a with
    | ⟨0, _⟩ => exact (rhsOut_0 _ _).trans hd
    | ⟨1, _⟩ => exact rhsOut_1 _ _)
  rw [el, er]

/-! ## A lane sum, read at a row -/

/-- The sum along the 128 columns of a `128 × 128` array, read at row `r`. -/
private theorem laneSum_apply (v : FVec Ideal S128x128 .f32) (h : S128x128.Reduces [1] S128) (hφ : FKind.Formats .f32)
    (hacc : (0x00000000#32 : BitVec 32) = 0x00000000#32) (r : Fin 128) :
    multiReduction (F := Ideal) .add [1] S128 v 0x00000000#32 h hφ hacc (ix1 r) = ∑ c : Fin 128, v (ix2 r c) := by
  refine (Ideal.multiReduction_add_single v 0x00000000#32 h hφ hacc (ix1 r)).trans ?_
  refine Finset.sum_congr rfl fun c _ => congrArg v ?_
  funext a
  match a with
  | ⟨0, _⟩ => rfl
  | ⟨1, _⟩ => rfl

/-! ## The centred first band -/

/-- The row's projection through the whole joined matrix, at `(r, c)`. -/
private theorem pay2_at (rows : Vec Ideal S128x1024 .f32) (joined : Vec Ideal S1024x512 .bf16) (r : Fin 128) (c : Fin 512) :
    k0_pay2 rows joined (ix2 r c) = ∑ d : Fin 1024, rows (ix2 r d) * joined (ix2 d c) := by
  unfold k0_pay2
  refine (matmulProj_apply _ _ r c).trans ?_
  simp only [shapeCast_self]
  rfl

/-- Its first band of 128 columns, at `(r, c)`. -/
private theorem band_at (rows : Vec Ideal S128x1024 .f32) (joined : Vec Ideal S1024x512 .bf16) (r c : Fin 128) :
    extractStridedSlice S128x128 ![0, 0] (k0_pay2 rows joined) slices_S128x512_o0_0_S128x128 (ix2 r c)
      = ∑ d : Fin 1024, rows (ix2 r d) * joined (ix2 d ⟨c.val, by omega⟩) :=
  (slice2_axis1_apply 0 (k0_pay2 rows joined) slices_S128x512_o0_0_S128x128 r c ⟨c.val, by omega⟩ (Nat.zero_add _).symm).trans
    (pay2_at rows joined r ⟨c.val, by omega⟩)

/-- The band centred along its columns, at `(r, c)`. -/
private theorem pay5_at (rows : Vec Ideal S128x1024 .f32) (joined : Vec Ideal S1024x512 .bf16) (r c : Fin 128) :
    k0_pay5 rows joined (ix2 r c)
      = Spec.cen (fun c => ∑ d : Fin 1024, rows (ix2 r d) * joined (ix2 d ⟨c.val, by omega⟩)) c := by
  unfold k0_pay5
  simp only [subf_apply, divf_apply, broadcast_apply, broadcastTo_a1_ab_apply, shapeCast_a_a1_apply, band_at]
  rw [laneSum_apply]
  simp only [band_at]
  rfl

/-! ## The means from a centred band -/

private theorem rsqrt_apply {s : Shape} {φ : FTy} (a : FVec Ideal s φ) (i : s.Idx) : rsqrt a i = Ideal.rsqrt (a i) := rfl
private theorem tanh_apply {s : Shape} {φ : FTy} (a : FVec Ideal s φ) (i : s.Idx) : tanh a i = Ideal.tanh (a i) := rfl

/-- Entry `(r, k, f)` of the block of means, from ANY centred band `A`: the variance of row `r` of `A`, its products with
    the code table, the gain and the output matrix, in the order the body takes them. -/
private theorem pay6_at (A : FVec Ideal S128x128 .f32) (bT : Vec Ideal S128x32 .bf16) (vb : Vec Ideal S32 .f32)
    (g : Vec Ideal S128 .f32) (wo : Vec Ideal S128x128 .bf16) (q : Vec Ideal S32x128 .f32) (rr : Vec Ideal S128 .f32)
    (r : Fin 128) (k : Fin 32) (f : Fin 128) :
    k0_pay6 A bT vb g wo q rr (ix3 r k f)
      = Ideal.tanh (Ideal.rsqrt (((Ideal.div (∑ c : Fin 128, A (ix2 r c) * A (ix2 r c)) (lit 0x43000000#32) + vb (ix1 k))
              + lit 0x3C800000#32 * ∑ c : Fin 128, A (ix2 r c) * bT (ix2 c k)) + lit 0x3727C5AC#32)
            * ((∑ c : Fin 128, (A (ix2 r c) * g (ix1 c)) * wo (ix2 c f)) + q (ix2 k f)) + rr (ix1 f)) := by
  unfold k0_pay6
  simp only [tanh_apply, rsqrt_apply, addf_apply, mulf_apply, divf_apply, broadcast_apply, truncf_apply, shapeCast_self,
    broadcastTo_11c_abc_apply, shapeCast_a_11a_apply, broadcastTo_ab1_abc_apply, shapeCast_ab_ab1_apply,
    broadcastTo_1bc_abc_apply, shapeCast_ab_1ab_apply, broadcastTo_a1c_abc_apply, shapeCast_ab_a1b_apply,
    broadcastTo_1b_ab_apply, shapeCast_a_1a_apply, broadcastTo_a1_ab_apply, shapeCast_a_a1_apply,
    matmulCov_apply, matmulOut_apply]
  rw [laneSum_apply]
  simp only [mulf_apply]
  rfl

/-- Entry (r, k, f) of the stored block of means, from the row's projection through the FIRST column band (columns
    0 … 127) of the joined weight matrix and the code-side tables. -/
theorem mean_at (rows : Vec Ideal S128x1024 .f32) (joined : Vec Ideal S1024x512 .bf16) (bT : Vec Ideal S128x32 .bf16)
    (vb : Vec Ideal S32 .f32) (g : Vec Ideal S128 .f32) (wo : Vec Ideal S128x128 .bf16) (q : Vec Ideal S32x128 .f32)
    (rr : Vec Ideal S128 .f32) (r : Fin 128) (k : Fin 32) (f : Fin 128) :
    k0_pay6 (k0_pay5 rows joined) bT vb g wo q rr (ix3 r k f)
      = Spec.meanBody (fun c => ∑ d : Fin 1024, rows (ix2 r d) * joined (ix2 d ⟨c.val, by omega⟩))
          (fun c => bT (ix2 c k)) (fun c => g (ix1 c)) (fun c => wo (ix2 c f)) (vb (ix1 k)) (q (ix2 k f)) (rr (ix1 f)) := by
  refine (pay6_at (k0_pay5 rows joined) bT vb g wo q rr r k f).trans ?_
  simp only [pay5_at]
  rfl

end Cert.KernelIdeal.Pay

end
-- ==== Proof.KPayLogvar.lean ====
/-
  The log-variances one grid point's body stores, read at one (row, code, column) entry.
-/
import proofs.«410282_j21792664060394_3_alg».proof.Proof.Gen.KernelIdeal.Skeleton
import proofs.«410282_j21792664060394_3_alg».proof.Proof.Spec
import proofs.«410282_j21792664060394_3_alg».proof.Proof.Consts
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Pay

open Idealize.ShloMosaic Idealize.ShloMosaic.ValueIdx Cert.KernelIdeal Cert.KernelIdeal.Gen Cert.Spec

/-! ## The product's operand indices, axis by axis -/

private theorem lhs_joined_0 (i : S128x512.Idx) (q : dot_S128x1024_S1024x512_S128x512_1_0_0_1_n_n.contr.Idx) :
    (dot_S128x1024_S1024x512_S128x512_1_0_0_1_n_n.lhsIdx i q 0).val = (i 0).val := by
  unfold DotDims.lhsIdx
  rw [dif_neg (show ¬(0 : Fin S128x1024.rank) ∈ dot_S128x1024_S1024x512_S128x512_1_0_0_1_n_n.lhsBatch by decide), dif_pos (show (0 : Fin S128x1024.rank) ∈ dot_S128x1024_S1024x512_S128x512_1_0_0_1_n_n.lhsNonContracting by decide)]
  rfl
private theorem lhs_joined_1 (i : S128x512.Idx) (q : dot_S128x1024_S1024x512_S128x512_1_0_0_1_n_n.contr.Idx) :
    (dot_S128x1024_S1024x512_S128x512_1_0_0_1_n_n.lhsIdx i q 1).val = (q ⟨0, by decide⟩).val :=
  dot_S128x1024_S1024x512_S128x512_1_0_0_1_n_n.lhsIdx_val_of_single rfl i q
private theorem rhs_joined_0 (i : S128x512.Idx) (q : dot_S128x1024_S1024x512_S128x512_1_0_0_1_n_n.contr.Idx) :
    (dot_S128x1024_S1024x512_S128x512_1_0_0_1_n_n.rhsIdx i q 0).val = (q ⟨0, by decide⟩).val :=
  dot_S128x1024_S1024x512_S128x512_1_0_0_1_n_n.rhsIdx_val_of_single rfl i q
private theorem rhs_joined_1 (i : S128x512.Idx) (q : dot_S128x1024_S1024x512_S128x512_1_0_0_1_n_n.contr.Idx) :
    (dot_S128x1024_S1024x512_S128x512_1_0_0_1_n_n.rhsIdx i q 1).val = (i 1).val := by
  unfold DotDims.rhsIdx
  rw [dif_neg (show ¬(1 : Fin S1024x512.rank) ∈ dot_S128x1024_S1024x512_S128x512_1_0_0_1_n_n.rhsBatch by decide), dif_pos (show (1 : Fin S1024x512.rank) ∈ dot_S128x1024_S1024x512_S128x512_1_0_0_1_n_n.rhsNonContracting by decide)]
  rfl

/-- Entry (r, c) of the rows' product with the joined matrix: the sum over the 1024 hidden coordinates. -/
private theorem joined_at (rows : Vec Ideal S128x1024 .f32) (joined : Vec Ideal S1024x512 .bf16) (r : Fin 128) (c : Fin 512) :
    k0_pay2 rows joined (ix2 r c) = ∑ d : Fin 1024, rows (ix2 r d) * joined (ix2 d c) := by
  unfold k0_pay2
  rw [shapeCast_self, shapeCast_self]
  refine (Ideal.matmul_constant_zero_apply (φ₁ := .bf16) (φ₂ := .bf16) dot_S128x1024_S1024x512_S128x512_1_0_0_1_n_n none
    (truncf .bf16 rows bitsLt_bf16_f32) joined (ix2 r c)).trans ?_
  rw [← Equiv.sum_comp (contrEquiv1 dot_S128x1024_S1024x512_S128x512_1_0_0_1_n_n 1024 rfl rfl).symm]
  refine Finset.sum_congr rfl fun k _ => ?_
  have hk := contrEquiv1_symm_val dot_S128x1024_S1024x512_S128x512_1_0_0_1_n_n 1024 rfl rfl k
  have el : dot_S128x1024_S1024x512_S128x512_1_0_0_1_n_n.lhsIdx (ix2 r c) ((contrEquiv1 dot_S128x1024_S1024x512_S128x512_1_0_0_1_n_n 1024 rfl rfl).symm k) = ix2 r k := funext fun a => Fin.ext (by
    match a with
    | ⟨0, _⟩ => exact lhs_joined_0 _ _
    | ⟨1, _⟩ => exact (lhs_joined_1 _ _).trans hk)
  have er : dot_S128x1024_S1024x512_S128x512_1_0_0_1_n_n.rhsIdx (ix2 r c) ((contrEquiv1 dot_S128x1024_S1024x512_S128x512_1_0_0_1_n_n 1024 rfl rfl).symm k) = ix2 k c := funext fun a => Fin.ext (by
    match a with
    | ⟨0, _⟩ => exact (rhs_joined_0 _ _).trans hk
    | ⟨1, _⟩ => exact rhs_joined_1 _ _)
  rw [el, er]
  rfl

/-- Entry (r, f) of the middle column band: column 128 + f of the product. -/
private theorem band_at (rows : Vec Ideal S128x1024 .f32) (joined : Vec Ideal S1024x512 .bf16) (r : Fin 128) (f : Fin 128) :
    k0_pay3 rows joined (ix2 r f) = ∑ d : Fin 1024, rows (ix2 r d) * joined (ix2 d ⟨128 + f.val, by omega⟩) := by
  unfold k0_pay3
  refine (extractStridedSlice_apply ![0, 128] (k0_pay2 rows joined) slices_S128x512_o0_128_S128x128 (ix2 r f)
    (ix2 r ⟨128 + f.val, by omega⟩) (fun a => match a with
      | ⟨0, _⟩ => by show r.val = 0 + r.val; omega
      | ⟨1, _⟩ => by show 128 + f.val = 128 + f.val; rfl)).trans ?_
  exact joined_at rows joined r ⟨128 + f.val, by omega⟩

/-- Entry (r, k, f) of the stored block of log-variances: the row's projection through the MIDDLE column band (columns
    128 … 255) of the joined weight matrix plus the code-side table, clipped. -/
theorem logvar_at (rows : Vec Ideal S128x1024 .f32) (joined : Vec Ideal S1024x512 .bf16) (lc : Vec Ideal S32x128 .f32)
    (r : Fin 128) (k : Fin 32) (f : Fin 128) :
    k0_pay1 (k0_pay3 rows joined) lc (ix3 r k f)
      = Spec.clipLv ((∑ d : Fin 1024, rows (ix2 r d) * joined (ix2 d ⟨128 + f.val, by omega⟩)) + lc (ix2 k f)) := by
  rw [← band_at rows joined r f]
  generalize k0_pay3 rows joined = band
  unfold k0_pay1
  rw [shapeCast_self lc]
  show min (Ideal.ofBits .f32 0x3F317218#32) (max (Ideal.ofBits .f32 0xC0135D8E#32)
    (broadcastTo S128x32x128 (shapeCast S128x1x128 band shapeCasts_S128x128_S128x1x128) broadcasts_S128x1x128_S128x32x128 (ix3 r k f)
      + broadcastTo S128x32x128 (shapeCast S1x32x128 lc shapeCasts_S32x128_S1x32x128) broadcasts_S1x32x128_S128x32x128 (ix3 r k f))) = _
  have e1 : broadcastTo S128x32x128 (shapeCast S128x1x128 band shapeCasts_S128x128_S128x1x128) broadcasts_S128x1x128_S128x32x128 (ix3 r k f)
      = band (ix2 r f) := by
    refine (broadcastTo_apply _ broadcasts_S128x1x128_S128x32x128 (ix3 r k f) (ix3 r (0 : Fin 1) f) (fun a => match a with
      | ⟨0, _⟩ => by rfl
      | ⟨1, _⟩ => by rfl
      | ⟨2, _⟩ => by rfl)).trans ?_
    refine shapeCast_apply band shapeCasts_S128x128_S128x1x128 (ix3 r (0 : Fin 1) f) (ix2 r f) ?_
    rw [Shape.rowMajor_val_two, Shape.rowMajor_val_three]
    show r.val * 128 + f.val = (r.val * 1 + 0) * 128 + f.val
    omega
  have e2 : broadcastTo S128x32x128 (shapeCast S1x32x128 lc shapeCasts_S32x128_S1x32x128) broadcasts_S1x32x128_S128x32x128 (ix3 r k f)
      = lc (ix2 k f) := by
    refine (broadcastTo_apply _ broadcasts_S1x32x128_S128x32x128 (ix3 r k f) (ix3 (0 : Fin 1) k f) (fun a => match a with
      | ⟨0, _⟩ => by rfl
      | ⟨1, _⟩ => by rfl
      | ⟨2, _⟩ => by rfl)).trans ?_
    refine shapeCast_apply lc shapeCasts_S32x128_S1x32x128 (ix3 (0 : Fin 1) k f) (ix2 k f) ?_
    rw [Shape.rowMajor_val_two, Shape.rowMajor_val_three]
    show k.val * 128 + f.val = (0 * 32 + k.val) * 128 + f.val
    omega
  rw [e1, e2]
  rfl

end Cert.KernelIdeal.Pay

end
-- ==== Proof.LibNary3.lean ====
/-
  The result of a `stablehlo` operation of three operand references (a concatenate of three pieces), with each
  operand's contents at its own reference.
-/
import Idealize.ShloMosaic.Lib.StableHlo.Run

noncomputable section

namespace Idealize.ShloMosaic.StableHlo

open Idealize.SL.Sem

variable {τ : Topo} {sig : RefSig} {Val : EltTy → Type}
variable {x a b y : Ref sig .tc}

/-- `nary` over a LITERAL family of three references (a concatenate of three operands, printed
    `nary ![x, a, b] …`): the value written at the result reference is the operation's function applied to the
    family `Fin.cons (V x) (Fin.cons (V a) (Fin.cons (V b) …))` of the operands' contents, each AT ITS OWN
    REFERENCE, in place of `fun k => V (![x, a, b] k)`. Under that binder the reference `![x, a, b] k` is no literal,
    so no result lemma could go on rewriting the operands' contents; in this form each of the three is a literal
    reference again. The analogue for three references of the library's lemma for four. -/
theorem nary3_result
    (f : ((k : Fin 3) → ((![x, a, b] : Fin 3 → Ref sig .tc) k).ty.Contents Val) → y.ty.Contents Val) (hxs hy)
    (V : Valuation τ sig Val) :
    (nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl

/-- `nary3_result` with the result reference un-indexed, the form a `simp` pass over a list of operations uses
    (the same restatement the library makes of its own result lemmas). -/
theorem nary3_result'
    (f : ((k : Fin 3) → ((![x, a, b] : Fin 3 → Ref sig .tc) k).ty.Contents Val) → y.ty.Contents Val) (hxs hy)
    (V : Valuation τ sig Val) :
    (nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) :=
  nary3_result f hxs hy V

end Idealize.ShloMosaic.StableHlo

end
-- ==== Proof.KEntry.lean ====
/-
  The twelve operands the launch stages, as the host operations before it leave them, read at an index in terms
  of the fifteen arguments.
-/
import proofs.«410282_j21792664060394_3_alg».proof.Proof.KernelIdealAround
import proofs.«410282_j21792664060394_3_alg».proof.Proof.LibNary3
import proofs.«410282_j21792664060394_3_alg».proof.Proof.Spec
import proofs.«410282_j21792664060394_3_alg».proof.Proof.Consts
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.Entry

open Idealize.ShloMosaic Idealize.ShloMosaic.TcCoe Idealize.ShloMosaic.ValueIdx Idealize.SL.Sem
open Cert.KernelIdeal Cert.KernelIdeal.Gen Cert.KernelIdeal.Around Cert.Spec

variable (m : (ℓ : Loc nD τ sig) → Buf (Elt Ideal) ℓ) (c : Dev nD)

/-! ## The operands as terms of the arguments

Each operand the launch stages is written once as the composite of host operations that produces it, over any
float instance; the buffer contents at entry are then these composites of the argument buffers. -/

section Terms
variable {F : FTy → Type} [FloatOps F]

/-- The blended codes: 0.9 · momentum + 0.1 · code. -/
private def tCode (x1 x2 : (⟨S32x128, .f32⟩ : BufTy).Contents (Elt F)) : (⟨S32x128, .f32⟩ : BufTy).Contents (Elt F) :=
  addf (mulf (broadcastInDim S32x128 ![] bcast_S_S32x128 (constant S_ .f32 0x3F666666#32)) x2)
    (mulf (broadcastInDim S32x128 ![] bcast_S_S32x128 (constant S_ .f32 0x3DCCCCCD#32)) x1)

/-- The last 128 rows of a weight matrix. -/
private def tBot (W : (⟨S1152x128, .f32⟩ : BufTy).Contents (Elt F)) : (⟨S128x128, .f32⟩ : BufTy).Contents (Elt F) :=
  extractStridedSlice S128x128 ![1024, 0] W slices_S1152x128_S128x128_1024_0

/-- Its first 1024 rows. -/
private def tTop (W : (⟨S1152x128, .f32⟩ : BufTy).Contents (Elt F)) : (⟨S1024x128, .f32⟩ : BufTy).Contents (Elt F) :=
  extractStridedSlice S1024x128 ![0, 0] W slices_S1152x128_S1024x128_0_0

/-- A vector of 128 entries as a row. -/
private def tRow1 (b : (⟨S128, .f32⟩ : BufTy).Contents (Elt F)) : (⟨S1x128, .f32⟩ : BufTy).Contents (Elt F) :=
  broadcastInDim S1x128 ![1] bcast_S128_S1x128_1 b

/-- The same row repeated for the 32 codes. -/
private def tRow (b : (⟨S128, .f32⟩ : BufTy).Contents (Elt F)) : (⟨S32x128, .f32⟩ : BufTy).Contents (Elt F) :=
  broadcastInDim S32x128 ![0, 1] bcast_S1x128_S32x128_0_1 (tRow1 b)

/-- The codes through the code rows of a weight matrix, plus its bias. -/
private def tPre (x1 x2 : (⟨S32x128, .f32⟩ : BufTy).Contents (Elt F)) (W : (⟨S1152x128, .f32⟩ : BufTy).Contents (Elt F))
    (b : (⟨S128, .f32⟩ : BufTy).Contents (Elt F)) : (⟨S32x128, .f32⟩ : BufTy).Contents (Elt F) :=
  addf (Host.dotGeneral dot_S32x128_S128x128_S32x128_1_0_0_1_n_n none (tCode x1 x2) (tBot W)) (tRow b)

/-- The mean of each code's vector along its 128 entries. -/
private def tMean (y : (⟨S32x128, .f32⟩ : BufTy).Contents (Elt F)) : (⟨S32x1, .f32⟩ : BufTy).Contents (Elt F) :=
  Host.divf (broadcastInDim S32x1 ![0] bcast_S32_S32x1_0 (Host.reduceAdd y (constant S_ .f32 0x00000000#32) reducesTo_S32x128_S32_d1 h_S_))
    (broadcastInDim S32x1 ![] bcast_S_S32x1 (constant S_ .f32 0x43000000#32))

/-- Each code's vector less its mean. -/
private def tCen (y : (⟨S32x128, .f32⟩ : BufTy).Contents (Elt F)) : (⟨S32x128, .f32⟩ : BufTy).Contents (Elt F) :=
  subf y (broadcastInDim S32x128 ![0, 1] bcast_S32x1_S32x128_0_1 (tMean y))

/-- The variance of each code's vector. -/
private def tVar (y : (⟨S32x128, .f32⟩ : BufTy).Contents (Elt F)) : (⟨S32, .f32⟩ : BufTy).Contents (Elt F) :=
  Host.divf (Host.reduceAdd (mulf (tCen y) (tCen y)) (constant S_ .f32 0x00000000#32) reducesTo_S32x128_S32_d1 h_S_)
    (broadcastInDim S32 ![] bcast_S_S32 (constant S_ .f32 0x43000000#32))

/-- The centred vectors, transposed and in the staged format. -/
private def tCenT (y : (⟨S32x128, .f32⟩ : BufTy).Contents (Elt F)) : (⟨S128x32, .bf16⟩ : BufTy).Contents (Elt F) :=
  truncf .bf16 (transpose S128x32 [1, 0] (tCen y) transposes_S32x128_S128x32_1_0) bitsLt_bf16_f32

/-- The centred vectors scaled by the gain, through the output matrix. -/
private def tQ (y : (⟨S32x128, .f32⟩ : BufTy).Contents (Elt F)) (g : (⟨S128, .f32⟩ : BufTy).Contents (Elt F))
    (W2 : (⟨S128x128, .f32⟩ : BufTy).Contents (Elt F)) : (⟨S32x128, .f32⟩ : BufTy).Contents (Elt F) :=
  Host.dotGeneral dot_S32x128_S128x128_S32x128_1_0_0_1_n_n none (mulf (tCen y) (tRow g)) W2

/-- The shift through the output matrix, plus the output bias. -/
private def tR (lb : (⟨S128, .f32⟩ : BufTy).Contents (Elt F)) (W2 : (⟨S128x128, .f32⟩ : BufTy).Contents (Elt F))
    (b2 : (⟨S128, .f32⟩ : BufTy).Contents (Elt F)) : (⟨S128, .f32⟩ : BufTy).Contents (Elt F) :=
  addf (shapeCast S128 (Host.dotGeneral dot_S1x128_S128x128_S1x128_1_0_0_1_n_n none (tRow1 lb) W2) shapeCasts_S1x128_S128) b2

/-- The three row blocks side by side, in the staged format. -/
private def tJoined (W1 Wv : (⟨S1152x128, .f32⟩ : BufTy).Contents (Elt F)) (M1 : (⟨S1024x256, .f32⟩ : BufTy).Contents (Elt F)) :
    (⟨S1024x512, .bf16⟩ : BufTy).Contents (Elt F) :=
  truncf .bf16 (concatenate S1024x512 1 [⟨S1024x128, tTop W1⟩, ⟨S1024x128, tTop Wv⟩, ⟨S1024x256, M1⟩]
    concatenates_S1024x128_S1024x128_S1024x256_S1024x512_d1) bitsLt_bf16_f32

end Terms

/-- What a buffer holds once the host operations have run: each operation's result at its own buffer is its function
    of its operands' contents, and at any other buffer what was there. -/
local macro "entry_term" : tactic =>
  `(tactic| (dsimp only [atEntry, entry]
             simp (disch := decide) only [hostOps0, List.flatten_cons, List.flatten_nil, List.append_nil, List.cons_append, List.nil_append,
               StableHlo.after_cons, StableHlo.after_nil,
               StableHlo.nullary_result', StableHlo.unary_result', StableHlo.binary_result', StableHlo.reshape_result', StableHlo.nary3_result',
               StableHlo.nullary_result_ne', StableHlo.unary_result_ne', StableHlo.binary_result_ne', StableHlo.reshape_result_ne',
               StableHlo.nary_result_ne']
             try rfl))

/-! ## The terms read at an index

Every lemma reads one term at explicit coordinates, as the sum, quotient or entry of the argument arrays the
specification names. -/

section Read

/-- The blended codes at (code, entry). -/
private theorem tCode_apply (x1 x2 : (⟨S32x128, .f32⟩ : BufTy).Contents (Elt Ideal)) (k : Fin 32) (e : Fin 128) :
    tCode (F := Ideal) x1 x2 (ix2 k e) = Spec.code (of2 x1) (of2 x2) k e := rfl

/-- The last 128 rows of a weight matrix at (row, column). -/
private theorem tBot_apply (W : (⟨S1152x128, .f32⟩ : BufTy).Contents (Elt Ideal)) (e f : Fin 128) :
    tBot (F := Ideal) W (ix2 e f) = Spec.bot (of2 W) e f := by
  unfold tBot Spec.bot
  exact extractStridedSlice_apply ![1024, 0] W slices_S1152x128_S128x128_1024_0 (ix2 e f) (ix2 ⟨1024 + e.val, by omega⟩ f) (fun a => match a with
    | ⟨0, _⟩ => by show 1024 + e.val = 1024 + e.val; rfl
    | ⟨1, _⟩ => by show f.val = 0 + f.val; omega)

/-- Its first 1024 rows at (row, column). -/
private theorem tTop_apply (W : (⟨S1152x128, .f32⟩ : BufTy).Contents (Elt Ideal)) (d : Fin 1024) (f : Fin 128) :
    tTop (F := Ideal) W (ix2 d f) = Spec.top (of2 W) d f := by
  unfold tTop Spec.top
  exact extractStridedSlice_apply ![0, 0] W slices_S1152x128_S1024x128_0_0 (ix2 d f) (ix2 ⟨d.val, by omega⟩ f) (fun a => match a with
    | ⟨0, _⟩ => by show d.val = 0 + d.val; omega
    | ⟨1, _⟩ => by show f.val = 0 + f.val; omega)

/-- A vector as a row, at (0, column). -/
private theorem tRow1_apply (b : (⟨S128, .f32⟩ : BufTy).Contents (Elt Ideal)) (z : Fin 1) (f : Fin 128) :
    tRow1 (F := Ideal) b (ix2 z f) = of1 b f := by
  unfold tRow1
  exact broadcastInDim_apply _ bcast_S128_S1x128_1 b (ix2 z f) (ix1 f) (fun a => match a with
    | ⟨0, _⟩ => by show f.val = if (128 : Nat) = 1 then 0 else f.val; rw [if_neg (by decide)])

/-- The row repeated over the codes, at (code, column). -/
private theorem tRow_apply (b : (⟨S128, .f32⟩ : BufTy).Contents (Elt Ideal)) (k : Fin 32) (f : Fin 128) :
    tRow (F := Ideal) b (ix2 k f) = of1 b f := by
  unfold tRow
  refine (broadcastInDim_apply _ bcast_S1x128_S32x128_0_1 (tRow1 b) (ix2 k f) (ix2 (0 : Fin 1) f) (fun a => match a with
    | ⟨0, _⟩ => by show (0 : Nat) = if (1 : Nat) = 1 then 0 else k.val; rw [if_pos rfl]
    | ⟨1, _⟩ => by show f.val = if (128 : Nat) = 1 then 0 else f.val; rw [if_neg (by decide)])).trans ?_
  exact tRow1_apply b 0 f

private theorem lhs32_0 (i : S32x128.Idx) (q : dot_S32x128_S128x128_S32x128_1_0_0_1_n_n.contr.Idx) :
    (dot_S32x128_S128x128_S32x128_1_0_0_1_n_n.lhsIdx i q 0).val = (i 0).val := by
  unfold DotDims.lhsIdx
  rw [dif_neg (show ¬(0 : Fin S32x128.rank) ∈ dot_S32x128_S128x128_S32x128_1_0_0_1_n_n.lhsBatch by decide), dif_pos (show (0 : Fin S32x128.rank) ∈ dot_S32x128_S128x128_S32x128_1_0_0_1_n_n.lhsNonContracting by decide)]
  rfl
private theorem lhs32_1 (i : S32x128.Idx) (q : dot_S32x128_S128x128_S32x128_1_0_0_1_n_n.contr.Idx) :
    (dot_S32x128_S128x128_S32x128_1_0_0_1_n_n.lhsIdx i q 1).val = (q ⟨0, by decide⟩).val :=
  dot_S32x128_S128x128_S32x128_1_0_0_1_n_n.lhsIdx_val_of_single rfl i q
private theorem rhs32_0 (i : S32x128.Idx) (q : dot_S32x128_S128x128_S32x128_1_0_0_1_n_n.contr.Idx) :
    (dot_S32x128_S128x128_S32x128_1_0_0_1_n_n.rhsIdx i q 0).val = (q ⟨0, by decide⟩).val :=
  dot_S32x128_S128x128_S32x128_1_0_0_1_n_n.rhsIdx_val_of_single rfl i q
private theorem rhs32_1 (i : S32x128.Idx) (q : dot_S32x128_S128x128_S32x128_1_0_0_1_n_n.contr.Idx) :
    (dot_S32x128_S128x128_S32x128_1_0_0_1_n_n.rhsIdx i q 1).val = (i 1).val := by
  unfold DotDims.rhsIdx
  rw [dif_neg (show ¬(1 : Fin S128x128.rank) ∈ dot_S32x128_S128x128_S32x128_1_0_0_1_n_n.rhsBatch by decide), dif_pos (show (1 : Fin S128x128.rank) ∈ dot_S32x128_S128x128_S32x128_1_0_0_1_n_n.rhsNonContracting by decide)]
  rfl

/-- The product of a 32 × 128 array with a 128 × 128 matrix at (code, column): the sum over the contracted axis. -/
private theorem dot32_apply (l : (⟨S32x128, .f32⟩ : BufTy).Contents (Elt Ideal)) (r : (⟨S128x128, .f32⟩ : BufTy).Contents (Elt Ideal))
    (k : Fin 32) (f : Fin 128) :
    Host.dotGeneral (F := Ideal) (φ₁ := .f32) (φ₂ := .f32) dot_S32x128_S128x128_S32x128_1_0_0_1_n_n none l r (ix2 k f) = ∑ e : Fin 128, l (ix2 k e) * r (ix2 e f) := by
  simp only [Host.dotGeneral]
  rw [Ideal.dotGeneral_apply, ← Equiv.sum_comp (ValueIdx.contrEquiv1 dot_S32x128_S128x128_S32x128_1_0_0_1_n_n 128 rfl rfl).symm]
  refine Finset.sum_congr rfl fun e _ => ?_
  have hk := ValueIdx.contrEquiv1_symm_val dot_S32x128_S128x128_S32x128_1_0_0_1_n_n 128 rfl rfl e
  have el : dot_S32x128_S128x128_S32x128_1_0_0_1_n_n.lhsIdx (ix2 k f) ((ValueIdx.contrEquiv1 dot_S32x128_S128x128_S32x128_1_0_0_1_n_n 128 rfl rfl).symm e) = ix2 k e := funext fun a => Fin.ext (by
    match a with
    | ⟨0, _⟩ => exact lhs32_0 _ _
    | ⟨1, _⟩ => exact (lhs32_1 _ _).trans hk)
  have er : dot_S32x128_S128x128_S32x128_1_0_0_1_n_n.rhsIdx (ix2 k f) ((ValueIdx.contrEquiv1 dot_S32x128_S128x128_S32x128_1_0_0_1_n_n 128 rfl rfl).symm e) = ix2 e f := funext fun a => Fin.ext (by
    match a with
    | ⟨0, _⟩ => exact (rhs32_0 _ _).trans hk
    | ⟨1, _⟩ => exact rhs32_1 _ _)
  rw [el, er]

private theorem lhs1_0 (i : S1x128.Idx) (q : dot_S1x128_S128x128_S1x128_1_0_0_1_n_n.contr.Idx) :
    (dot_S1x128_S128x128_S1x128_1_0_0_1_n_n.lhsIdx i q 0).val = (i 0).val := by
  unfold DotDims.lhsIdx
  rw [dif_neg (show ¬(0 : Fin S1x128.rank) ∈ dot_S1x128_S128x128_S1x128_1_0_0_1_n_n.lhsBatch by decide), dif_pos (show (0 : Fin S1x128.rank) ∈ dot_S1x128_S128x128_S1x128_1_0_0_1_n_n.lhsNonContracting by decide)]
  rfl
private theorem lhs1_1 (i : S1x128.Idx) (q : dot_S1x128_S128x128_S1x128_1_0_0_1_n_n.contr.Idx) :
    (dot_S1x128_S128x128_S1x128_1_0_0_1_n_n.lhsIdx i q 1).val = (q ⟨0, by decide⟩).val :=
  dot_S1x128_S128x128_S1x128_1_0_0_1_n_n.lhsIdx_val_of_single rfl i q
private theorem rhs1_0 (i : S1x128.Idx) (q : dot_S1x128_S128x128_S1x128_1_0_0_1_n_n.contr.Idx) :
    (dot_S1x128_S128x128_S1x128_1_0_0_1_n_n.rhsIdx i q 0).val = (q ⟨0, by decide⟩).val :=
  dot_S1x128_S128x128_S1x128_1_0_0_1_n_n.rhsIdx_val_of_single rfl i q
private theorem rhs1_1 (i : S1x128.Idx) (q : dot_S1x128_S128x128_S1x128_1_0_0_1_n_n.contr.Idx) :
    (dot_S1x128_S128x128_S1x128_1_0_0_1_n_n.rhsIdx i q 1).val = (i 1).val := by
  unfold DotDims.rhsIdx
  rw [dif_neg (show ¬(1 : Fin S128x128.rank) ∈ dot_S1x128_S128x128_S1x128_1_0_0_1_n_n.rhsBatch by decide), dif_pos (show (1 : Fin S128x128.rank) ∈ dot_S1x128_S128x128_S1x128_1_0_0_1_n_n.rhsNonContracting by decide)]
  rfl

/-- The product of one row with a 128 × 128 matrix at (0, column). -/
private theorem dot1_apply (l : (⟨S1x128, .f32⟩ : BufTy).Contents (Elt Ideal)) (r : (⟨S128x128, .f32⟩ : BufTy).Contents (Elt Ideal))
    (z : Fin 1) (f : Fin 128) :
    Host.dotGeneral (F := Ideal) (φ₁ := .f32) (φ₂ := .f32) dot_S1x128_S128x128_S1x128_1_0_0_1_n_n none l r (ix2 z f) = ∑ e : Fin 128, l (ix2 z e) * r (ix2 e f) := by
  simp only [Host.dotGeneral]
  rw [Ideal.dotGeneral_apply, ← Equiv.sum_comp (ValueIdx.contrEquiv1 dot_S1x128_S128x128_S1x128_1_0_0_1_n_n 128 rfl rfl).symm]
  refine Finset.sum_congr rfl fun e _ => ?_
  have hk := ValueIdx.contrEquiv1_symm_val dot_S1x128_S128x128_S1x128_1_0_0_1_n_n 128 rfl rfl e
  have el : dot_S1x128_S128x128_S1x128_1_0_0_1_n_n.lhsIdx (ix2 z f) ((ValueIdx.contrEquiv1 dot_S1x128_S128x128_S1x128_1_0_0_1_n_n 128 rfl rfl).symm e) = ix2 z e := funext fun a => Fin.ext (by
    match a with
    | ⟨0, _⟩ => exact lhs1_0 _ _
    | ⟨1, _⟩ => exact (lhs1_1 _ _).trans hk)
  have er : dot_S1x128_S128x128_S1x128_1_0_0_1_n_n.rhsIdx (ix2 z f) ((ValueIdx.contrEquiv1 dot_S1x128_S128x128_S1x128_1_0_0_1_n_n 128 rfl rfl).symm e) = ix2 e f := funext fun a => Fin.ext (by
    match a with
    | ⟨0, _⟩ => exact (rhs1_0 _ _).trans hk
    | ⟨1, _⟩ => exact rhs1_1 _ _)
  rw [el, er]

/-- The sum of each code's vector along its 128 entries, started from the literal zero. -/
private theorem sum32_apply (y : (⟨S32x128, .f32⟩ : BufTy).Contents (Elt Ideal)) (k : Fin 32) :
    Host.reduceAdd (F := Ideal) y (constant S_ .f32 0x00000000#32) reducesTo_S32x128_S32_d1 h_S_ (ix1 k) = ∑ c' : Fin 128, y (ix2 k c') := by
  simp only [Host.reduceAdd, Ideal.hostReduceAdd_def]
  rw [Ideal.hostReduceAdd_single reducesTo_S32x128_S32_d1 (by decide)]
  rw [show (constant (F := Ideal) S_ .f32 0x00000000#32) (Shape.Idx.first h_S_) = 0 from Ideal.ofBits_zero_f32, zero_add]
  refine Finset.sum_congr rfl fun c' _ => ?_
  exact congrArg y (funext fun a => Fin.ext (by match a with | ⟨0, _⟩ => rfl | ⟨1, _⟩ => rfl))

end Read

section Read2

/-- The code-side vector at (code, column): the codes through the code rows, plus the bias. -/
private theorem tPre_apply (x1 x2 : (⟨S32x128, .f32⟩ : BufTy).Contents (Elt Ideal)) (W : (⟨S1152x128, .f32⟩ : BufTy).Contents (Elt Ideal))
    (b : (⟨S128, .f32⟩ : BufTy).Contents (Elt Ideal)) (k : Fin 32) (f : Fin 128) :
    tPre (F := Ideal) x1 x2 W b (ix2 k f) = Spec.codeProj (of2 x1) (of2 x2) (of2 W) k f + of1 b f := by
  unfold tPre Spec.codeProj
  refine (addf_apply _ _ _).trans ?_
  rw [dot32_apply, tRow_apply]
  refine congrArg (· + _) (Finset.sum_congr rfl fun e _ => ?_)
  rw [tCode_apply, tBot_apply]

/-- One code's whole code-side vector. -/
private theorem tPre_row (x1 x2 : (⟨S32x128, .f32⟩ : BufTy).Contents (Elt Ideal)) (W : (⟨S1152x128, .f32⟩ : BufTy).Contents (Elt Ideal))
    (b : (⟨S128, .f32⟩ : BufTy).Contents (Elt Ideal)) (k : Fin 32) :
    (fun c' : Fin 128 => tPre (F := Ideal) x1 x2 W b (ix2 k c')) = Spec.codePre (of2 x1) (of2 x2) (of2 W) (of1 b) k :=
  funext fun c' => tPre_apply x1 x2 W b k c'

/-- The mean of code `k`'s vector. -/
private theorem tMean_apply (y : (⟨S32x128, .f32⟩ : BufTy).Contents (Elt Ideal)) (k : Fin 32) (z : Fin 1) :
    tMean (F := Ideal) y (ix2 k z) = Spec.mean128 (fun c' => y (ix2 k c')) := by
  unfold tMean Spec.mean128 Spec.lit
  show Ideal.div (broadcastInDim S32x1 ![0] bcast_S32_S32x1_0 (Host.reduceAdd (F := Ideal) y (constant S_ .f32 0x00000000#32) reducesTo_S32x128_S32_d1 h_S_) (ix2 k z))
    (Ideal.ofBits .f32 0x43000000#32) = _
  rw [broadcastInDim_apply _ bcast_S32_S32x1_0 _ (ix2 k z) (ix1 k) (fun a => match a with
    | ⟨0, _⟩ => by show k.val = if (32 : Nat) = 1 then 0 else k.val; rw [if_neg (by decide)]), sum32_apply]

/-- The centred vector at (code, entry). -/
private theorem tCen_apply (y : (⟨S32x128, .f32⟩ : BufTy).Contents (Elt Ideal)) (k : Fin 32) (c' : Fin 128) :
    tCen (F := Ideal) y (ix2 k c') = Spec.cen (fun c'' => y (ix2 k c'')) c' := by
  unfold tCen Spec.cen
  refine (subf_apply _ _ _).trans ?_
  rw [broadcastInDim_apply _ bcast_S32x1_S32x128_0_1 (tMean y) (ix2 k c') (ix2 k (0 : Fin 1)) (fun a => match a with
    | ⟨0, _⟩ => by show k.val = if (32 : Nat) = 1 then 0 else k.val; rw [if_neg (by decide)]
    | ⟨1, _⟩ => by show (0 : Nat) = if (1 : Nat) = 1 then 0 else c'.val; rw [if_pos rfl]), tMean_apply]

/-- The variance of code `k`'s vector. -/
private theorem tVar_apply (y : (⟨S32x128, .f32⟩ : BufTy).Contents (Elt Ideal)) (k : Fin 32) :
    tVar (F := Ideal) y (ix1 k) = Spec.var128 (fun c' => y (ix2 k c')) := by
  unfold tVar Spec.var128 Spec.lit
  show Ideal.div (Host.reduceAdd (F := Ideal) (mulf (tCen y) (tCen y)) (constant S_ .f32 0x00000000#32) reducesTo_S32x128_S32_d1 h_S_ (ix1 k))
    (Ideal.ofBits .f32 0x43000000#32) = _
  rw [sum32_apply]
  refine congrArg (Ideal.div · _) (Finset.sum_congr rfl fun c' _ => ?_)
  refine (mulf_apply _ _ _).trans ?_
  rw [tCen_apply]

/-- The transposed centred vectors at (entry, code). -/
private theorem tCenT_apply (y : (⟨S32x128, .f32⟩ : BufTy).Contents (Elt Ideal)) (c' : Fin 128) (k : Fin 32) :
    tCenT (F := Ideal) y (ix2 c' k) = Spec.cen (fun c'' => y (ix2 k c'')) c' := by
  unfold tCenT
  refine (truncf_apply (φ := .f32) (ψ := .bf16) _ bitsLt_bf16_f32 _).trans ?_
  exact (transpose_apply [1, 0] (tCen y) transposes_S32x128_S128x32_1_0 (ix2 c' k) (ix2 k c') (fun b => match b with
    | ⟨0, _⟩ => rfl
    | ⟨1, _⟩ => rfl)).trans (tCen_apply y k c')

/-- The scaled centred vectors through the output matrix at (code, column). -/
private theorem tQ_apply (y : (⟨S32x128, .f32⟩ : BufTy).Contents (Elt Ideal)) (g : (⟨S128, .f32⟩ : BufTy).Contents (Elt Ideal))
    (W2 : (⟨S128x128, .f32⟩ : BufTy).Contents (Elt Ideal)) (k : Fin 32) (f : Fin 128) :
    tQ (F := Ideal) y g W2 (ix2 k f) = ∑ c' : Fin 128, (Spec.cen (fun c'' => y (ix2 k c'')) c' * of1 g c') * of2 W2 c' f := by
  unfold tQ
  rw [dot32_apply]
  refine Finset.sum_congr rfl fun c' _ => ?_
  refine (congrArg (· * _) (mulf_apply _ _ _)).trans ?_
  rw [tCen_apply, tRow_apply]

/-- The shift through the output matrix plus the output bias, at a column. -/
private theorem tR_apply (lb : (⟨S128, .f32⟩ : BufTy).Contents (Elt Ideal)) (W2 : (⟨S128x128, .f32⟩ : BufTy).Contents (Elt Ideal))
    (b2 : (⟨S128, .f32⟩ : BufTy).Contents (Elt Ideal)) (f : Fin 128) :
    tR (F := Ideal) lb W2 b2 (ix1 f) = (∑ c' : Fin 128, of1 lb c' * of2 W2 c' f) + of1 b2 f := by
  unfold tR
  refine (addf_apply _ _ _).trans ?_
  rw [shapeCast_apply _ shapeCasts_S1x128_S128 (ix1 f) (ix2 (0 : Fin 1) f) (by
    rw [Shape.rowMajor_val_two, Shape.rowMajor_val_one]; show 0 * 128 + f.val = f.val; omega), dot1_apply]
  refine congrArg (· + _) (Finset.sum_congr rfl fun c' _ => ?_)
  rw [tRow1_apply]

/-- The joined matrix read in its first band, -/
private theorem tJoined_mean (W1 Wv : (⟨S1152x128, .f32⟩ : BufTy).Contents (Elt Ideal)) (M1 : (⟨S1024x256, .f32⟩ : BufTy).Contents (Elt Ideal))
    (d : Fin 1024) (f : Fin 128) :
    tJoined (F := Ideal) W1 Wv M1 (ix2 d ⟨f.val, by omega⟩) = Spec.top (of2 W1) d f := by
  unfold tJoined
  refine (truncf_apply (φ := .f32) (ψ := .bf16) _ bitsLt_bf16_f32 _).trans ?_
  refine (concatenate_apply_piece (1 : Fin S1024x512.rank) [⟨S1024x128, tTop W1⟩, ⟨S1024x128, tTop Wv⟩, ⟨S1024x256, M1⟩] concatenates_S1024x128_S1024x128_S1024x256_S1024x512_d1 (ix2 d ⟨f.val, by omega⟩)
    0 (by show (0 : Nat) < 3; omega) S1024x128 (tTop W1) rfl rfl 0 rfl (ix2 d f) (fun b hb => ?_) ?_).trans (tTop_apply W1 d f)
  · match b, hb with
    | ⟨0, _⟩, _ => rfl
    | ⟨1, _⟩, hb => exact absurd rfl hb
  · show 0 + f.val = f.val; omega
/-- in its middle band, -/
private theorem tJoined_logvar (W1 Wv : (⟨S1152x128, .f32⟩ : BufTy).Contents (Elt Ideal)) (M1 : (⟨S1024x256, .f32⟩ : BufTy).Contents (Elt Ideal))
    (d : Fin 1024) (f : Fin 128) :
    tJoined (F := Ideal) W1 Wv M1 (ix2 d ⟨128 + f.val, by omega⟩) = Spec.top (of2 Wv) d f := by
  unfold tJoined
  refine (truncf_apply (φ := .f32) (ψ := .bf16) _ bitsLt_bf16_f32 _).trans ?_
  refine (concatenate_apply_piece (1 : Fin S1024x512.rank) [⟨S1024x128, tTop W1⟩, ⟨S1024x128, tTop Wv⟩, ⟨S1024x256, M1⟩] concatenates_S1024x128_S1024x128_S1024x256_S1024x512_d1 (ix2 d ⟨128 + f.val, by omega⟩)
    1 (by show (1 : Nat) < 3; omega) S1024x128 (tTop Wv) rfl rfl 128 rfl (ix2 d f) (fun b hb => ?_) ?_).trans (tTop_apply Wv d f)
  · match b, hb with
    | ⟨0, _⟩, _ => rfl
    | ⟨1, _⟩, hb => exact absurd rfl hb
  · show 128 + f.val = 128 + f.val; rfl
/-- and in its last band. -/
private theorem tJoined_mix (W1 Wv : (⟨S1152x128, .f32⟩ : BufTy).Contents (Elt Ideal)) (M1 : (⟨S1024x256, .f32⟩ : BufTy).Contents (Elt Ideal))
    (d : Fin 1024) (j : Fin 256) :
    tJoined (F := Ideal) W1 Wv M1 (ix2 d ⟨256 + j.val, by omega⟩) = of2 M1 d j := by
  unfold tJoined
  refine (truncf_apply (φ := .f32) (ψ := .bf16) _ bitsLt_bf16_f32 _).trans ?_
  refine concatenate_apply_piece (1 : Fin S1024x512.rank) [⟨S1024x128, tTop W1⟩, ⟨S1024x128, tTop Wv⟩, ⟨S1024x256, M1⟩] concatenates_S1024x128_S1024x128_S1024x256_S1024x512_d1 (ix2 d ⟨256 + j.val, by omega⟩)
    2 (by show (2 : Nat) < 3; omega) S1024x256 M1 rfl rfl 256 rfl (ix2 d j) (fun b hb => ?_) ?_
  · match b, hb with
    | ⟨0, _⟩, _ => rfl
    | ⟨1, _⟩, hb => exact absurd rfl hb
  · show 256 + j.val = 256 + j.val; rfl

/-- The hidden states flattened: row `n` of the 1024 is (batch `n / 64`, time `n % 64`). -/
private theorem flat_apply (x : (⟨S16x64x1024, .f32⟩ : BufTy).Contents (Elt Ideal)) (n d : Fin 1024) :
    shapeCast S1024x1024 x shapeCasts_S16x64x1024_S1024x1024 (ix2 n d)
      = x (ix3 (⟨n.val / 64, by omega⟩ : Fin 16) (⟨n.val % 64, by omega⟩ : Fin 64) d) :=
  shapeCast_apply x shapeCasts_S16x64x1024_S1024x1024 (ix2 n d) _ (by
    rw [Shape.rowMajor_val_three, Shape.rowMajor_val_two]
    show (n.val / 64 * 64 + n.val % 64) * 1024 + d.val = n.val * 1024 + d.val
    omega)

end Read2

/-! ## The buffers at entry are these terms of the arguments -/

private theorem e0 : atEntry m c main_v0 = shapeCast S1024x1024 (m ((c : Thread nD τ).loc main_arg0) : (⟨S16x64x1024, .f32⟩ : BufTy).Contents (Elt Ideal)) shapeCasts_S16x64x1024_S1024x1024 := by
  entry_term
private theorem e39 : atEntry m c main_v39 = tJoined (F := Ideal) (m ((c : Thread nD τ).loc main_arg3)) (m ((c : Thread nD τ).loc main_arg9)) (m ((c : Thread nD τ).loc main_arg11)) := by
  entry_term
private theorem e41 : atEntry m c main_v41 = truncf (F := Ideal) .bf16 ((m ((c : Thread nD τ).loc main_arg13)) : (⟨S256x32, .f32⟩ : BufTy).Contents (Elt Ideal)) bitsLt_bf16_f32 := by
  entry_term
private theorem e40 : atEntry m c main_v40 = truncf (F := Ideal) .bf16 ((m ((c : Thread nD τ).loc main_arg7)) : (⟨S128x128, .f32⟩ : BufTy).Contents (Elt Ideal)) bitsLt_bf16_f32 := by
  entry_term
private theorem e35 : atEntry m c main_v35 = tPre (F := Ideal) (m ((c : Thread nD τ).loc main_arg1)) (m ((c : Thread nD τ).loc main_arg2)) (m ((c : Thread nD τ).loc main_arg9)) (m ((c : Thread nD τ).loc main_arg10)) := by
  entry_term
private theorem e22 : atEntry m c main_v22 = tCenT (F := Ideal) (tPre (m ((c : Thread nD τ).loc main_arg1)) (m ((c : Thread nD τ).loc main_arg2)) (m ((c : Thread nD τ).loc main_arg3)) (m ((c : Thread nD τ).loc main_arg4))) := by
  entry_term
private theorem e20 : atEntry m c main_v20 = tVar (F := Ideal) (tPre (m ((c : Thread nD τ).loc main_arg1)) (m ((c : Thread nD τ).loc main_arg2)) (m ((c : Thread nD τ).loc main_arg3)) (m ((c : Thread nD τ).loc main_arg4))) := by
  entry_term
private theorem e26 : atEntry m c main_v26 = tQ (F := Ideal) (tPre (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg7)) := by
  entry_term
private theorem e30 : atEntry m c main_v30 = tR (F := Ideal) (m ((c : Thread nD τ).loc main_arg6)) (m ((c : Thread nD τ).loc main_arg7)) (m ((c : Thread nD τ).loc main_arg8)) := by
  entry_term

/-! ## The eleven operands -/

/-- The hidden states flattened to 1024 rows: row `n` is (batch `n / 64`, time `n % 64`). -/
theorem rows_at (n : Fin 1024) (d : Fin 1024) :
    (atEntry m c main_v0 : S1024x1024.Idx → EReal) (ix2 n d)
      = (m ((c : Thread nD τ).loc main_arg0)) (ix3 (⟨n.val / 64, by omega⟩ : Fin 16) (⟨n.val % 64, by omega⟩ : Fin 64) d) := by
  rw [e0]
  exact flat_apply _ n d

/-- The joined weight matrix: its first band is the top of the mean weights, -/
theorem joined_mean (d : Fin 1024) (f : Fin 128) :
    (atEntry m c main_v39 : S1024x512.Idx → EReal) (ix2 d ⟨f.val, by omega⟩) = Spec.top (of2 (m ((c : Thread nD τ).loc main_arg3))) d f := by
  rw [e39]
  exact tJoined_mean _ _ _ d f
/-- its middle band the top of the log-variance weights, -/
theorem joined_logvar (d : Fin 1024) (f : Fin 128) :
    (atEntry m c main_v39 : S1024x512.Idx → EReal) (ix2 d ⟨128 + f.val, by omega⟩) = Spec.top (of2 (m ((c : Thread nD τ).loc main_arg9))) d f := by
  rw [e39]
  exact tJoined_logvar _ _ _ d f
/-- its last band the first mixture matrix. -/
theorem joined_mix (d : Fin 1024) (j : Fin 256) :
    (atEntry m c main_v39 : S1024x512.Idx → EReal) (ix2 d ⟨256 + j.val, by omega⟩) = of2 (m ((c : Thread nD τ).loc main_arg11)) d j := by
  rw [e39]
  exact tJoined_mix _ _ _ d j

/-- The second mixture matrix and the output matrix are staged as they are (a change of float format only). -/
theorem mix2_at (j : Fin 256) (k : Fin 32) :
    (atEntry m c main_v41 : S256x32.Idx → EReal) (ix2 j k) = of2 (m ((c : Thread nD τ).loc main_arg13)) j k := by
  rw [e41]
  rfl
theorem out_at (c' : Fin 128) (f : Fin 128) :
    (atEntry m c main_v40 : S128x128.Idx → EReal) (ix2 c' f) = of2 (m ((c : Thread nD τ).loc main_arg7)) c' f := by
  rw [e40]
  rfl

/-- The code-side table of the log-variances, bias folded in. -/
theorem lvc_at (k : Fin 32) (f : Fin 128) :
    (atEntry m c main_v35 : S32x128.Idx → EReal) (ix2 k f)
      = Spec.codeProj (of2 (m ((c : Thread nD τ).loc main_arg1))) (of2 (m ((c : Thread nD τ).loc main_arg2))) (of2 (m ((c : Thread nD τ).loc main_arg9))) k f + of1 (m ((c : Thread nD τ).loc main_arg10)) f := by
  rw [e35]
  exact tPre_apply _ _ _ _ k f

/-- The centred code-side vectors of the means, transposed. -/
theorem bT_at (c' : Fin 128) (k : Fin 32) :
    (atEntry m c main_v22 : S128x32.Idx → EReal) (ix2 c' k)
      = Spec.cen (Spec.codePre (of2 (m ((c : Thread nD τ).loc main_arg1))) (of2 (m ((c : Thread nD τ).loc main_arg2))) (of2 (m ((c : Thread nD τ).loc main_arg3))) (of1 (m ((c : Thread nD τ).loc main_arg4))) k) c' := by
  rw [e22, tCenT_apply, tPre_row]
/-- Their variances. -/
theorem vb_at (k : Fin 32) :
    (atEntry m c main_v20 : S32.Idx → EReal) (ix1 k)
      = Spec.var128 (Spec.codePre (of2 (m ((c : Thread nD τ).loc main_arg1))) (of2 (m ((c : Thread nD τ).loc main_arg2))) (of2 (m ((c : Thread nD τ).loc main_arg3))) (of1 (m ((c : Thread nD τ).loc main_arg4))) k) := by
  rw [e20, tVar_apply, tPre_row]
/-- Their scaled projections through the output matrix. -/
theorem q_at (k : Fin 32) (f : Fin 128) :
    (atEntry m c main_v26 : S32x128.Idx → EReal) (ix2 k f)
      = ∑ c' : Fin 128, (Spec.cen (Spec.codePre (of2 (m ((c : Thread nD τ).loc main_arg1))) (of2 (m ((c : Thread nD τ).loc main_arg2))) (of2 (m ((c : Thread nD τ).loc main_arg3))) (of1 (m ((c : Thread nD τ).loc main_arg4))) k) c' * of1 (m ((c : Thread nD τ).loc main_arg5)) c')
          * of2 (m ((c : Thread nD τ).loc main_arg7)) c' f := by
  rw [e26, tQ_apply, tPre_row]
/-- The shift's projection plus the output bias. -/
theorem r_at (f : Fin 128) :
    (atEntry m c main_v30 : S128.Idx → EReal) (ix1 f)
      = (∑ c' : Fin 128, of1 (m ((c : Thread nD τ).loc main_arg6)) c' * of2 (m ((c : Thread nD τ).loc main_arg7)) c' f) + of1 (m ((c : Thread nD τ).loc main_arg8)) f := by
  rw [e30]
  exact tR_apply _ _ _ f

end Cert.KernelIdeal.Entry

end
-- ==== Proof.Algebra.lean ====
/-
  The separated layer norm is the direct one, on real inputs.

  On real inputs every intermediate quantity of either form is (the coercion of) a real number, so the identity
  is one between real numbers. With a the row's projection and β the code-side vector (bias included), the direct form
  normalises a + β. The mean is additive, hence so is the centred part; the variance of the sum is the sum of the
  variances plus (2/128) times the inner product of the centred parts. So both forms take the reciprocal square root
  of the SAME positive real, a scalar s, and the projection of the normalised, scaled and shifted vector splits as
  s·(P + Q) + R by the distributive law.
-/
import proofs.«410282_j21792664060394_3_alg».proof.Proof.Spec
import proofs.«410282_j21792664060394_3_alg».proof.Proof.Consts
import Mathlib.Analysis.SpecialFunctions.Pow.Real

noncomputable section

namespace Cert.Spec

open Idealize.ShloMosaic

/-! ## Coercions -/

/-- The coercion of a finite sum of reals is the sum of the coercions. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Mean, centred part and variance of a real vector of 128 entries. -/
private def meanR (x : Fin 128 → ℝ) : ℝ := (∑ c : Fin 128, x c) * (1 / 128)
private def cenR (x : Fin 128 → ℝ) (c : Fin 128) : ℝ := x c - meanR x
private def varR (x : Fin 128 → ℝ) : ℝ := (∑ c : Fin 128, cenR x c * cenR x c) * (1 / 128)

private theorem mean128_coe (x : Fin 128 → ℝ) : mean128 (fun c => (x c : EReal)) = (meanR x : EReal) := by
  rw [mean128, Consts.lit_128, Ideal.div_coe (by norm_num), ← coe_sum, ← EReal.coe_mul]
  rfl

private theorem cen_coe (x : Fin 128 → ℝ) (c : Fin 128) : cen (fun c => (x c : EReal)) c = (cenR x c : EReal) := by
  rw [cen, mean128_coe, ← EReal.coe_sub]
  rfl

private theorem var128_coe (x : Fin 128 → ℝ) : var128 (fun c => (x c : EReal)) = (varR x : EReal) := by
  rw [var128, Consts.lit_128, Ideal.div_coe (by norm_num)]
  simp only [cen_coe, ← EReal.coe_mul]
  rw [← coe_sum, ← EReal.coe_mul]
  rfl

/-! ## The identity over the reals -/

private theorem meanR_add (a b : Fin 128 → ℝ) : meanR (fun c => a c + b c) = meanR a + meanR b := by
  unfold meanR
  rw [Finset.sum_add_distrib]
  ring

private theorem cenR_add (a b : Fin 128 → ℝ) (c : Fin 128) :
    cenR (fun c => a c + b c) c = cenR a c + cenR b c := by
  unfold cenR
  rw [meanR_add]
  ring

/-- The variance of a sum: the two variances and (2/128) times the inner product of the centred parts. -/
private theorem varR_add (a b : Fin 128 → ℝ) :
    varR (fun c => a c + b c) = (varR a + varR b) + (1 / 64) * ∑ c : Fin 128, cenR a c * cenR b c := by
  unfold varR
  have h : ∀ c : Fin 128, cenR (fun c => a c + b c) c * cenR (fun c => a c + b c) c
      = (cenR a c * cenR a c + cenR b c * cenR b c) + 2 * (cenR a c * cenR b c) := by
    intro c
    rw [cenR_add]
    ring
  simp only [h]
  rw [Finset.sum_add_distrib, Finset.sum_add_distrib, ← Finset.mul_sum]
  ring

/-- Projecting the normalised, scaled and shifted sum: one scalar s in front of the two projections. -/
private theorem proj_split (a b g lb w : Fin 128 → ℝ) (s b2 : ℝ) :
    (∑ c : Fin 128, ((cenR (fun c => a c + b c) c * s) * g c + lb c) * w c) + b2
      = s * ((∑ c : Fin 128, (cenR a c * g c) * w c) + ∑ c : Fin 128, (cenR b c * g c) * w c)
        + ((∑ c : Fin 128, lb c * w c) + b2) := by
  have h : ∀ c : Fin 128, ((cenR (fun c => a c + b c) c * s) * g c + lb c) * w c
      = (s * ((cenR a c * g c) * w c) + s * ((cenR b c * g c) * w c)) + lb c * w c := by
    intro c
    rw [cenR_add]
    ring
  simp only [h]
  rw [Finset.sum_add_distrib, Finset.sum_add_distrib, ← Finset.mul_sum, ← Finset.mul_sum]
  ring

/-! ## The bridge -/

private theorem varR_nonneg (x : Fin 128 → ℝ) : 0 ≤ varR x := by
  unfold varR
  exact mul_nonneg (Finset.sum_nonneg fun c _ => mul_self_nonneg _) (by norm_num)

/-- The reciprocal square root of a positive real is a real. -/
private theorem rsqrt_pos {v : ℝ} (hv : 0 < v) : Ideal.rsqrt (v : EReal) = (((Real.sqrt v)⁻¹ : ℝ) : EReal) := by
  rw [Ideal.rsqrt_coe, if_neg (not_lt.mpr hv.le), if_neg hv.ne']

/-- The two forms on real vectors: a the row's projection, b the code-side vector, w a column of the output matrix. -/
private theorem body_eq (a b g lb w : Fin 128 → ℝ) (b2 : ℝ) :
    meanBody (fun c => (a c : EReal)) (cen (fun c => (b c : EReal))) (fun c => (g c : EReal)) (fun c => (w c : EReal))
        (var128 (fun c => (b c : EReal)))
        (∑ c : Fin 128, (cen (fun c => (b c : EReal)) c * (g c : EReal)) * (w c : EReal))
        ((∑ c : Fin 128, (lb c : EReal) * (w c : EReal)) + (b2 : EReal))
      = Ideal.tanh ((∑ c : Fin 128,
          ((cen (fun c => ((a c + b c : ℝ) : EReal)) c
              * Ideal.rsqrt (var128 (fun c => ((a c + b c : ℝ) : EReal)) + lit 0x3727C5AC#32)) * (g c : EReal)
            + (lb c : EReal)) * (w c : EReal)) + (b2 : EReal)) := by
  obtain ⟨e, he, hE⟩ := Consts.lit_eps
  have hv : 0 < varR (fun c => a c + b c) + e := add_pos_of_nonneg_of_pos (varR_nonneg _) he
  have hv' : 0 < ((varR a + varR b) + (1 / 64) * ∑ c : Fin 128, cenR a c * cenR b c) + e := by
    rw [← varR_add]
    exact hv
  unfold meanBody
  rw [hE, Consts.lit_64th]
  simp only [cen_coe, var128_coe]
  rw [← EReal.coe_add (varR fun c => a c + b c) e, rsqrt_pos hv]
  simp only [← EReal.coe_mul, ← EReal.coe_add, ← coe_sum]
  rw [rsqrt_pos hv', ← EReal.coe_mul, ← EReal.coe_add, proj_split, varR_add]

/-- The row's projection of real data is a real vector. -/
private theorem rowProj_real (row : Fin 1024 → ℝ) (W : Fin 1152 → Fin 128 → ℝ) :
    ∃ a : Fin 128 → ℝ, rowProj (fun d => (row d : EReal)) (fun i j => (W i j : EReal)) = fun c => (a c : EReal) := by
  refine ⟨fun c => ∑ d : Fin 1024, row d * W ⟨d.val, by omega⟩ c, funext fun c => ?_⟩
  show (∑ d : Fin 1024, (row d : EReal) * top (fun i j => (W i j : EReal)) d c)
    = ((∑ d : Fin 1024, row d * W ⟨d.val, by omega⟩ c : ℝ) : EReal)
  rw [coe_sum]
  simp only [top, EReal.coe_mul]

/-- A code's projection of real data is a real vector. -/
private theorem codeProj_real (ce mo : Fin 32 → Fin 128 → ℝ) (W : Fin 1152 → Fin 128 → ℝ) (k : Fin 32) :
    ∃ q : Fin 128 → ℝ, codeProj (fun i j => (ce i j : EReal)) (fun i j => (mo i j : EReal))
      (fun i j => (W i j : EReal)) k = fun c => (q c : EReal) := by
  obtain ⟨m, hm⟩ := Consts.lit_momentum
  obtain ⟨bl, hbl⟩ := Consts.lit_blend
  refine ⟨fun c => ∑ x : Fin 128, (m * mo k x + bl * ce k x) * W ⟨1024 + x.val, by omega⟩ c, funext fun c => ?_⟩
  show (∑ x : Fin 128, code (fun i j => (ce i j : EReal)) (fun i j => (mo i j : EReal)) k x
        * bot (fun i j => (W i j : EReal)) x c)
    = ((∑ x : Fin 128, (m * mo k x + bl * ce k x) * W ⟨1024 + x.val, by omega⟩ c : ℝ) : EReal)
  rw [coe_sum]
  simp only [code, bot, hm, hbl, EReal.coe_mul, EReal.coe_add]

/-- On real inputs the separated form of the means is the direct form. -/
theorem meanKer_eq_meanRef (row : Fin 1024 → EReal) (ce mo : Fin 32 → Fin 128 → EReal) (W1 : Fin 1152 → Fin 128 → EReal)
    (b1 g lb : Fin 128 → EReal) (W2 : Fin 128 → Fin 128 → EReal) (b2 : Fin 128 → EReal)
    (hrow : Real1 row) (hce : Real2 ce) (hmo : Real2 mo) (hW1 : Real2 W1) (hb1 : Real1 b1) (hg : Real1 g) (hlb : Real1 lb)
    (hW2 : Real2 W2) (hb2 : Real1 b2) (k : Fin 32) (f : Fin 128) :
    meanKer row ce mo W1 b1 g lb W2 b2 k f = meanRef row ce mo W1 b1 g lb W2 b2 k f := by
  choose rowR hrowR using hrow
  choose ceR hceR using hce
  choose moR hmoR using hmo
  choose W1R hW1R using hW1
  choose b1R hb1R using hb1
  choose gR hgR using hg
  choose lbR hlbR using hlb
  choose W2R hW2R using hW2
  choose b2R hb2R using hb2
  obtain rfl : row = fun d => (rowR d : EReal) := funext hrowR
  obtain rfl : ce = fun i j => (ceR i j : EReal) := funext fun i => funext (hceR i)
  obtain rfl : mo = fun i j => (moR i j : EReal) := funext fun i => funext (hmoR i)
  obtain rfl : W1 = fun i j => (W1R i j : EReal) := funext fun i => funext (hW1R i)
  obtain rfl : b1 = fun c => (b1R c : EReal) := funext hb1R
  obtain rfl : g = fun c => (gR c : EReal) := funext hgR
  obtain rfl : lb = fun c => (lbR c : EReal) := funext hlbR
  obtain rfl : W2 = fun i j => (W2R i j : EReal) := funext fun i => funext (hW2R i)
  obtain rfl : b2 = fun c => (b2R c : EReal) := funext hb2R
  obtain ⟨a, ha⟩ := rowProj_real rowR W1R
  obtain ⟨q, hq⟩ := codeProj_real ceR moR W1R k
  -- the code-side vector, bias included, and the summed vector
  have hpre : codePre (fun i j => (ceR i j : EReal)) (fun i j => (moR i j : EReal)) (fun i j => (W1R i j : EReal))
      (fun c => (b1R c : EReal)) k = fun c => ((q c + b1R c : ℝ) : EReal) := by
    funext c
    show codeProj (fun i j => (ceR i j : EReal)) (fun i j => (moR i j : EReal)) (fun i j => (W1R i j : EReal)) k c
      + (b1R c : EReal) = _
    rw [hq, EReal.coe_add]
  have hsum : (fun c : Fin 128 => ((a c : EReal) + (q c : EReal)) + (b1R c : EReal))
      = fun c => ((a c + (q c + b1R c) : ℝ) : EReal) := by
    funext c
    rw [← EReal.coe_add, ← EReal.coe_add, add_assoc]
  unfold meanKer meanRef
  rw [hpre]
  simp only [ha, hq]
  rw [hsum]
  exact body_eq a (fun c => q c + b1R c) gR lbR (fun c => W2R c f) (b2R f)

end Cert.Spec

end
-- ==== Proof.Finite.lean ====
/-
  The precondition says of each argument that the absolute value of every entry is below +∞; so every entry is a
  real number.
-/
import proofs.«410282_j21792664060394_3_alg».proof.Defs
import proofs.«410282_j21792664060394_3_alg».proof.Proof.Gen.Pre_finite_inputs
import proofs.«410282_j21792664060394_3_alg».proof.Proof.Gen.KernelIdeal
import Idealize.ShloMosaic.Lib.ValueIdx
import Idealize.ShloMosaic.Lib.ReduceAll
import Idealize.ShloMosaic.PureOps.Ideal.Laws

set_option maxRecDepth 16384

noncomputable section

namespace Cert.Proof.Finite

open Idealize.ShloMosaic Idealize.ShloMosaic.TcCoe Idealize.SL.Sem Cert.KernelIdeal

/-- An entry whose absolute value compares below +∞ is a real number. -/
private theorem real_of_abs_lt_top (a : EReal)
    (e : FloatOps.cmpf (F := Ideal) (φ := .f32) .olt (FloatOps.hostAbsf (F := Ideal) (φ := .f32) a) (Ideal.ofBits .f32 0x7F800000#32) = 1#1) :
    ∃ r : ℝ, a = (r : EReal) := by
  have ht : Ideal.ofBits .f32 0x7F800000#32 = (⊤ : EReal) := by simp [Ideal.ofBits, Ideal.ieee]
  rw [Ideal.hostAbsf_def, Ideal.cmpf_def, Ideal.absf_def, ht] at e
  unfold Ideal.cmp at e
  induction a using EReal.rec with
  | bot => simp at e
  | coe r => exact ⟨r, rfl⟩
  | top => simp at e

private instance : Subsingleton Cert.Pre_finite_inputs.S_.Idx := ⟨fun a b => funext fun d => d.elim0⟩

/-- If the conjunction over all entries of "the absolute value is below +∞" holds, every entry is a real number. -/
private theorem real_of_all {s : Shape} {axes : List (Fin s.rank)} (x : FVec Ideal s .f32)
    (hb : Cert.Pre_finite_inputs.S_.BroadcastsInDim s (![] : Fin 0 → Fin s.rank)) (hr : s.ReducesTo axes Cert.Pre_finite_inputs.S_) (hu : 0 < Cert.Pre_finite_inputs.S_.numel)
    (e : Host.reduce IntOp.andi (cmpf .olt (Host.absf x) (broadcastInDim s ![] hb (constant (F := Ideal) Cert.Pre_finite_inputs.S_ .f32 0x7F800000#32)))
      (constantI Cert.Pre_finite_inputs.S_ 1 1#1) hr hu ValueIdx.ix0 = 1#1) (i : s.Idx) : ∃ r : ℝ, x i = (r : EReal) :=
  real_of_abs_lt_top (x i) (Host.reduce_andi_all _ _ hr hu ValueIdx.ix0 e i)

/-- The precondition, over variables: it is the conjunction of the fifteen arguments' all-entries tests. -/
private theorem fn_all (a0 : FVec Ideal Cert.Pre_finite_inputs.S16x64x1024 .f32) (a1 : FVec Ideal Cert.Pre_finite_inputs.S32x128 .f32) (a2 : FVec Ideal Cert.Pre_finite_inputs.S32x128 .f32) (a3 : FVec Ideal Cert.Pre_finite_inputs.S1152x128 .f32) (a4 : FVec Ideal Cert.Pre_finite_inputs.S128 .f32) (a5 : FVec Ideal Cert.Pre_finite_inputs.S128 .f32) (a6 : FVec Ideal Cert.Pre_finite_inputs.S128 .f32) (a7 : FVec Ideal Cert.Pre_finite_inputs.S128x128 .f32) (a8 : FVec Ideal Cert.Pre_finite_inputs.S128 .f32) (a9 : FVec Ideal Cert.Pre_finite_inputs.S1152x128 .f32) (a10 : FVec Ideal Cert.Pre_finite_inputs.S128 .f32) (a11 : FVec Ideal Cert.Pre_finite_inputs.S1024x256 .f32) (a12 : FVec Ideal Cert.Pre_finite_inputs.S256 .f32) (a13 : FVec Ideal Cert.Pre_finite_inputs.S256x32 .f32) (a14 : FVec Ideal Cert.Pre_finite_inputs.S32 .f32)
    (e : Cert.Pre_finite_inputs.fn (F := Ideal) a0 a1 a2 a3 a4 a5 a6 a7 a8 a9 a10 a11 a12 a13 a14 = fun _ => 1#1) :
    (∀ i, ∃ r : ℝ, a0 i = (r : EReal))
      ∧ (∀ i, ∃ r : ℝ, a1 i = (r : EReal))
      ∧ (∀ i, ∃ r : ℝ, a2 i = (r : EReal))
      ∧ (∀ i, ∃ r : ℝ, a3 i = (r : EReal))
      ∧ (∀ i, ∃ r : ℝ, a4 i = (r : EReal))
      ∧ (∀ i, ∃ r : ℝ, a5 i = (r : EReal))
      ∧ (∀ i, ∃ r : ℝ, a6 i = (r : EReal))
      ∧ (∀ i, ∃ r : ℝ, a7 i = (r : EReal))
      ∧ (∀ i, ∃ r : ℝ, a8 i = (r : EReal))
      ∧ (∀ i, ∃ r : ℝ, a9 i = (r : EReal))
      ∧ (∀ i, ∃ r : ℝ, a10 i = (r : EReal))
      ∧ (∀ i, ∃ r : ℝ, a11 i = (r : EReal))
      ∧ (∀ i, ∃ r : ℝ, a12 i = (r : EReal))
      ∧ (∀ i, ∃ r : ℝ, a13 i = (r : EReal))
      ∧ (∀ i, ∃ r : ℝ, a14 i = (r : EReal)) := by
  have e0 := congrFun e ValueIdx.ix0
  dsimp only [Cert.Pre_finite_inputs.fn, Cert.Pre_finite_inputs.fn_part1, Cert.Pre_finite_inputs.fn_part2, Cert.Pre_finite_inputs.fn_part3, Cert.Pre_finite_inputs.fn_part4] at e0
  obtain ⟨e0, h14⟩ := IntOp.andi_eq_one.1 e0
  obtain ⟨e0, h13⟩ := IntOp.andi_eq_one.1 e0
  obtain ⟨e0, h12⟩ := IntOp.andi_eq_one.1 e0
  obtain ⟨e0, h11⟩ := IntOp.andi_eq_one.1 e0
  obtain ⟨e0, h10⟩ := IntOp.andi_eq_one.1 e0
  obtain ⟨e0, h9⟩ := IntOp.andi_eq_one.1 e0
  obtain ⟨e0, h8⟩ := IntOp.andi_eq_one.1 e0
  obtain ⟨e0, h7⟩ := IntOp.andi_eq_one.1 e0
  obtain ⟨e0, h6⟩ := IntOp.andi_eq_one.1 e0
  obtain ⟨e0, h5⟩ := IntOp.andi_eq_one.1 e0
  obtain ⟨e0, h4⟩ := IntOp.andi_eq_one.1 e0
  obtain ⟨e0, h3⟩ := IntOp.andi_eq_one.1 e0
  obtain ⟨e0, h2⟩ := IntOp.andi_eq_one.1 e0
  obtain ⟨h0, h1⟩ := IntOp.andi_eq_one.1 e0
  exact ⟨real_of_all a0 _ _ _ h0,
    real_of_all a1 _ _ _ h1,
    real_of_all a2 _ _ _ h2,
    real_of_all a3 _ _ _ h3,
    real_of_all a4 _ _ _ h4,
    real_of_all a5 _ _ _ h5,
    real_of_all a6 _ _ _ h6,
    real_of_all a7 _ _ _ h7,
    real_of_all a8 _ _ _ h8,
    real_of_all a9 _ _ _ h9,
    real_of_all a10 _ _ _ h10,
    real_of_all a11 _ _ _ h11,
    real_of_all a12 _ _ _ h12,
    real_of_all a13 _ _ _ h13,
    real_of_all a14 _ _ _ h14⟩

variable (m : (ℓ : Loc nD τ sig) → Buf (Elt Ideal) ℓ)
  (h : Cert.Pre_KernelIdeal (hPre_finite_inputs := Cert.Pre_finite_inputs.Gen.facts) m) (c : Dev nD)
include h

theorem arg0_real (i : S16x64x1024.Idx) : ∃ r : ℝ, (m ((c : Thread nD τ).loc main_arg0) : S16x64x1024.Idx → EReal) i = (r : EReal) :=
  (fn_all _ _ _ _ _ _ _ _ _ _ _ _ _ _ _ (h c)).1 i
theorem arg1_real (i : S32x128.Idx) : ∃ r : ℝ, (m ((c : Thread nD τ).loc main_arg1) : S32x128.Idx → EReal) i = (r : EReal) :=
  (fn_all _ _ _ _ _ _ _ _ _ _ _ _ _ _ _ (h c)).2.1 i
theorem arg2_real (i : S32x128.Idx) : ∃ r : ℝ, (m ((c : Thread nD τ).loc main_arg2) : S32x128.Idx → EReal) i = (r : EReal) :=
  (fn_all _ _ _ _ _ _ _ _ _ _ _ _ _ _ _ (h c)).2.2.1 i
theorem arg3_real (i : S1152x128.Idx) : ∃ r : ℝ, (m ((c : Thread nD τ).loc main_arg3) : S1152x128.Idx → EReal) i = (r : EReal) :=
  (fn_all _ _ _ _ _ _ _ _ _ _ _ _ _ _ _ (h c)).2.2.2.1 i
theorem arg4_real (i : S128.Idx) : ∃ r : ℝ, (m ((c : Thread nD τ).loc main_arg4) : S128.Idx → EReal) i = (r : EReal) :=
  (fn_all _ _ _ _ _ _ _ _ _ _ _ _ _ _ _ (h c)).2.2.2.2.1 i
theorem arg5_real (i : S128.Idx) : ∃ r : ℝ, (m ((c : Thread nD τ).loc main_arg5) : S128.Idx → EReal) i = (r : EReal) :=
  (fn_all _ _ _ _ _ _ _ _ _ _ _ _ _ _ _ (h c)).2.2.2.2.2.1 i
theorem arg6_real (i : S128.Idx) : ∃ r : ℝ, (m ((c : Thread nD τ).loc main_arg6) : S128.Idx → EReal) i = (r : EReal) :=
  (fn_all _ _ _ _ _ _ _ _ _ _ _ _ _ _ _ (h c)).2.2.2.2.2.2.1 i
theorem arg7_real (i : S128x128.Idx) : ∃ r : ℝ, (m ((c : Thread nD τ).loc main_arg7) : S128x128.Idx → EReal) i = (r : EReal) :=
  (fn_all _ _ _ _ _ _ _ _ _ _ _ _ _ _ _ (h c)).2.2.2.2.2.2.2.1 i
theorem arg8_real (i : S128.Idx) : ∃ r : ℝ, (m ((c : Thread nD τ).loc main_arg8) : S128.Idx → EReal) i = (r : EReal) :=
  (fn_all _ _ _ _ _ _ _ _ _ _ _ _ _ _ _ (h c)).2.2.2.2.2.2.2.2.1 i
theorem arg9_real (i : S1152x128.Idx) : ∃ r : ℝ, (m ((c : Thread nD τ).loc main_arg9) : S1152x128.Idx → EReal) i = (r : EReal) :=
  (fn_all _ _ _ _ _ _ _ _ _ _ _ _ _ _ _ (h c)).2.2.2.2.2.2.2.2.2.1 i
theorem arg10_real (i : S128.Idx) : ∃ r : ℝ, (m ((c : Thread nD τ).loc main_arg10) : S128.Idx → EReal) i = (r : EReal) :=
  (fn_all _ _ _ _ _ _ _ _ _ _ _ _ _ _ _ (h c)).2.2.2.2.2.2.2.2.2.2.1 i
theorem arg11_real (i : S1024x256.Idx) : ∃ r : ℝ, (m ((c : Thread nD τ).loc main_arg11) : S1024x256.Idx → EReal) i = (r : EReal) :=
  (fn_all _ _ _ _ _ _ _ _ _ _ _ _ _ _ _ (h c)).2.2.2.2.2.2.2.2.2.2.2.1 i
theorem arg12_real (i : S256.Idx) : ∃ r : ℝ, (m ((c : Thread nD τ).loc main_arg12) : S256.Idx → EReal) i = (r : EReal) :=
  (fn_all _ _ _ _ _ _ _ _ _ _ _ _ _ _ _ (h c)).2.2.2.2.2.2.2.2.2.2.2.2.1 i
theorem arg13_real (i : S256x32.Idx) : ∃ r : ℝ, (m ((c : Thread nD τ).loc main_arg13) : S256x32.Idx → EReal) i = (r : EReal) :=
  (fn_all _ _ _ _ _ _ _ _ _ _ _ _ _ _ _ (h c)).2.2.2.2.2.2.2.2.2.2.2.2.2.1 i
theorem arg14_real (i : S32.Idx) : ∃ r : ℝ, (m ((c : Thread nD τ).loc main_arg14) : S32.Idx → EReal) i = (r : EReal) :=
  (fn_all _ _ _ _ _ _ _ _ _ _ _ _ _ _ _ (h c)).2.2.2.2.2.2.2.2.2.2.2.2.2.2 i

end Cert.Proof.Finite

end
-- ==== Proof.Results.lean ====
/-
  The three results as whole arrays: at (batch, time, code[, column]) the row-wise formulas of the specification,
  with the row of hidden states of that (batch, time).
-/
import proofs.«410282_j21792664060394_3_alg».proof.Proof.Spec

noncomputable section

namespace Cert.Spec

open Idealize.ShloMosaic Idealize.ShloMosaic.ValueIdx

abbrev A1 (n : Nat) := (⟨1, ![n]⟩ : Shape).Idx → EReal
abbrev A2 (n p : Nat) := (⟨2, ![n, p]⟩ : Shape).Idx → EReal
abbrev A3 (n p q : Nat) := (⟨3, ![n, p, q]⟩ : Shape).Idx → EReal
abbrev A4 (n p q r : Nat) := (⟨4, ![n, p, q, r]⟩ : Shape).Idx → EReal

/-- The mixture weights, [16, 64, 32]. -/
def mixRes (h : A3 16 64 1024) (M1 : A2 1024 256) (mb1 : A1 256) (M2 : A2 256 32) (mb2 : A1 32) : A3 16 64 32 := fun i =>
  mix (fun d => of3 h (i 0) (i 1) d) (of2 M1) (of1 mb1) (of2 M2) (of1 mb2) (i 2)

/-- The means, [16, 64, 32, 128]. -/
def meanRes (h : A3 16 64 1024) (ce mo : A2 32 128) (W1 : A2 1152 128) (b1 g lb : A1 128) (W2 : A2 128 128) (b2 : A1 128) :
    A4 16 64 32 128 := fun i =>
  meanRef (fun d => of3 h (i 0) (i 1) d) (of2 ce) (of2 mo) (of2 W1) (of1 b1) (of1 g) (of1 lb) (of2 W2) (of1 b2) (i 2) (i 3)

/-- The log-variances, [16, 64, 32, 128]. -/
def logvarRes (h : A3 16 64 1024) (ce mo : A2 32 128) (Wv : A2 1152 128) (bv : A1 128) : A4 16 64 32 128 := fun i =>
  logvar (fun d => of3 h (i 0) (i 1) d) (of2 ce) (of2 mo) (of2 Wv) (of1 bv) (i 2) (i 3)

end Cert.Spec

end
-- ==== Proof.KValue.lean ====
/-
  What the program leaves in its three results. Each of the launch's three output arrays is covered, block by
  block, by what the eight grid points write back; point t owns rows 128 t … 128 t + 127; and the block a point
  writes is the body's function of the blocks it read, which are those rows of the flattened hidden states and, for
  the eleven operands that do not depend on the rows, the whole operand. So each staged array ends as one function
  of the arrays the launch found; the three reshapes then give it its batch and time axes; and the operands the
  host prepared are the specification's code-side quantities. For the means the separated form the launch computes is
  the direct form on finite inputs.
-/
import proofs.«410282_j21792664060394_3_alg».proof.Proof.KernelIdealWhole
import proofs.«410282_j21792664060394_3_alg».proof.Proof.KPayMix
import proofs.«410282_j21792664060394_3_alg».proof.Proof.KPayMean
import proofs.«410282_j21792664060394_3_alg».proof.Proof.KPayLogvar
import proofs.«410282_j21792664060394_3_alg».proof.Proof.KEntry
import proofs.«410282_j21792664060394_3_alg».proof.Proof.Algebra
import proofs.«410282_j21792664060394_3_alg».proof.Proof.Finite
import proofs.«410282_j21792664060394_3_alg».proof.Proof.Results
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Result

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Around Cert.KernelIdeal.Body Cert.KernelIdeal.Whole Cert.Spec

variable (m : (ℓ : Loc nD τ sig) → Buf (Elt Ideal) ℓ) (ρ : Dev nD → PrngReg) (c : Dev nD)

theorem z1 : (![0] : Fin 1 → Nat) = fun _ => 0 := funext fun a => by fin_cases a; rfl
theorem z2 : (![0, 0] : Fin 2 → Nat) = fun _ => 0 := funext fun a => by fin_cases a <;> rfl
theorem z3 : (![0, 0, 0] : Fin 3 → Nat) = fun _ => 0 := funext fun a => by fin_cases a <;> rfl

/-- The index maps over the eight grid points: the rows' window and the three outputs' move with the point, -/
theorem moves : ∀ t : Fin cfg0.N, win0_0.index t (0 : Fin 2) = t.val ∧ win0_0.index t (1 : Fin 2) = 0
    ∧ win0_12.index t (0 : Fin 2) = t.val ∧ win0_12.index t (1 : Fin 2) = 0
    ∧ win0_13.index t (0 : Fin 3) = t.val ∧ win0_13.index t (1 : Fin 3) = 0 ∧ win0_13.index t (2 : Fin 3) = 0
    ∧ win0_14.index t (0 : Fin 3) = t.val ∧ win0_14.index t (1 : Fin 3) = 0 ∧ win0_14.index t (2 : Fin 3) = 0 :=
  (by decide +kernel : ∀ t : Fin grid0.N, _)
/-- the other eleven stay at their one block. -/
theorem stays : ∀ t : Fin cfg0.N, win0_1.index t (0 : Fin 2) = 0 ∧ win0_1.index t (1 : Fin 2) = 0
    ∧ win0_2.index t (0 : Fin 1) = 0 ∧ win0_3.index t (0 : Fin 2) = 0 ∧ win0_3.index t (1 : Fin 2) = 0
    ∧ win0_4.index t (0 : Fin 1) = 0 ∧ win0_5.index t (0 : Fin 2) = 0 ∧ win0_5.index t (1 : Fin 2) = 0
    ∧ win0_6.index t (0 : Fin 2) = 0 ∧ win0_6.index t (1 : Fin 2) = 0 ∧ win0_7.index t (0 : Fin 1) = 0
    ∧ win0_8.index t (0 : Fin 2) = 0 ∧ win0_8.index t (1 : Fin 2) = 0 ∧ win0_9.index t (0 : Fin 1) = 0
    ∧ win0_10.index t (0 : Fin 1) = 0 ∧ win0_11.index t (0 : Fin 2) = 0 ∧ win0_11.index t (1 : Fin 2) = 0 :=
  (by decide +kernel : ∀ t : Fin grid0.N, _)

/-! ## The blocks the body reads, as parts of the arrays the launch finds -/

/-- The flattened hidden states and the joined weight matrix as the launch finds them, at their literal types. -/
abbrev rowsE : S1024x1024.Idx → EReal := atEntry m c main_v0
abbrev joinedE : S1024x512.Idx → EReal := atEntry m c main_v39

/-- Row r of point t's block is row 128 t + r of the arrays with 1024 rows. -/
def rowAt (t : Fin cfg0.N) (r : Fin 128) : Fin 1024 :=
  ⟨t.val * 128 + r.val, by have := t.isLt; have hN : cfg0.N = 8 := N_0; omega⟩

/-- The rows' block at point t: rows 128 t … 128 t + 127 of the flattened hidden states. -/
theorem rows_block (t : Fin cfg0.N) (r : Fin 128) (d : Fin 1024) :
    (blockAt m c 0 t : Vec Ideal S128x1024 .f32) (ix2 r d)
      = (atEntry m c main_v0 : S1024x1024.Idx → EReal) (ix2 (rowAt t r) d) := by
  obtain ⟨e0, e1, -⟩ := moves t
  show atEntry m c main_v0 (((cfg0.win 0).blk t).view.emb (ix2 r d)) = _
  congr 1
  funext a; apply Fin.ext
  match a with
  | ⟨0, _⟩ => show win0_0.index t (0 : Fin 2) * 128 + 1 * r.val = t.val * 128 + r.val; omega
  | ⟨1, _⟩ => show win0_0.index t (1 : Fin 2) * 1024 + 1 * d.val = d.val; omega

/-! A window whose one block is its whole array: the block IS the array. -/
theorem joined_block (t : Fin cfg0.N) : (blockAt m c 1 t : Vec Ideal S1024x512 .bf16) = (atEntry m c main_v39 : S1024x512.Idx → EReal) := by
  obtain ⟨s10, s11, s20, s30, s31, s40, s50, s51, s60, s61, s70, s80, s81, s90, s100, s110, s111⟩ := stays t
  funext y
  show atEntry m c main_v39 (((cfg0.win 1).blk t).view.emb y) = _
  congr 1
  funext a; apply Fin.ext
  match a with
  | ⟨0, _⟩ => show win0_1.index t (0 : Fin 2) * 1024 + 1 * (y 0).val = (y 0).val; omega
  | ⟨1, _⟩ => show win0_1.index t (1 : Fin 2) * 512 + 1 * (y 1).val = (y 1).val; omega
theorem hb_block (t : Fin cfg0.N) : (blockAt m c 2 t : Vec Ideal S256 .f32) = (atEntry m c main_arg12 : S256.Idx → EReal) := by
  obtain ⟨s10, s11, s20, s30, s31, s40, s50, s51, s60, s61, s70, s80, s81, s90, s100, s110, s111⟩ := stays t
  funext y
  show atEntry m c main_arg12 (((cfg0.win 2).blk t).view.emb y) = _
  congr 1
  funext a; apply Fin.ext
  match a with
  | ⟨0, _⟩ => show win0_2.index t (0 : Fin 1) * 256 + 1 * (y 0).val = (y 0).val; omega
theorem mix2_block (t : Fin cfg0.N) : (blockAt m c 3 t : Vec Ideal S256x32 .bf16) = (atEntry m c main_v41 : S256x32.Idx → EReal) := by
  obtain ⟨s10, s11, s20, s30, s31, s40, s50, s51, s60, s61, s70, s80, s81, s90, s100, s110, s111⟩ := stays t
  funext y
  show atEntry m c main_v41 (((cfg0.win 3).blk t).view.emb y) = _
  congr 1
  funext a; apply Fin.ext
  match a with
  | ⟨0, _⟩ => show win0_3.index t (0 : Fin 2) * 256 + 1 * (y 0).val = (y 0).val; omega
  | ⟨1, _⟩ => show win0_3.index t (1 : Fin 2) * 32 + 1 * (y 1).val = (y 1).val; omega
theorem ob_block (t : Fin cfg0.N) : (blockAt m c 4 t : Vec Ideal S32 .f32) = (atEntry m c main_arg14 : S32.Idx → EReal) := by
  obtain ⟨s10, s11, s20, s30, s31, s40, s50, s51, s60, s61, s70, s80, s81, s90, s100, s110, s111⟩ := stays t
  funext y
  show atEntry m c main_arg14 (((cfg0.win 4).blk t).view.emb y) = _
  congr 1
  funext a; apply Fin.ext
  match a with
  | ⟨0, _⟩ => show win0_4.index t (0 : Fin 1) * 32 + 1 * (y 0).val = (y 0).val; omega
theorem lc_block (t : Fin cfg0.N) : (blockAt m c 5 t : Vec Ideal S32x128 .f32) = (atEntry m c main_v35 : S32x128.Idx → EReal) := by
  obtain ⟨s10, s11, s20, s30, s31, s40, s50, s51, s60, s61, s70, s80, s81, s90, s100, s110, s111⟩ := stays t
  funext y
  show atEntry m c main_v35 (((cfg0.win 5).blk t).view.emb y) = _
  congr 1
  funext a; apply Fin.ext
  match a with
  | ⟨0, _⟩ => show win0_5.index t (0 : Fin 2) * 32 + 1 * (y 0).val = (y 0).val; omega
  | ⟨1, _⟩ => show win0_5.index t (1 : Fin 2) * 128 + 1 * (y 1).val = (y 1).val; omega
theorem bT_block (t : Fin cfg0.N) : (blockAt m c 6 t : Vec Ideal S128x32 .bf16) = (atEntry m c main_v22 : S128x32.Idx → EReal) := by
  obtain ⟨s10, s11, s20, s30, s31, s40, s50, s51, s60, s61, s70, s80, s81, s90, s100, s110, s111⟩ := stays t
  funext y
  show atEntry m c main_v22 (((cfg0.win 6).blk t).view.emb y) = _
  congr 1
  funext a; apply Fin.ext
  match a with
  | ⟨0, _⟩ => show win0_6.index t (0 : Fin 2) * 128 + 1 * (y 0).val = (y 0).val; omega
  | ⟨1, _⟩ => show win0_6.index t (1 : Fin 2) * 32 + 1 * (y 1).val = (y 1).val; omega
theorem vb_block (t : Fin cfg0.N) : (blockAt m c 7 t : Vec Ideal S32 .f32) = (atEntry m c main_v20 : S32.Idx → EReal) := by
  obtain ⟨s10, s11, s20, s30, s31, s40, s50, s51, s60, s61, s70, s80, s81, s90, s100, s110, s111⟩ := stays t
  funext y
  show atEntry m c main_v20 (((cfg0.win 7).blk t).view.emb y) = _
  congr 1
  funext a; apply Fin.ext
  match a with
  | ⟨0, _⟩ => show win0_7.index t (0 : Fin 1) * 32 + 1 * (y 0).val = (y 0).val; omega
theorem q_block (t : Fin cfg0.N) : (blockAt m c 8 t : Vec Ideal S32x128 .f32) = (atEntry m c main_v26 : S32x128.Idx → EReal) := by
  obtain ⟨s10, s11, s20, s30, s31, s40, s50, s51, s60, s61, s70, s80, s81, s90, s100, s110, s111⟩ := stays t
  funext y
  show atEntry m c main_v26 (((cfg0.win 8).blk t).view.emb y) = _
  congr 1
  funext a; apply Fin.ext
  match a with
  | ⟨0, _⟩ => show win0_8.index t (0 : Fin 2) * 32 + 1 * (y 0).val = (y 0).val; omega
  | ⟨1, _⟩ => show win0_8.index t (1 : Fin 2) * 128 + 1 * (y 1).val = (y 1).val; omega
theorem rr_block (t : Fin cfg0.N) : (blockAt m c 9 t : Vec Ideal S128 .f32) = (atEntry m c main_v30 : S128.Idx → EReal) := by
  obtain ⟨s10, s11, s20, s30, s31, s40, s50, s51, s60, s61, s70, s80, s81, s90, s100, s110, s111⟩ := stays t
  funext y
  show atEntry m c main_v30 (((cfg0.win 9).blk t).view.emb y) = _
  congr 1
  funext a; apply Fin.ext
  match a with
  | ⟨0, _⟩ => show win0_9.index t (0 : Fin 1) * 128 + 1 * (y 0).val = (y 0).val; omega
theorem g_block (t : Fin cfg0.N) : (blockAt m c 10 t : Vec Ideal S128 .f32) = (atEntry m c main_arg5 : S128.Idx → EReal) := by
  obtain ⟨s10, s11, s20, s30, s31, s40, s50, s51, s60, s61, s70, s80, s81, s90, s100, s110, s111⟩ := stays t
  funext y
  show atEntry m c main_arg5 (((cfg0.win 10).blk t).view.emb y) = _
  congr 1
  funext a; apply Fin.ext
  match a with
  | ⟨0, _⟩ => show win0_10.index t (0 : Fin 1) * 128 + 1 * (y 0).val = (y 0).val; omega
theorem wo_block (t : Fin cfg0.N) : (blockAt m c 11 t : Vec Ideal S128x128 .bf16) = (atEntry m c main_v40 : S128x128.Idx → EReal) := by
  obtain ⟨s10, s11, s20, s30, s31, s40, s50, s51, s60, s61, s70, s80, s81, s90, s100, s110, s111⟩ := stays t
  funext y
  show atEntry m c main_v40 (((cfg0.win 11).blk t).view.emb y) = _
  congr 1
  funext a; apply Fin.ext
  match a with
  | ⟨0, _⟩ => show win0_11.index t (0 : Fin 2) * 128 + 1 * (y 0).val = (y 0).val; omega
  | ⟨1, _⟩ => show win0_11.index t (1 : Fin 2) * 128 + 1 * (y 1).val = (y 1).val; omega

/-! ## The mixture weights -/

/-- Row n, code k of the staged mixture array after the launch, from the arrays the launch finds. -/
def mixRow (n : Fin 1024) (k : Fin 32) : EReal :=
  Spec.mix (fun d => (atEntry m c main_v0 : S1024x1024.Idx → EReal) (ix2 n d))
    (fun d j => (atEntry m c main_v39 : S1024x512.Idx → EReal) (ix2 d ⟨256 + j.val, by omega⟩))
    (fun j => (atEntry m c main_arg12 : S256.Idx → EReal) (ix1 j))
    (fun j k => (atEntry m c main_v41 : S256x32.Idx → EReal) (ix2 j k))
    (fun k => (atEntry m c main_arg14 : S32.Idx → EReal) (ix1 k)) k
def mixArr : S1024x32.Idx → EReal := fun i => mixRow m c (i 0) (i 1)

/-- The stored block at point t, entry by entry. -/
theorem mix_block (t : Fin cfg0.N) (y : S128x32.Idx) :
    (k0_pay4 (blockAt m c 0 t) (blockAt m c 1 t) (blockAt m c 2 t) (blockAt m c 3 t) (blockAt m c 4 t) : Vec Ideal S128x32 .f32) y
      = mixArr m c (ix2 (rowAt t (y 0)) (y 1)) := by
  obtain ⟨r, k, rfl⟩ : ∃ (r : Fin 128) (k : Fin 32), y = ix2 r k := ⟨y 0, y 1, eq_ix2 y⟩
  refine (Pay.mix_at _ _ _ _ _ r k).trans ?_
  show _ = mixRow m c (rowAt t r) k
  unfold mixRow
  simp only [rows_block, joined_block, hb_block, mix2_block, ob_block]

set_option maxHeartbeats 400000 in
/-- What point t writes back is block t of that array. -/
theorem mix_flushed (t : Fin cfg0.N) :
    (pdat m 0 c).flushed 12 t = ((cfg0.win 12).blk t).view.read (Elt Ideal) (mixArr m c) := by
  show (cfg0.win 12).cut (grid0.coords t) ((pdat m 0 c).after 12 t) = _
  rw [left12]
  unfold mixOut
  rw [View.canon_unit_zero z2]
  simp only [View.ld_unit_zero (S := S128x1024) z2, View.ld_unit_zero (S := S1024x512) z2, View.ld_unit_zero (S := S256) z1, View.ld_unit_zero (S := S256x32) z2, View.ld_unit_zero (S := S32) z1]
  obtain ⟨-, -, e0, e1, -⟩ := moves t
  have key : (k0_pay4 (blockAt m c 0 t) (blockAt m c 1 t) (blockAt m c 2 t) (blockAt m c 3 t) (blockAt m c 4 t) : Vec Ideal S128x32 .f32)
      = fun y : S128x32.Idx => mixArr m c (ix2 (rowAt t (y 0)) (y 1)) :=
    funext fun y => mix_block m c t y
  rw [key]
  funext j
  show mixArr m c (ix2 (rowAt t (((win0 12).xinj (grid0.coords t) j) 0)) (((win0 12).xinj (grid0.coords t) j) 1))
    = mixArr m c (((cfg0.win 12).blk t).view.emb j)
  congr 1
  funext a; apply Fin.ext
  match a with
  | ⟨0, _⟩ => show t.val * 128 + (j 0).val = win0_12.index t (0 : Fin 2) * 128 + 1 * (j 0).val; omega
  | ⟨1, _⟩ => show (j 1).val = win0_12.index t (1 : Fin 2) * 32 + 1 * (j 1).val; omega

/-- Every row of the array lies in the block of the point that owns it. -/
theorem mix_cover (i : S1024x32.Idx) : ∃ t : Fin cfg0.N, (cfg0.win 12).flush t = true ∧ i ∈ ((cfg0.win 12).blk t).view.set := by
  have h0 : (i 0).val < 1024 := (i 0).isLt
  have h1 : (i 1).val < 32 := (i 1).isLt
  have hN : cfg0.N = 8 := N_0
  let t0 : Fin cfg0.N := ⟨(i 0).val / 128, by omega⟩
  refine ⟨t0, flush0_12 t0, ?_⟩
  obtain ⟨-, -, e0, e1, -⟩ := moves t0
  have ht0 : t0.val = (i 0).val / 128 := rfl
  show i ∈ ((View.whole main_v42_0).slice (win0_12.rect t0)).set
  rw [View.set_slice_whole, Rect.mem_set_unit]
  intro a
  match a with
  | ⟨0, _⟩ => show win0_12.index t0 (0 : Fin 2) * 128 ≤ (i 0).val ∧ (i 0).val < win0_12.index t0 (0 : Fin 2) * 128 + 128; omega
  | ⟨1, _⟩ => show win0_12.index t0 (1 : Fin 2) * 32 ≤ (i 1).val ∧ (i 1).val < win0_12.index t0 (1 : Fin 2) * 32 + 32; omega

theorem mix_final : (pdat m 0 c).arrAt 12 cfg0.N = mixArr m c :=
  (pdat m 0 c).arrAt_eq_of_cover 12 (mixArr m c) (fun t _ => mix_flushed m c t) (mix_cover)

/-! ## The means -/

/-- Row n, code k, column f of the staged array of means after the launch, from the arrays the launch finds. -/
def meanRow (n : Fin 1024) (k : Fin 32) (f : Fin 128) : EReal :=
  Spec.meanBody (fun c' => ∑ d : Fin 1024, rowsE m c (ix2 n d) * joinedE m c (ix2 d ⟨c'.val, by omega⟩))
    (fun c' => (atEntry m c main_v22 : S128x32.Idx → EReal) (ix2 c' k))
    (fun c' => (atEntry m c main_arg5 : S128.Idx → EReal) (ix1 c'))
    (fun c' => (atEntry m c main_v40 : S128x128.Idx → EReal) (ix2 c' f))
    ((atEntry m c main_v20 : S32.Idx → EReal) (ix1 k))
    ((atEntry m c main_v26 : S32x128.Idx → EReal) (ix2 k f))
    ((atEntry m c main_v30 : S128.Idx → EReal) (ix1 f))
def meanArr : S1024x32x128.Idx → EReal := fun i => meanRow m c (i 0) (i 1) (i 2)

/-- The stored block at point t, entry by entry. -/
theorem mean_block (t : Fin cfg0.N) (y : S128x32x128.Idx) :
    (k0_pay6 (k0_pay5 (blockAt m c 0 t) (blockAt m c 1 t)) (blockAt m c 6 t) (blockAt m c 7 t) (blockAt m c 10 t) (blockAt m c 11 t) (blockAt m c 8 t) (blockAt m c 9 t) : Vec Ideal S128x32x128 .f32) y
      = meanArr m c (ix3 (rowAt t (y 0)) (y 1) (y 2)) := by
  obtain ⟨r, k, f, rfl⟩ : ∃ (r : Fin 128) (k : Fin 32) (f : Fin 128), y = ix3 r k f := ⟨y 0, y 1, y 2, eq_ix3 y⟩
  refine (Pay.mean_at _ _ _ _ _ _ _ _ r k f).trans ?_
  show _ = meanRow m c (rowAt t r) k f
  unfold meanRow
  simp only [rows_block, joined_block, bT_block, vb_block, g_block, wo_block, q_block, rr_block]

set_option maxHeartbeats 400000 in
/-- What point t writes back is block t of that array. -/
theorem mean_flushed (t : Fin cfg0.N) :
    (pdat m 0 c).flushed 13 t = ((cfg0.win 13).blk t).view.read (Elt Ideal) (meanArr m c) := by
  show (cfg0.win 13).cut (grid0.coords t) ((pdat m 0 c).after 13 t) = _
  rw [left13]
  unfold meanOut
  rw [View.canon_unit_zero z3]
  simp only [View.ld_unit_zero (S := S128x1024) z2, View.ld_unit_zero (S := S1024x512) z2, View.ld_unit_zero (S := S128x32) z2, View.ld_unit_zero (S := S32) z1, View.ld_unit_zero (S := S32x128) z2, View.ld_unit_zero (S := S128) z1, View.ld_unit_zero (S := S128x128) z2]
  obtain ⟨-, -, -, -, e0, e1, e2, -⟩ := moves t
  have key : (k0_pay6 (k0_pay5 (blockAt m c 0 t) (blockAt m c 1 t)) (blockAt m c 6 t) (blockAt m c 7 t) (blockAt m c 10 t) (blockAt m c 11 t) (blockAt m c 8 t) (blockAt m c 9 t) : Vec Ideal S128x32x128 .f32)
      = fun y : S128x32x128.Idx => meanArr m c (ix3 (rowAt t (y 0)) (y 1) (y 2)) :=
    funext fun y => mean_block m c t y
  rw [key]
  funext j
  show meanArr m c (ix3 (rowAt t (((win0 13).xinj (grid0.coords t) j) 0)) (((win0 13).xinj (grid0.coords t) j) 1) (((win0 13).xinj (grid0.coords t) j) 2))
    = meanArr m c (((cfg0.win 13).blk t).view.emb j)
  congr 1
  funext a; apply Fin.ext
  match a with
  | ⟨0, _⟩ => show t.val * 128 + (j 0).val = win0_13.index t (0 : Fin 3) * 128 + 1 * (j 0).val; omega
  | ⟨1, _⟩ => show (j 1).val = win0_13.index t (1 : Fin 3) * 32 + 1 * (j 1).val; omega
  | ⟨2, _⟩ => show (j 2).val = win0_13.index t (2 : Fin 3) * 128 + 1 * (j 2).val; omega

theorem mean_cover (i : S1024x32x128.Idx) : ∃ t : Fin cfg0.N, (cfg0.win 13).flush t = true ∧ i ∈ ((cfg0.win 13).blk t).view.set := by
  have h0 : (i 0).val < 1024 := (i 0).isLt
  have h1 : (i 1).val < 32 := (i 1).isLt
  have h2 : (i 2).val < 128 := (i 2).isLt
  have hN : cfg0.N = 8 := N_0
  let t0 : Fin cfg0.N := ⟨(i 0).val / 128, by omega⟩
  refine ⟨t0, flush0_13 t0, ?_⟩
  obtain ⟨-, -, -, -, e0, e1, e2, -⟩ := moves t0
  have ht0 : t0.val = (i 0).val / 128 := rfl
  show i ∈ ((View.whole main_v42_1).slice (win0_13.rect t0)).set
  rw [View.set_slice_whole, Rect.mem_set_unit]
  intro a
  match a with
  | ⟨0, _⟩ => show win0_13.index t0 (0 : Fin 3) * 128 ≤ (i 0).val ∧ (i 0).val < win0_13.index t0 (0 : Fin 3) * 128 + 128; omega
  | ⟨1, _⟩ => show win0_13.index t0 (1 : Fin 3) * 32 ≤ (i 1).val ∧ (i 1).val < win0_13.index t0 (1 : Fin 3) * 32 + 32; omega
  | ⟨2, _⟩ => show win0_13.index t0 (2 : Fin 3) * 128 ≤ (i 2).val ∧ (i 2).val < win0_13.index t0 (2 : Fin 3) * 128 + 128; omega

theorem mean_final : (pdat m 0 c).arrAt 13 cfg0.N = meanArr m c :=
  (pdat m 0 c).arrAt_eq_of_cover 13 (meanArr m c) (fun t _ => mean_flushed m c t) (mean_cover)

/-! ## The log-variances -/

/-- Row n, code k, column f of the staged array of log-variances after the launch. -/
def logvarRow (n : Fin 1024) (k : Fin 32) (f : Fin 128) : EReal :=
  Spec.clipLv ((∑ d : Fin 1024, rowsE m c (ix2 n d) * joinedE m c (ix2 d ⟨128 + f.val, by omega⟩))
    + (atEntry m c main_v35 : S32x128.Idx → EReal) (ix2 k f))
def logvarArr : S1024x32x128.Idx → EReal := fun i => logvarRow m c (i 0) (i 1) (i 2)

/-- The stored block at point t, entry by entry. -/
theorem logvar_block (t : Fin cfg0.N) (y : S128x32x128.Idx) :
    (k0_pay1 (k0_pay3 (blockAt m c 0 t) (blockAt m c 1 t)) (blockAt m c 5 t) : Vec Ideal S128x32x128 .f32) y
      = logvarArr m c (ix3 (rowAt t (y 0)) (y 1) (y 2)) := by
  obtain ⟨r, k, f, rfl⟩ : ∃ (r : Fin 128) (k : Fin 32) (f : Fin 128), y = ix3 r k f := ⟨y 0, y 1, y 2, eq_ix3 y⟩
  refine (Pay.logvar_at _ _ _ r k f).trans ?_
  show _ = logvarRow m c (rowAt t r) k f
  unfold logvarRow
  simp only [rows_block, joined_block, lc_block]

set_option maxHeartbeats 400000 in
/-- What point t writes back is block t of that array. -/
theorem logvar_flushed (t : Fin cfg0.N) :
    (pdat m 0 c).flushed 14 t = ((cfg0.win 14).blk t).view.read (Elt Ideal) (logvarArr m c) := by
  show (cfg0.win 14).cut (grid0.coords t) ((pdat m 0 c).after 14 t) = _
  rw [left14]
  unfold logvarOut
  rw [View.canon_unit_zero z3]
  simp only [View.ld_unit_zero (S := S128x1024) z2, View.ld_unit_zero (S := S1024x512) z2, View.ld_unit_zero (S := S32x128) z2]
  obtain ⟨-, -, -, -, -, -, -, e0, e1, e2⟩ := moves t
  have key : (k0_pay1 (k0_pay3 (blockAt m c 0 t) (blockAt m c 1 t)) (blockAt m c 5 t) : Vec Ideal S128x32x128 .f32)
      = fun y : S128x32x128.Idx => logvarArr m c (ix3 (rowAt t (y 0)) (y 1) (y 2)) :=
    funext fun y => logvar_block m c t y
  rw [key]
  funext j
  show logvarArr m c (ix3 (rowAt t (((win0 14).xinj (grid0.coords t) j) 0)) (((win0 14).xinj (grid0.coords t) j) 1) (((win0 14).xinj (grid0.coords t) j) 2))
    = logvarArr m c (((cfg0.win 14).blk t).view.emb j)
  congr 1
  funext a; apply Fin.ext
  match a with
  | ⟨0, _⟩ => show t.val * 128 + (j 0).val = win0_14.index t (0 : Fin 3) * 128 + 1 * (j 0).val; omega
  | ⟨1, _⟩ => show (j 1).val = win0_14.index t (1 : Fin 3) * 32 + 1 * (j 1).val; omega
  | ⟨2, _⟩ => show (j 2).val = win0_14.index t (2 : Fin 3) * 128 + 1 * (j 2).val; omega

theorem logvar_cover (i : S1024x32x128.Idx) : ∃ t : Fin cfg0.N, (cfg0.win 14).flush t = true ∧ i ∈ ((cfg0.win 14).blk t).view.set := by
  have h0 : (i 0).val < 1024 := (i 0).isLt
  have h1 : (i 1).val < 32 := (i 1).isLt
  have h2 : (i 2).val < 128 := (i 2).isLt
  have hN : cfg0.N = 8 := N_0
  let t0 : Fin cfg0.N := ⟨(i 0).val / 128, by omega⟩
  refine ⟨t0, flush0_14 t0, ?_⟩
  obtain ⟨-, -, -, -, -, -, -, e0, e1, e2⟩ := moves t0
  have ht0 : t0.val = (i 0).val / 128 := rfl
  show i ∈ ((View.whole main_v42_2).slice (win0_14.rect t0)).set
  rw [View.set_slice_whole, Rect.mem_set_unit]
  intro a
  match a with
  | ⟨0, _⟩ => show win0_14.index t0 (0 : Fin 3) * 128 ≤ (i 0).val ∧ (i 0).val < win0_14.index t0 (0 : Fin 3) * 128 + 128; omega
  | ⟨1, _⟩ => show win0_14.index t0 (1 : Fin 3) * 32 ≤ (i 1).val ∧ (i 1).val < win0_14.index t0 (1 : Fin 3) * 32 + 32; omega
  | ⟨2, _⟩ => show win0_14.index t0 (2 : Fin 3) * 128 ≤ (i 2).val ∧ (i 2).val < win0_14.index t0 (2 : Fin 3) * 128 + 128; omega

theorem logvar_final : (pdat m 0 c).arrAt 14 cfg0.N = logvarArr m c :=
  (pdat m 0 c).arrAt_eq_of_cover 14 (logvarArr m c) (fun t _ => logvar_flushed m c t) (logvar_cover)

/-! ## After the three reshapes -/

/-- (batch b, time t) is row 64 b + t of the flattened arrays. -/
def flat (b : Fin 16) (t : Fin 64) : Fin 1024 := ⟨b.val * 64 + t.val, by omega⟩

theorem mix_tail :
    (Pipeline.afterTail₀ cfgs (pdat m) 0 (entry m) [hostOps1] c main_v43 : S16x64x32.Idx → EReal)
      = fun i => mixArr m c (ix2 (flat (i 0) (i 1)) (i 2)) := by
  unfold Pipeline.afterTail₀
  show StableHlo.after hostOps1 _ (Proc.devRef .tc main_v43) = _
  after_results
  have e : Pipeline.withArrays (cfgs 0).spec c (entry m c) (fun w => (pdat m 0 c).arrAt w (cfgs 0).N) (Proc.devRef .tc main_v42_0) = mixArr m c :=
    (Pipeline.withArrays_arr spec0 launch0.win.arr_inj c _ _ 12).trans (mix_final m c)
  funext (i : S16x64x32.Idx)
  obtain ⟨b, t, k, rfl⟩ : ∃ (b : Fin 16) (t : Fin 64) (k : Fin 32), i = ix3 b t k := ⟨i 0, i 1, i 2, eq_ix3 i⟩
  show shapeCast S16x64x32 (Pipeline.withArrays (cfgs 0).spec c (entry m c) (fun w => (pdat m 0 c).arrAt w (cfgs 0).N) (Proc.devRef .tc main_v42_0)) shapeCasts_S1024x32_S16x64x32 (ix3 b t k)
    = mixArr m c (ix2 (flat b t) k)
  rw [e]
  refine shapeCast_apply (s := S1024x32) (t := S16x64x32) _ _ _ _ ?_
  rw [Shape.rowMajor_val_two, Shape.rowMajor_val_three]
  rfl

theorem mean_tail :
    (Pipeline.afterTail₀ cfgs (pdat m) 0 (entry m) [hostOps1] c main_v44 : S16x64x32x128.Idx → EReal)
      = fun i => meanArr m c (ix3 (flat (i 0) (i 1)) (i 2) (i 3)) := by
  unfold Pipeline.afterTail₀
  show StableHlo.after hostOps1 _ (Proc.devRef .tc main_v44) = _
  after_results
  have e : Pipeline.withArrays (cfgs 0).spec c (entry m c) (fun w => (pdat m 0 c).arrAt w (cfgs 0).N) (Proc.devRef .tc main_v42_1) = meanArr m c :=
    (Pipeline.withArrays_arr spec0 launch0.win.arr_inj c _ _ 13).trans (mean_final m c)
  funext (i : S16x64x32x128.Idx)
  obtain ⟨b, t, k, f, rfl⟩ : ∃ (b : Fin 16) (t : Fin 64) (k : Fin 32) (f : Fin 128), i = ix4 b t k f := ⟨i 0, i 1, i 2, i 3, eq_ix4 i⟩
  show shapeCast S16x64x32x128 (Pipeline.withArrays (cfgs 0).spec c (entry m c) (fun w => (pdat m 0 c).arrAt w (cfgs 0).N) (Proc.devRef .tc main_v42_1)) shapeCasts_S1024x32x128_S16x64x32x128 (ix4 b t k f)
    = meanArr m c (ix3 (flat b t) k f)
  rw [e]
  refine shapeCast_apply (s := S1024x32x128) (t := S16x64x32x128) _ _ _ _ ?_
  rw [Shape.rowMajor_val_three, Shape.rowMajor_val_four]
  rfl

theorem logvar_tail :
    (Pipeline.afterTail₀ cfgs (pdat m) 0 (entry m) [hostOps1] c main_v45 : S16x64x32x128.Idx → EReal)
      = fun i => logvarArr m c (ix3 (flat (i 0) (i 1)) (i 2) (i 3)) := by
  unfold Pipeline.afterTail₀
  show StableHlo.after hostOps1 _ (Proc.devRef .tc main_v45) = _
  after_results
  have e : Pipeline.withArrays (cfgs 0).spec c (entry m c) (fun w => (pdat m 0 c).arrAt w (cfgs 0).N) (Proc.devRef .tc main_v42_2) = logvarArr m c :=
    (Pipeline.withArrays_arr spec0 launch0.win.arr_inj c _ _ 14).trans (logvar_final m c)
  funext (i : S16x64x32x128.Idx)
  obtain ⟨b, t, k, f, rfl⟩ : ∃ (b : Fin 16) (t : Fin 64) (k : Fin 32) (f : Fin 128), i = ix4 b t k f := ⟨i 0, i 1, i 2, i 3, eq_ix4 i⟩
  show shapeCast S16x64x32x128 (Pipeline.withArrays (cfgs 0).spec c (entry m c) (fun w => (pdat m 0 c).arrAt w (cfgs 0).N) (Proc.devRef .tc main_v42_2)) shapeCasts_S1024x32x128_S16x64x32x128 (ix4 b t k f)
    = logvarArr m c (ix3 (flat b t) k f)
  rw [e]
  refine shapeCast_apply (s := S1024x32x128) (t := S16x64x32x128) _ _ _ _ ?_
  rw [Shape.rowMajor_val_three, Shape.rowMajor_val_four]
  rfl

/-! ## The results, from the arguments -/

/-- The row-wise formulas depend on their arguments only through their values. -/
theorem mix_congr {r r' : Fin 1024 → EReal} {M1 M1' : Fin 1024 → Fin 256 → EReal} {b1 b1' : Fin 256 → EReal}
    {M2 M2' : Fin 256 → Fin 32 → EReal} {b2 b2' : Fin 32 → EReal} (h1 : r = r') (h2 : M1 = M1') (h3 : b1 = b1') (h4 : M2 = M2')
    (h5 : b2 = b2') (k : Fin 32) : Spec.mix r M1 b1 M2 b2 k = Spec.mix r' M1' b1' M2' b2' k := by
  subst h1 h2 h3 h4 h5; rfl
theorem meanBody_congr {a a' bT bT' g g' wo wo' : Fin 128 → EReal} {vb vb' q q' rr rr' : EReal} (h1 : a = a') (h2 : bT = bT')
    (h3 : g = g') (h4 : wo = wo') (h5 : vb = vb') (h6 : q = q') (h7 : rr = rr') :
    Spec.meanBody a bT g wo vb q rr = Spec.meanBody a' bT' g' wo' vb' q' rr' := by
  subst h1 h2 h3 h4 h5 h6 h7; rfl

/-- Row 64 b + t of the flattened hidden states is the row of (batch b, time t). -/
theorem rows_of (b : Fin 16) (t : Fin 64) (d : Fin 1024) :
    (atEntry m c main_v0 : S1024x1024.Idx → EReal) (ix2 (flat b t) d) = of3 (m ((c : Thread nD τ).loc main_arg0)) b t d := by
  have hb : (⟨(flat b t).val / 64, by have := (flat b t).isLt; omega⟩ : Fin 16) = b :=
    Fin.ext (by show (b.val * 64 + t.val) / 64 = b.val; omega)
  have ht : (⟨(flat b t).val % 64, by omega⟩ : Fin 64) = t :=
    Fin.ext (by show (b.val * 64 + t.val) % 64 = t.val; omega)
  rw [Entry.rows_at, hb, ht]

theorem hb_of (j : Fin 256) : (atEntry m c main_arg12 : S256.Idx → EReal) (ix1 j) = of1 (m ((c : Thread nD τ).loc main_arg12)) j :=
  congrFun (entry_arg12 m c) (ix1 j)
theorem ob_of (k : Fin 32) : (atEntry m c main_arg14 : S32.Idx → EReal) (ix1 k) = of1 (m ((c : Thread nD τ).loc main_arg14)) k :=
  congrFun (entry_arg14 m c) (ix1 k)
theorem g_of (c' : Fin 128) : (atEntry m c main_arg5 : S128.Idx → EReal) (ix1 c') = of1 (m ((c : Thread nD τ).loc main_arg5)) c' :=
  congrFun (entry_arg5 m c) (ix1 c')

/-- The first result. -/
theorem mix_value :
    (Pipeline.afterTail₀ cfgs (pdat m) 0 (entry m) [hostOps1] c main_v43 : S16x64x32.Idx → EReal)
      = Spec.mixRes (m ((c : Thread nD τ).loc main_arg0)) (m ((c : Thread nD τ).loc main_arg11)) (m ((c : Thread nD τ).loc main_arg12)) (m ((c : Thread nD τ).loc main_arg13)) (m ((c : Thread nD τ).loc main_arg14)) := by
  rw [mix_tail]
  funext (i : S16x64x32.Idx)
  obtain ⟨b, t, k, rfl⟩ : ∃ (b : Fin 16) (t : Fin 64) (k : Fin 32), i = ix3 b t k := ⟨i 0, i 1, i 2, eq_ix3 i⟩
  show mixRow m c (flat b t) k
    = Spec.mix (fun d => of3 (m ((c : Thread nD τ).loc main_arg0)) b t d) (of2 (m ((c : Thread nD τ).loc main_arg11))) (of1 (m ((c : Thread nD τ).loc main_arg12))) (of2 (m ((c : Thread nD τ).loc main_arg13))) (of1 (m ((c : Thread nD τ).loc main_arg14))) k
  unfold mixRow
  exact mix_congr (funext fun d => rows_of m c b t d) (funext fun d => funext fun j => Entry.joined_mix m c d j)
    (funext fun j => hb_of m c j) (funext fun j => funext fun k => Entry.mix2_at m c j k) (funext fun k => ob_of m c k) k

/-- The second result: the separated form the launch computes, then the direct form, the inputs being finite. -/
theorem mean_value (hpre : Cert.Pre_KernelIdeal (hPre_finite_inputs := Cert.Pre_finite_inputs.Gen.facts) m) :
    (Pipeline.afterTail₀ cfgs (pdat m) 0 (entry m) [hostOps1] c main_v44 : S16x64x32x128.Idx → EReal)
      = Spec.meanRes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [mean_tail]
  funext (i : S16x64x32x128.Idx)
  obtain ⟨b, t, k, f, rfl⟩ : ∃ (b : Fin 16) (t : Fin 64) (k : Fin 32) (f : Fin 128), i = ix4 b t k f := ⟨i 0, i 1, i 2, i 3, eq_ix4 i⟩
  show meanRow m c (flat b t) k f
    = Spec.meanRef (fun d => of3 (m ((c : Thread nD τ).loc main_arg0)) b t d) (of2 (m ((c : Thread nD τ).loc main_arg1))) (of2 (m ((c : Thread nD τ).loc main_arg2))) (of2 (m ((c : Thread nD τ).loc main_arg3))) (of1 (m ((c : Thread nD τ).loc main_arg4))) (of1 (m ((c : Thread nD τ).loc main_arg5))) (of1 (m ((c : Thread nD τ).loc main_arg6))) (of2 (m ((c : Thread nD τ).loc main_arg7))) (of1 (m ((c : Thread nD τ).loc main_arg8))) k f
  refine Eq.trans ?_ (Spec.meanKer_eq_meanRef (fun d => of3 (m ((c : Thread nD τ).loc main_arg0)) b t d) (of2 (m ((c : Thread nD τ).loc main_arg1))) (of2 (m ((c : Thread nD τ).loc main_arg2))) (of2 (m ((c : Thread nD τ).loc main_arg3))) (of1 (m ((c : Thread nD τ).loc main_arg4))) (of1 (m ((c : Thread nD τ).loc main_arg5))) (of1 (m ((c : Thread nD τ).loc main_arg6))) (of2 (m ((c : Thread nD τ).loc main_arg7))) (of1 (m ((c : Thread nD τ).loc main_arg8)))
    (fun d => Cert.Proof.Finite.arg0_real m hpre c (ix3 b t d)) (fun a b => Cert.Proof.Finite.arg1_real m hpre c (ix2 a b))
    (fun a b => Cert.Proof.Finite.arg2_real m hpre c (ix2 a b)) (fun a b => Cert.Proof.Finite.arg3_real m hpre c (ix2 a b))
    (fun a => Cert.Proof.Finite.arg4_real m hpre c (ix1 a)) (fun a => Cert.Proof.Finite.arg5_real m hpre c (ix1 a))
    (fun a => Cert.Proof.Finite.arg6_real m hpre c (ix1 a)) (fun a b => Cert.Proof.Finite.arg7_real m hpre c (ix2 a b))
    (fun a => Cert.Proof.Finite.arg8_real m hpre c (ix1 a)) k f)
  unfold meanRow Spec.meanKer
  exact meanBody_congr
    (funext fun c' => Finset.sum_congr rfl fun d _ => congrArg₂ (· * ·) (rows_of m c b t d) (Entry.joined_mean m c d c'))
    (funext fun c' => Entry.bT_at m c c' k) (funext fun c' => g_of m c c') (funext fun c' => Entry.out_at m c c' f)
    (Entry.vb_at m c k) (Entry.q_at m c k f) (Entry.r_at m c f)

/-- The third result: the bias is added to the code-side table before the row's projection in the launch, after it in the
    direct form; addition of extended reals is associative. -/
theorem logvar_value :
    (Pipeline.afterTail₀ cfgs (pdat m) 0 (entry m) [hostOps1] c main_v45 : S16x64x32x128.Idx → EReal)
      = Spec.logvarRes (m ((c : Thread nD τ).loc main_arg0)) (m ((c : Thread nD τ).loc main_arg1)) (m ((c : Thread nD τ).loc main_arg2)) (m ((c : Thread nD τ).loc main_arg9)) (m ((c : Thread nD τ).loc main_arg10)) := by
  rw [logvar_tail]
  funext (i : S16x64x32x128.Idx)
  obtain ⟨b, t, k, f, rfl⟩ : ∃ (b : Fin 16) (t : Fin 64) (k : Fin 32) (f : Fin 128), i = ix4 b t k f := ⟨i 0, i 1, i 2, i 3, eq_ix4 i⟩
  show logvarRow m c (flat b t) k f
    = Spec.logvar (fun d => of3 (m ((c : Thread nD τ).loc main_arg0)) b t d) (of2 (m ((c : Thread nD τ).loc main_arg1))) (of2 (m ((c : Thread nD τ).loc main_arg2))) (of2 (m ((c : Thread nD τ).loc main_arg9))) (of1 (m ((c : Thread nD τ).loc main_arg10))) k f
  unfold logvarRow Spec.logvar
  have hrow : (∑ d : Fin 1024, rowsE m c (ix2 (flat b t) d) * joinedE m c (ix2 d ⟨128 + f.val, by omega⟩))
      = Spec.rowProj (fun d => of3 (m ((c : Thread nD τ).loc main_arg0)) b t d) (of2 (m ((c : Thread nD τ).loc main_arg9))) f :=
    Finset.sum_congr rfl fun d _ => congrArg₂ (· * ·) (rows_of m c b t d) (Entry.joined_logvar m c d f)
  exact congrArg Spec.clipLv ((congrArg₂ (· + ·) hrow (Entry.lvc_at m c k f)).trans (add_assoc _ _ _).symm)

/-! ## The run -/

/-- Under the precondition the program runs, its three results end at the specification's arrays of the arguments, and
    the arguments end unchanged. -/
theorem value_run (hpre : Cert.Pre_KernelIdeal (hPre_finite_inputs := Cert.Pre_finite_inputs.Gen.facts) m) :
    θ_run defs (onTc (τ := τ) (main (F := Ideal))) ⟨m, fun _ => 0, ρ⟩ (fun r => ∀ c : Dev nD,
      r.2.mem ((c.tc : Thread nD τ).loc main_v43) = Spec.mixRes (m ((c.tc : Thread nD τ).loc main_arg0)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_v44) = Spec.meanRes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v45) = Spec.logvarRes (m ((c.tc : Thread nD τ).loc main_arg0)) (m ((c.tc : Thread nD τ).loc main_arg1)) (m ((c.tc : Thread nD τ).loc main_arg2)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨
      ((h c).2 main_v43 (Pipeline.mem_restRefs_of main_v43 (by decide) (by decide))).trans (mix_value m c),
      ((h c).2 main_v44 (Pipeline.mem_restRefs_of main_v44 (by decide) (by decide))).trans (mean_value m c hpre),
      ((h c).2 main_v45 (Pipeline.mem_restRefs_of main_v45 (by decide) (by decide))).trans (logvar_value m c),
      (((h c).2 main_arg0 (Pipeline.mem_restRefs_of main_arg0 (by decide) (by decide))).trans (exit_arg0 m (pdat m) c)),
      (((h c).2 main_arg1 (Pipeline.mem_restRefs_of main_arg1 (by decide) (by decide))).trans (exit_arg1 m (pdat m) c)),
      (((h c).2 main_arg2 (Pipeline.mem_restRefs_of main_arg2 (by decide) (by decide))).trans (exit_arg2 m (pdat m) c)),
      (((h c).2 main_arg3 (Pipeline.mem_restRefs_of main_arg3 (by decide) (by decide))).trans (exit_arg3 m (pdat m) c)),
      (((h c).2 main_arg4 (Pipeline.mem_restRefs_of main_arg4 (by decide) (by decide))).trans (exit_arg4 m (pdat m) c)),
      ((h c).1 10).trans ((((pdat m) 0 c).arrAt_in 10 rfl _).trans ((pdat_arr m c 10).trans (entry_arg5 m c))),
      (((h c).2 main_arg6 (Pipeline.mem_restRefs_of main_arg6 (by decide) (by decide))).trans (exit_arg6 m (pdat m) c)),
      (((h c).2 main_arg7 (Pipeline.mem_restRefs_of main_arg7 (by decide) (by decide))).trans (exit_arg7 m (pdat m) c)),
      (((h c).2 main_arg8 (Pipeline.mem_restRefs_of main_arg8 (by decide) (by decide))).trans (exit_arg8 m (pdat m) c)),
      (((h c).2 main_arg9 (Pipeline.mem_restRefs_of main_arg9 (by decide) (by decide))).trans (exit_arg9 m (pdat m) c)),
      (((h c).2 main_arg10 (Pipeline.mem_restRefs_of main_arg10 (by decide) (by decide))).trans (exit_arg10 m (pdat m) c)),
      (((h c).2 main_arg11 (Pipeline.mem_restRefs_of main_arg11 (by decide) (by decide))).trans (exit_arg11 m (pdat m) c)),
      ((h c).1 2).trans ((((pdat m) 0 c).arrAt_in 2 rfl _).trans ((pdat_arr m c 2).trans (entry_arg12 m c))),
      (((h c).2 main_arg13 (Pipeline.mem_restRefs_of main_arg13 (by decide) (by decide))).trans (exit_arg13 m (pdat m) c)),
      ((h c).1 4).trans ((((pdat m) 0 c).arrAt_in 4 rfl _).trans ((pdat_arr m c 4).trans (entry_arg14 m c)))⟩)
    (runs m ρ)

end Cert.KernelIdeal.Result

end
-- ==== Proof.RefMix.lean ====
/-
  The reference's mixture weights and log-variances, read at an index.
-/
import proofs.«410282_j21792664060394_3_alg».proof.Proof.Gen.ReferenceIdeal.Read
import proofs.«410282_j21792664060394_3_alg».proof.Proof.Spec
import proofs.«410282_j21792664060394_3_alg».proof.Proof.Consts
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefAt

open Idealize.ShloMosaic Idealize.ShloMosaic.ValueIdx Cert.ReferenceIdeal Cert.ReferenceIdeal.Gen Cert.ReferenceIdeal.Read Cert.Spec

/-- The hidden layer before its activation, at (batch, time, unit). -/
private theorem hid_at (x0 : (⟨S16x64x1024, .f32⟩ : BufTy).Contents (Elt Ideal)) (x11 : (⟨S1024x256, .f32⟩ : BufTy).Contents (Elt Ideal)) (x12 : (⟨S256, .f32⟩ : BufTy).Contents (Elt Ideal))
    (b : Fin 16) (t : Fin 64) (j : Fin 256) :
    val_main_v8 (F := Ideal) x0 x11 x12 (ix3 b t j)
      = Spec.hid (fun d => of3 x0 b t d) (of2 x11) (of1 x12) j := by
  have el : ∀ d : Fin 1024, lidx_main_v5 (ix3 b t j) d = ix3 b t d := fun d =>
    funext fun a => Fin.ext (by match a with | ⟨0, _⟩ => rfl | ⟨1, _⟩ => rfl | ⟨2, _⟩ => rfl)
  have er : ∀ d : Fin 1024, ridx_main_v5 (ix3 b t j) d = ix2 d j := fun d =>
    funext fun a => Fin.ext (by match a with | ⟨0, _⟩ => rfl | ⟨1, _⟩ => rfl)
  have eb : idx_main_v6 (idx_main_v7 (ix3 b t j)) = ix1 j :=
    funext fun a => Fin.ext (by match a with | ⟨0, _⟩ => rfl)
  rw [val_main_v8_apply, val_main_v5_apply, val_main_v7_apply, val_main_v6_apply]
  simp only [el, er, eb, Ideal.addf_def]
  rfl

/-- The literal one. -/
private theorem one_bits : Ideal.ofBits .f32 0x3F800000#32 = (1 : EReal) := Consts.lit_one

/-- The activated hidden layer at (batch, time, unit): the program's `x * (1 / (1 + exp (-x)))`. -/
private theorem act_at (x0 : (⟨S16x64x1024, .f32⟩ : BufTy).Contents (Elt Ideal)) (x11 : (⟨S1024x256, .f32⟩ : BufTy).Contents (Elt Ideal)) (x12 : (⟨S256, .f32⟩ : BufTy).Contents (Elt Ideal))
    (b : Fin 16) (t : Fin 64) (j : Fin 256) :
    val_main_v9 (F := Ideal) x0 x11 x12 (ix3 b t j)
      = Spec.act (Spec.hid (fun d => of3 x0 b t d) (of2 x11) (of1 x12) j) := by
  rw [val_main_v9_apply, val_main_call0_v5_apply, val_main_call0_v4_apply, val_main_call0_cst_0_apply,
    val_main_call0_v3_apply, val_main_call0_v2_apply, val_main_call0_cst_apply, val_main_call0_v1_apply,
    val_main_call0_v0_apply, hid_at]
  simp only [Ideal.mulf_def, Ideal.hostDivf_def, Ideal.addf_def, Ideal.hostUnary_exp_def, Ideal.hostNegf_def,
    Ideal.negf_def, Ideal.ofBits_def, one_bits]
  rfl

/-- The logits at (batch, time, code). -/
private theorem logit_at (x0 : (⟨S16x64x1024, .f32⟩ : BufTy).Contents (Elt Ideal)) (x11 : (⟨S1024x256, .f32⟩ : BufTy).Contents (Elt Ideal)) (x12 : (⟨S256, .f32⟩ : BufTy).Contents (Elt Ideal)) (x13 : (⟨S256x32, .f32⟩ : BufTy).Contents (Elt Ideal)) (x14 : (⟨S32, .f32⟩ : BufTy).Contents (Elt Ideal))
    (b : Fin 16) (t : Fin 64) (k : Fin 32) :
    val_main_v13 (F := Ideal) x0 x11 x12 x13 x14 (ix3 b t k)
      = Spec.logit (fun d => of3 x0 b t d) (of2 x11) (of1 x12) (of2 x13) (of1 x14) k := by
  have el : ∀ j : Fin 256, lidx_main_v10 (ix3 b t k) j = ix3 b t j := fun j =>
    funext fun a => Fin.ext (by match a with | ⟨0, _⟩ => rfl | ⟨1, _⟩ => rfl | ⟨2, _⟩ => rfl)
  have er : ∀ j : Fin 256, ridx_main_v10 (ix3 b t k) j = ix2 j k := fun j =>
    funext fun a => Fin.ext (by match a with | ⟨0, _⟩ => rfl | ⟨1, _⟩ => rfl)
  have eb : idx_main_v11 (idx_main_v12 (ix3 b t k)) = ix1 k :=
    funext fun a => Fin.ext (by match a with | ⟨0, _⟩ => rfl)
  rw [val_main_v13_apply, val_main_v10_apply, val_main_v12_apply, val_main_v11_apply]
  simp only [el, er, eb, act_at, Ideal.addf_def]
  rfl

/-- The largest logit at (batch, time): the maximum over the 32 codes started from −∞, then once more against −∞. -/
private theorem peak_at (x0 : (⟨S16x64x1024, .f32⟩ : BufTy).Contents (Elt Ideal)) (x11 : (⟨S1024x256, .f32⟩ : BufTy).Contents (Elt Ideal)) (x12 : (⟨S256, .f32⟩ : BufTy).Contents (Elt Ideal)) (x13 : (⟨S256x32, .f32⟩ : BufTy).Contents (Elt Ideal)) (x14 : (⟨S32, .f32⟩ : BufTy).Contents (Elt Ideal))
    (b : Fin 16) (t : Fin 64) :
    val_main_v16 (F := Ideal) x0 x11 x12 x13 x14 (ix2 b t)
      = Spec.peak (Spec.logit (fun d => of3 x0 b t d) (of2 x11) (of1 x12) (of2 x13) (of1 x14)) := by
  have h : S16x64x32.Reduces [2] S16x64 := by decide
  have ek : ∀ k : Fin 32, h.lift (ix2 b t) k = ix3 b t k := fun k =>
    funext fun a => Fin.ext (by match a with | ⟨0, _⟩ => rfl | ⟨1, _⟩ => rfl | ⟨2, _⟩ => rfl)
  have ef : ((val_main_v13 (F := Ideal) x0 x11 x12 x13 x14) ∘ h.lift (ix2 b t) : Fin 32 → EReal)
      = Spec.logit (fun d => of3 x0 b t d) (of2 x11) (of1 x12) (of2 x13) (of1 x14) := by
    funext k
    show val_main_v13 (F := Ideal) x0 x11 x12 x13 x14 (h.lift (ix2 b t) k) = _
    rw [ek k, logit_at]
  rw [val_main_v16_apply, val_main_v15_apply, val_main_cst_2_apply]
  unfold val_main_v14
  rw [Host.reduce_eq_fold_single FloatOps.maximumf _ _ reducesTo_S16x64x32_S16x64_d2 h h_S_, val_main_cst_1_apply]
  show max (lit 0xFF800000#32) ((Finset.univ : Finset (Fin 32)).fold max (lit 0xFF800000#32)
    ((val_main_v13 (F := Ideal) x0 x11 x12 x13 x14) ∘ h.lift (ix2 b t) : Fin 32 → EReal)) = _
  rw [ef]
  rfl

/-- The shifted exponential at (batch, time, code). -/
private theorem exp_at (x0 : (⟨S16x64x1024, .f32⟩ : BufTy).Contents (Elt Ideal)) (x11 : (⟨S1024x256, .f32⟩ : BufTy).Contents (Elt Ideal)) (x12 : (⟨S256, .f32⟩ : BufTy).Contents (Elt Ideal)) (x13 : (⟨S256x32, .f32⟩ : BufTy).Contents (Elt Ideal)) (x14 : (⟨S32, .f32⟩ : BufTy).Contents (Elt Ideal))
    (b : Fin 16) (t : Fin 64) (k : Fin 32) :
    val_main_v20 (F := Ideal) x0 x11 x12 x13 x14 (ix3 b t k)
      = Ideal.exp (Spec.logit (fun d => of3 x0 b t d) (of2 x11) (of1 x12) (of2 x13) (of1 x14) k
          - Spec.peak (Spec.logit (fun d => of3 x0 b t d) (of2 x11) (of1 x12) (of2 x13) (of1 x14))) := by
  have ep : idx_main_v17 (idx_main_v18 (ix3 b t k)) = ix2 b t :=
    funext fun a => Fin.ext (by match a with | ⟨0, _⟩ => rfl | ⟨1, _⟩ => rfl)
  rw [val_main_v20_apply, val_main_v19_apply, val_main_v18_apply, val_main_v17_apply, ep, peak_at, logit_at]
  rfl

/-- The reference's first result at (batch, time, code). -/
theorem mix_at (x0 : (⟨S16x64x1024, .f32⟩ : BufTy).Contents (Elt Ideal)) (x11 : (⟨S1024x256, .f32⟩ : BufTy).Contents (Elt Ideal)) (x12 : (⟨S256, .f32⟩ : BufTy).Contents (Elt Ideal)) (x13 : (⟨S256x32, .f32⟩ : BufTy).Contents (Elt Ideal)) (x14 : (⟨S32, .f32⟩ : BufTy).Contents (Elt Ideal))
    (b : Fin 16) (t : Fin 64) (k : Fin 32) :
    val_main_v24 (F := Ideal) x0 x11 x12 x13 x14 (ix3 b t k)
      = Spec.mix (fun d => of3 x0 b t d) (of2 x11) (of1 x12) (of2 x13) (of1 x14) k := by
  have es : idx_main_v22 (idx_main_v23 (ix3 b t k)) = ix2 b t :=
    funext fun a => Fin.ext (by match a with | ⟨0, _⟩ => rfl | ⟨1, _⟩ => rfl)
  have ek : ∀ k' : Fin 32, idx_main_v21 (ix2 b t) k' = ix3 b t k' := fun k' =>
    funext fun a => Fin.ext (by match a with | ⟨0, _⟩ => rfl | ⟨1, _⟩ => rfl | ⟨2, _⟩ => rfl)
  rw [val_main_v24_apply, val_main_v23_apply, val_main_v22_apply, es, val_main_v21_apply, val_main_cst_3_apply]
  simp only [ek, exp_at, Ideal.hostDivf_def, Ideal.ofBits_def, Ideal.ofBits_zero_f32, zero_add]
  rfl

/-- The blended codes at (code, entry). -/
private theorem code_at (x1 x2 : (⟨S32x128, .f32⟩ : BufTy).Contents (Elt Ideal)) (k : Fin 32) (e : Fin 128) :
    val_main_v4 (F := Ideal) x1 x2 (ix2 k e) = Spec.code (of2 x1) (of2 x2) k e := by
  rw [val_main_v4_apply, val_main_v1_apply, val_main_v0_apply, val_main_cst_apply, val_main_v3_apply,
    val_main_v2_apply, val_main_cst_0_apply]
  rfl

/-- The row's projection through the first 1024 rows of the log-variance weights, at (batch, time, column). -/
private theorem rowProj_at (x0 : (⟨S16x64x1024, .f32⟩ : BufTy).Contents (Elt Ideal)) (x9 : (⟨S1152x128, .f32⟩ : BufTy).Contents (Elt Ideal))
    (b : Fin 16) (t : Fin 64) (f : Fin 128) :
    val_main_v68 (F := Ideal) x0 x9 (ix3 b t f) = Spec.rowProj (fun d => of3 x0 b t d) (of2 x9) f := by
  have el : ∀ d : Fin 1024, lidx_main_v68 (ix3 b t f) d = ix3 b t d := fun d =>
    funext fun a => Fin.ext (by match a with | ⟨0, _⟩ => rfl | ⟨1, _⟩ => rfl | ⟨2, _⟩ => rfl)
  have er : ∀ d : Fin 1024, idx_main_v67 (ridx_main_v68 (ix3 b t f) d) = ix2 (⟨d.val, by omega⟩ : Fin 1152) f := fun d =>
    funext fun a => Fin.ext (by match a with | ⟨0, _⟩ => rfl | ⟨1, _⟩ => rfl)
  rw [val_main_v68_apply]
  simp only [val_main_v67_apply, el, er]
  rfl

/-- Code `k`'s projection through the last 128 rows of the log-variance weights, at (code, column). -/
private theorem codeProj_at (x1 x2 : (⟨S32x128, .f32⟩ : BufTy).Contents (Elt Ideal)) (x9 : (⟨S1152x128, .f32⟩ : BufTy).Contents (Elt Ideal))
    (k : Fin 32) (f : Fin 128) :
    val_main_v71 (F := Ideal) x1 x2 x9 (ix2 k f) = Spec.codeProj (of2 x1) (of2 x2) (of2 x9) k f := by
  have el : ∀ e : Fin 128, lidx_main_v71 (ix2 k f) e = ix2 k e := fun e =>
    funext fun a => Fin.ext (by match a with | ⟨0, _⟩ => rfl | ⟨1, _⟩ => rfl)
  have er : ∀ e : Fin 128, idx_main_v70 (ridx_main_v71 (ix2 k f) e) = ix2 (⟨1024 + e.val, by omega⟩ : Fin 1152) f := fun e =>
    funext fun a => Fin.ext (by match a with | ⟨0, _⟩ => rfl | ⟨1, _⟩ => rfl)
  rw [val_main_v71_apply]
  simp only [val_main_v70_apply, el, er, code_at]
  rfl

/-- The reference's third result at (batch, time, code, column). -/
theorem logvar_at (x0 : (⟨S16x64x1024, .f32⟩ : BufTy).Contents (Elt Ideal)) (x1 x2 : (⟨S32x128, .f32⟩ : BufTy).Contents (Elt Ideal)) (x9 : (⟨S1152x128, .f32⟩ : BufTy).Contents (Elt Ideal)) (x10 : (⟨S128, .f32⟩ : BufTy).Contents (Elt Ideal))
    (b : Fin 16) (t : Fin 64) (k : Fin 32) (f : Fin 128) :
    val_main_v79 (F := Ideal) x0 x1 x2 x9 x10 (ix4 b t k f)
      = Spec.logvar (fun d => of3 x0 b t d) (of2 x1) (of2 x2) (of2 x9) (of1 x10) k f := by
  have ea : idx_main_v69 (idx_main_v73 (ix4 b t k f)) = ix3 b t f :=
    funext fun a => Fin.ext (by match a with | ⟨0, _⟩ => rfl | ⟨1, _⟩ => rfl | ⟨2, _⟩ => rfl)
  have ec : idx_main_v72 (idx_main_v74 (ix4 b t k f)) = ix2 k f :=
    funext fun a => Fin.ext (by match a with | ⟨0, _⟩ => rfl | ⟨1, _⟩ => rfl)
  have eb : idx_main_v76 (idx_main_v77 (ix4 b t k f)) = ix1 f :=
    funext fun a => Fin.ext (by match a with | ⟨0, _⟩ => rfl)
  rw [val_main_v79_apply, val_main_call2_v4_apply, val_main_call2_v3_apply, val_main_cst_12_apply,
    val_main_call2_v2_apply, val_main_call2_v1_apply, val_main_call2_v0_apply, val_main_cst_11_apply,
    val_main_v78_apply, val_main_v75_apply, val_main_v73_apply, val_main_v69_apply, ea, rowProj_at,
    val_main_v74_apply, val_main_v72_apply, ec, codeProj_at, val_main_v77_apply, val_main_v76_apply, eb]
  rfl

end Cert.ReferenceIdeal.RefAt

end
-- ==== Proof.RefMean.lean ====
/-
  The reference's means, read at an index. The closing clip to [-3, 3] does nothing: a hyperbolic tangent lies in [-1, 1].
-/
import proofs.«410282_j21792664060394_3_alg».proof.Proof.Gen.ReferenceIdeal.Read
import proofs.«410282_j21792664060394_3_alg».proof.Proof.Spec
import proofs.«410282_j21792664060394_3_alg».proof.Proof.Consts
import Idealize.ShloMosaic.Lib.ValueIdx
import Idealize.ShloMosaic.Lib.ValueLayout
import Idealize.ShloMosaic.Lib.Pipeline.Value
import Idealize.ShloMosaic.PureOps.Ideal.Laws
import Mathlib.Analysis.Complex.Trigonometric

set_option maxRecDepth 16384

noncomputable section

namespace Cert.ReferenceIdeal.RefAt

open Idealize.ShloMosaic Idealize.ShloMosaic.ValueIdx Cert.ReferenceIdeal Cert.ReferenceIdeal.Gen Cert.ReferenceIdeal.Read Cert.Spec

section
variable (x0 : (⟨S16x64x1024, .f32⟩ : BufTy).Contents (Elt Ideal)) (x1 x2 : (⟨S32x128, .f32⟩ : BufTy).Contents (Elt Ideal)) (x3 : (⟨S1152x128, .f32⟩ : BufTy).Contents (Elt Ideal)) (x4 x5 x6 : (⟨S128, .f32⟩ : BufTy).Contents (Elt Ideal))
  (x7 : (⟨S128x128, .f32⟩ : BufTy).Contents (Elt Ideal)) (x8 : (⟨S128, .f32⟩ : BufTy).Contents (Elt Ideal)) (b : Fin 16) (t : Fin 64) (k : Fin 32)

/-- The row's projection through the first 1024 rows of the weight matrix, broadcast over the codes. -/
private theorem row_at (c : Fin 128) :
    val_main_v31 (F := Ideal) x0 x3 (ix4 b t k c) = Spec.rowProj (fun d => of3 x0 b t d) (of2 x3) c := by
  rw [val_main_v31_apply, val_main_v27_apply, val_main_v26_apply]
  unfold Spec.rowProj
  refine Finset.sum_congr rfl fun d _ => ?_
  rw [val_main_v25_apply]
  refine congrArg₂ (· * ·) (congrArg x0 (funext fun a => Fin.ext (by
    match a with | ⟨0, _⟩ => rfl | ⟨1, _⟩ => rfl | ⟨2, _⟩ => rfl))) (congrArg x3 (funext fun a => Fin.ext (by
    match a with | ⟨0, _⟩ => rfl | ⟨1, _⟩ => rfl)))

/-- The blended codes. -/
private theorem code_at (e : Fin 128) :
    val_main_v4 (F := Ideal) x1 x2 (ix2 k e) = Spec.code (of2 x1) (of2 x2) k e := by
  rw [val_main_v4_apply, val_main_v1_apply, val_main_v3_apply, val_main_v0_apply, val_main_v2_apply, val_main_cst_apply,
    val_main_cst_0_apply]
  rfl

/-- Code `k`'s projection through the last 128 rows, broadcast over the rows of hidden states. -/
private theorem codeProj_at (c : Fin 128) :
    val_main_v32 (F := Ideal) x1 x2 x3 (ix4 b t k c) = Spec.codeProj (of2 x1) (of2 x2) (of2 x3) k c := by
  rw [val_main_v32_apply, val_main_v30_apply, val_main_v29_apply]
  unfold Spec.codeProj
  refine Finset.sum_congr rfl fun e _ => ?_
  rw [val_main_v28_apply, ← code_at x1 x2 k e]
  refine congrArg₂ (· * ·) (congrArg (val_main_v4 (F := Ideal) x1 x2) (funext fun a => Fin.ext (by
    match a with | ⟨0, _⟩ => rfl | ⟨1, _⟩ => rfl))) (congrArg x3 (funext fun a => Fin.ext (by
    match a with | ⟨0, _⟩ => rfl | ⟨1, _⟩ => rfl)))

/-- The vector the layer norm is taken of: the two projections and the bias. -/
private def pre : Fin 128 → EReal := fun c =>
  (Spec.rowProj (fun d => of3 x0 b t d) (of2 x3) c + Spec.codeProj (of2 x1) (of2 x2) (of2 x3) k c) + of1 x4 c

private theorem pre_at (c : Fin 128) :
    val_main_v36 (F := Ideal) x0 x1 x2 x3 x4 (ix4 b t k c) = pre x0 x1 x2 x3 x4 b t k c := by
  rw [val_main_v36_apply, val_main_v33_apply, row_at, codeProj_at, val_main_v35_apply, val_main_v34_apply]
  have e : idx_main_v34 (idx_main_v35 (ix4 b t k c)) = ix1 c := funext fun a => Fin.ext (by match a with | ⟨0, _⟩ => rfl)
  rw [e]
  rfl

/-- The mean of the 128 entries, kept as a column. -/
private theorem mu_at (z : Fin 1) :
    val_main_v40 (F := Ideal) x0 x1 x2 x3 x4 (ix4 b t k z) = Spec.mean128 (pre x0 x1 x2 x3 x4 b t k) := by
  rw [val_main_v40_apply, val_main_v38_apply, val_main_v39_apply, val_main_v37_apply, val_main_cst_4_apply, val_main_cst_5_apply]
  simp only [Ideal.hostDivf_def, Ideal.ofBits_def, Ideal.ofBits_zero_f32, zero_add]
  unfold Spec.mean128 Spec.lit
  refine congrArg (fun s => Ideal.div s _) (Finset.sum_congr rfl fun c _ => ?_)
  rw [← pre_at]
  exact congrArg _ (funext fun a => Fin.ext (by match a with | ⟨0, _⟩ => rfl | ⟨1, _⟩ => rfl | ⟨2, _⟩ => rfl | ⟨3, _⟩ => rfl))

/-- The centred vector (as the variance's stage reads the broadcast mean). -/
private theorem cen_at (c : Fin 128) :
    val_main_v42 (F := Ideal) x0 x1 x2 x3 x4 (ix4 b t k c) = Spec.cen (pre x0 x1 x2 x3 x4 b t k) c := by
  rw [val_main_v42_apply, val_main_v41_apply, pre_at]
  have e : idx_main_v41 (ix4 b t k c) = ix4 b t k (⟨0, Nat.one_pos⟩ : Fin 1) := funext fun a => Fin.ext (by
    match a with | ⟨0, _⟩ => rfl | ⟨1, _⟩ => rfl | ⟨2, _⟩ => rfl | ⟨3, _⟩ => rfl)
  rw [e, mu_at]
  rfl

/-- The same centred vector, as the normalisation's stage reads the broadcast mean. -/
private theorem cen_at' (c : Fin 128) :
    val_main_v49 (F := Ideal) x0 x1 x2 x3 x4 (ix4 b t k c) = Spec.cen (pre x0 x1 x2 x3 x4 b t k) c := by
  rw [val_main_v49_apply, val_main_v48_apply, pre_at]
  have e : idx_main_v48 (ix4 b t k c) = ix4 b t k (⟨0, Nat.one_pos⟩ : Fin 1) := funext fun a => Fin.ext (by
    match a with | ⟨0, _⟩ => rfl | ⟨1, _⟩ => rfl | ⟨2, _⟩ => rfl | ⟨3, _⟩ => rfl)
  rw [e, mu_at]
  rfl

/-- The variance, kept as a column. -/
private theorem var_at (z : Fin 1) :
    val_main_v47 (F := Ideal) x0 x1 x2 x3 x4 (ix4 b t k z) = Spec.var128 (pre x0 x1 x2 x3 x4 b t k) := by
  rw [val_main_v47_apply, val_main_v45_apply, val_main_v46_apply, val_main_v44_apply, val_main_cst_6_apply, val_main_cst_7_apply]
  simp only [Ideal.hostDivf_def, Ideal.ofBits_def, Ideal.ofBits_zero_f32, zero_add]
  unfold Spec.var128 Spec.lit
  refine congrArg (fun s => Ideal.div s _) (Finset.sum_congr rfl fun c _ => ?_)
  rw [val_main_v43_apply, ← cen_at]
  have e : idx_main_v44 (idx_main_v45 (ix4 b t k z)) c = ix4 b t k c := funext fun a => Fin.ext (by
    match a with | ⟨0, _⟩ => rfl | ⟨1, _⟩ => rfl | ⟨2, _⟩ => rfl | ⟨3, _⟩ => rfl)
  rw [e]
  rfl

/-- The reciprocal standard deviation, kept as a column. -/
private theorem rstd_at (z : Fin 1) :
    val_main_v52 (F := Ideal) x0 x1 x2 x3 x4 (ix4 b t k z)
      = Ideal.rsqrt (Spec.var128 (pre x0 x1 x2 x3 x4 b t k) + Spec.lit 0x3727C5AC#32) := by
  rw [val_main_v52_apply, val_main_v51_apply, var_at, val_main_v50_apply, val_main_cst_8_apply]
  rfl

/-- Normalised, scaled and shifted. -/
private theorem affine_at (c : Fin 128) :
    val_main_v60 (F := Ideal) x0 x1 x2 x3 x4 x5 x6 (ix4 b t k c)
      = (Spec.cen (pre x0 x1 x2 x3 x4 b t k) c
          * Ideal.rsqrt (Spec.var128 (pre x0 x1 x2 x3 x4 b t k) + Spec.lit 0x3727C5AC#32)) * of1 x5 c + of1 x6 c := by
  rw [val_main_v60_apply, val_main_v57_apply, val_main_v54_apply, cen_at', val_main_v53_apply, val_main_v56_apply,
    val_main_v55_apply, val_main_v59_apply, val_main_v58_apply]
  have e : idx_main_v53 (ix4 b t k c) = ix4 b t k (⟨0, Nat.one_pos⟩ : Fin 1) := funext fun a => Fin.ext (by
    match a with | ⟨0, _⟩ => rfl | ⟨1, _⟩ => rfl | ⟨2, _⟩ => rfl | ⟨3, _⟩ => rfl)
  have e5 : idx_main_v55 (idx_main_v56 (ix4 b t k c)) = ix1 c := funext fun a => Fin.ext (by match a with | ⟨0, _⟩ => rfl)
  have e6 : idx_main_v58 (idx_main_v59 (ix4 b t k c)) = ix1 c := funext fun a => Fin.ext (by match a with | ⟨0, _⟩ => rfl)
  rw [e, e5, e6, rstd_at]
  rfl

/-- A hyperbolic tangent, with its values −1 and 1 at the two infinities, lies in [−3, 3]. -/
private theorem tanh_bounds (y : EReal) : ((-3 : ℝ) : EReal) ≤ Ideal.tanh y ∧ Ideal.tanh y ≤ ((3 : ℝ) : EReal) := by
  induction y using EReal.rec with
  | bot =>
    rw [Ideal.tanh_bot, show (-1 : EReal) = ((-1 : ℝ) : EReal) by rw [EReal.coe_neg, EReal.coe_one]]
    exact ⟨EReal.coe_le_coe_iff.mpr (by norm_num), EReal.coe_le_coe_iff.mpr (by norm_num)⟩
  | coe r =>
    rw [Ideal.tanh_coe]
    exact ⟨EReal.coe_le_coe_iff.mpr (by linarith [Real.neg_one_lt_tanh r]),
      EReal.coe_le_coe_iff.mpr (by linarith [Real.tanh_lt_one r])⟩
  | top =>
    rw [Ideal.tanh_top, ← EReal.coe_one]
    exact ⟨EReal.coe_le_coe_iff.mpr (by norm_num), EReal.coe_le_coe_iff.mpr (by norm_num)⟩

/-- So clipping it to [−3, 3] changes nothing. -/
private theorem clip_tanh (y : EReal) :
    min (Spec.lit 0x40400000#32) (max (Spec.lit 0xC0400000#32) (Ideal.tanh y)) = Ideal.tanh y := by
  rw [Consts.lit_three, Consts.lit_negThree, max_eq_right (tanh_bounds y).1, min_eq_right (tanh_bounds y).2]

end

/-- The reference's second result at (batch, time, code, column). -/
theorem mean_at (x0 : (⟨S16x64x1024, .f32⟩ : BufTy).Contents (Elt Ideal)) (x1 x2 : (⟨S32x128, .f32⟩ : BufTy).Contents (Elt Ideal)) (x3 : (⟨S1152x128, .f32⟩ : BufTy).Contents (Elt Ideal)) (x4 x5 x6 : (⟨S128, .f32⟩ : BufTy).Contents (Elt Ideal))
    (x7 : (⟨S128x128, .f32⟩ : BufTy).Contents (Elt Ideal)) (x8 : (⟨S128, .f32⟩ : BufTy).Contents (Elt Ideal)) (b : Fin 16) (t : Fin 64) (k : Fin 32) (f : Fin 128) :
    val_main_v66 (F := Ideal) x0 x1 x2 x3 x4 x5 x6 x7 x8 (ix4 b t k f)
      = Spec.meanRef (fun d => of3 x0 b t d) (of2 x1) (of2 x2) (of2 x3) (of1 x4) (of1 x5) (of1 x6) (of2 x7) (of1 x8) k f := by
  rw [val_main_v66_apply, val_main_call1_v2_apply, val_main_v65_apply, val_main_call1_v4_apply, val_main_call1_v3_apply,
    val_main_cst_10_apply, val_main_call1_v1_apply, val_main_call1_v0_apply, val_main_cst_9_apply]
  simp only [Ideal.minimumf_def, Ideal.maximumf_def, Ideal.hostUnary_tanh_def, Ideal.ofBits_def]
  refine (clip_tanh _).trans (congrArg Ideal.tanh ?_)
  rw [val_main_v64_apply, val_main_v61_apply, val_main_v63_apply, val_main_v62_apply]
  have e8 : idx_main_v62 (idx_main_v63 (ix4 b t k f)) = ix1 f := funext fun a => Fin.ext (by match a with | ⟨0, _⟩ => rfl)
  rw [e8]
  refine congrArg (· + x8 (ix1 f)) (Finset.sum_congr rfl fun c _ => ?_)
  have el : lidx_main_v61 (ix4 b t k f) c = ix4 b t k c := funext fun a => Fin.ext (by
    match a with | ⟨0, _⟩ => rfl | ⟨1, _⟩ => rfl | ⟨2, _⟩ => rfl | ⟨3, _⟩ => rfl)
  have er : ridx_main_v61 (ix4 b t k f) c = ix2 c f := funext fun a => Fin.ext (by
    match a with | ⟨0, _⟩ => rfl | ⟨1, _⟩ => rfl)
  rw [el, er, affine_at]
  rfl

end Cert.ReferenceIdeal.RefAt

end
-- ==== Proof.RefResults.lean ====
/-
  The reference's three results are the result arrays of the specification: the generated stages read at an index,
  at every index.
-/
import proofs.«410282_j21792664060394_3_alg».proof.Proof.RefMix
import proofs.«410282_j21792664060394_3_alg».proof.Proof.RefMean
import proofs.«410282_j21792664060394_3_alg».proof.Proof.Results

noncomputable section

namespace Cert.ReferenceIdeal.RefAt

open Idealize.ShloMosaic Idealize.ShloMosaic.ValueIdx Cert.ReferenceIdeal Cert.ReferenceIdeal.Gen Cert.ReferenceIdeal.Read Cert.Spec

theorem mix_all (x0 : (⟨S16x64x1024, .f32⟩ : BufTy).Contents (Elt Ideal)) (x11 : (⟨S1024x256, .f32⟩ : BufTy).Contents (Elt Ideal)) (x12 : (⟨S256, .f32⟩ : BufTy).Contents (Elt Ideal)) (x13 : (⟨S256x32, .f32⟩ : BufTy).Contents (Elt Ideal)) (x14 : (⟨S32, .f32⟩ : BufTy).Contents (Elt Ideal)) :
    val_main_v24 (F := Ideal) x0 x11 x12 x13 x14 = Spec.mixRes x0 x11 x12 x13 x14 := by
  funext i
  obtain ⟨b, t, k, rfl⟩ : ∃ (b : Fin 16) (t : Fin 64) (k : Fin 32), i = ix3 b t k := ⟨i 0, i 1, i 2, eq_ix3 i⟩
  exact mix_at x0 x11 x12 x13 x14 b t k

theorem mean_all (x0 : (⟨S16x64x1024, .f32⟩ : BufTy).Contents (Elt Ideal)) (x1 x2 : (⟨S32x128, .f32⟩ : BufTy).Contents (Elt Ideal)) (x3 : (⟨S1152x128, .f32⟩ : BufTy).Contents (Elt Ideal)) (x4 x5 x6 : (⟨S128, .f32⟩ : BufTy).Contents (Elt Ideal))
    (x7 : (⟨S128x128, .f32⟩ : BufTy).Contents (Elt Ideal)) (x8 : (⟨S128, .f32⟩ : BufTy).Contents (Elt Ideal)) :
    val_main_v66 (F := Ideal) x0 x1 x2 x3 x4 x5 x6 x7 x8 = Spec.meanRes x0 x1 x2 x3 x4 x5 x6 x7 x8 := by
  funext i
  obtain ⟨b, t, k, f, rfl⟩ : ∃ (b : Fin 16) (t : Fin 64) (k : Fin 32) (f : Fin 128), i = ix4 b t k f := ⟨i 0, i 1, i 2, i 3, eq_ix4 i⟩
  exact mean_at x0 x1 x2 x3 x4 x5 x6 x7 x8 b t k f

theorem logvar_all (x0 : (⟨S16x64x1024, .f32⟩ : BufTy).Contents (Elt Ideal)) (x1 x2 : (⟨S32x128, .f32⟩ : BufTy).Contents (Elt Ideal)) (x9 : (⟨S1152x128, .f32⟩ : BufTy).Contents (Elt Ideal)) (x10 : (⟨S128, .f32⟩ : BufTy).Contents (Elt Ideal)) :
    val_main_v79 (F := Ideal) x0 x1 x2 x9 x10 = Spec.logvarRes x0 x1 x2 x9 x10 := by
  funext i
  obtain ⟨b, t, k, f, rfl⟩ : ∃ (b : Fin 16) (t : Fin 64) (k : Fin 32) (f : Fin 128), i = ix4 b t k f := ⟨i 0, i 1, i 2, i 3, eq_ix4 i⟩
  exact logvar_at x0 x1 x2 x9 x10 b t k f

end Cert.ReferenceIdeal.RefAt

end
-- ==== Proof.lean ====
/-
  The certificate. The word-level kernel and its idealization run to the end and leave their arguments unchanged
  (the launch's body obligation is discharged once, generically in the float instance); the reference, a host
  program, runs by its operations' composition; the idealization rewrote nothing; and at the ideal instance the
  kernel's three results and the reference's are the same arrays of the arguments: the mixture weights and the
  log-variances operation for operation, the means because a layer norm of a sum of two vectors separates into the
  two vectors' own statistics plus a cross term — which needs the distributive law, hence finite inputs.
-/
import proofs.«410282_j21792664060394_3_alg».proof.Defs
import proofs.«410282_j21792664060394_3_alg».proof.Proof.Gen.Kernel
import proofs.«410282_j21792664060394_3_alg».proof.Proof.Gen.KernelIdeal
import proofs.«410282_j21792664060394_3_alg».proof.Proof.Gen.ReferenceIdeal
import proofs.«410282_j21792664060394_3_alg».proof.Proof.Gen.ReferenceIdeal.Run
import proofs.«410282_j21792664060394_3_alg».proof.Proof.Gen.ReferenceIdeal.Read
import proofs.«410282_j21792664060394_3_alg».proof.Proof.Gen.Pre_finite_inputs
import proofs.«410282_j21792664060394_3_alg».proof.Proof.KernelWhole
import proofs.«410282_j21792664060394_3_alg».proof.Proof.KValue
import proofs.«410282_j21792664060394_3_alg».proof.Proof.RefResults
import Idealize.ShloMosaic.Adequacy
import Idealize.ShloMosaic.Init

noncomputable section

namespace Cert.Proof

open Idealize.ShloMosaic Idealize.SL.Sem

theorem frame_word : Cert.frame_Kernel (hKernel := Cert.Kernel.Gen.facts) (hPre_finite_inputs := Cert.Pre_finite_inputs.Gen.facts) :=
  fun m ρ _ => Cert.Kernel.Whole.args_unchanged (F := Bits) m ρ

theorem frame_ideal : Cert.frame_KernelIdeal (hKernelIdeal := Cert.KernelIdeal.Gen.facts) (hPre_finite_inputs := Cert.Pre_finite_inputs.Gen.facts) :=
  fun m ρ _ => Cert.KernelIdeal.Whole.args_unchanged (F := Ideal) m ρ

theorem frame_ref : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2)
    (Cert.ReferenceIdeal.Value.run (F := Ideal) m ρ)

/-- Both programs end with the specification's three arrays of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, _, _, Cert.KernelIdeal.Result.value_run m ρ hpre, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12, a13, a14⟩ := hagree c
  refine ⟨?_, ?_, ?_, (h c).2.2.2⟩
  · rw [(h c).1, Cert.ReferenceIdeal.Read.val_main_v24_eq, Cert.ReferenceIdeal.RefAt.mix_all, a0, a11, a12, a13, a14]
  · rw [(h c).2.1, Cert.ReferenceIdeal.Read.val_main_v66_eq, Cert.ReferenceIdeal.RefAt.mean_all, a0, a1, a2, a3, a4, a5, a6, a7, a8]
  · rw [(h c).2.2.1, Cert.ReferenceIdeal.Read.val_main_v79_eq, Cert.ReferenceIdeal.RefAt.logvar_all, a0, a1, a2, a9, a10]

theorem claim : Cert.Claim :=
  ⟨Cert.Kernel.Gen.facts, Cert.KernelIdeal.Gen.facts, Cert.ReferenceIdeal.Gen.facts, Cert.Pre_finite_inputs.Gen.facts,
    frame_word, frame_ideal, frame_ref, trivial, algebraic⟩

end Cert.Proof

end
